-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)
  ∧ IdealRules.named_const.Statement Cert.KernelIdeal.κ "inv_sqrt_key" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x512 : Shape := ⟨3, ![2048, 8, 512]⟩
abbrev S32x512 : Shape := ⟨2, ![32, 512]⟩
abbrev S32 : Shape := ⟨1, ![32]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S128x512 : Shape := ⟨2, ![128, 512]⟩
abbrev S128 : Shape := ⟨1, ![128]⟩
abbrev S2048x512 : Shape := ⟨2, ![2048, 512]⟩
abbrev S2048 : Shape := ⟨1, ![2048]⟩
abbrev S512x2048 : Shape := ⟨2, ![512, 2048]⟩
abbrev S_ : Shape := ⟨0, ![]⟩

class Facts : Prop where
  bcast_S_S2048x8x512 : S_.BroadcastsInDim S2048x8x512 (![] : Fin 0 → Fin S2048x8x512.rank)
  reducesTo_S2048x8x512_S_d0_1_2 : S2048x8x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part6 {F : FTy → Type} [FloatOps F] (main_arg21 : FVec F S512 .f32) (main_v98 : IVec S_ 1) (main_v101 : IVec S512x2048 1) (main_c_39 : IVec S_ 1) : IVec S_ 1 :=
  let main_v102 : IVec S_ 1 := (fun x v => Host.reduce IntOp.andi x v reducesTo_S512x2048_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  main_v108

def fn_part5 {F : FTy → Type} [FloatOps F] (main_arg18 : FVec F S2048x512 .f32) (main_arg19 : FVec F S2048 .f32) (main_arg20 : FVec F S512x2048 .f32) (main_arg21 : FVec F S512 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S2048x512 .f32 := Host.absf main_arg18
  let main_cst_34 : FVec F S_ .f32 := constant S_ .f32 0x7F800000#32
  let main_v90 : FVec F S2048x512 .f32 := broadcastInDim S2048x512 ![] bcast_S_S2048x512 main_cst_34
  let main_v91 : IVec S2048x512 1 := cmpf .olt main_v89 main_v90
  let main_c_35 : IVec S_ 1 := constantI S_ 1 1#1
  let main_v92 : IVec S_ 1 := (fun x v => Host.reduce IntOp.andi x v reducesTo_S2048x512_S_d0_1 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S512x2048 .f32 := Host.absf main_arg20
  let main_cst_38 : FVec F S_ .f32 := constant S_ .f32 0x7F800000#32
  let main_v100 : FVec F S512x2048 .f32 := broadcastInDim S512x2048 ![] bcast_S_S512x2048 main_cst_38
  let main_v101 : IVec S512x2048 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v63 : IVec S_ 1) (main_v67 : IVec S_ 1) : IVec S_ 1 :=
  let main_v68 : IVec S_ 1 := andi main_v63 main_v67
  let main_v69 : FVec F S128x512 .f32 := Host.absf main_arg14
  let main_cst_26 : FVec F S_ .f32 := constant S_ .f32 0x7F800000#32
  let main_v70 : FVec F S128x512 .f32 := broadcastInDim S128x512 ![] bcast_S_S128x512 main_cst_26
  let main_v71 : IVec S128x512 1 := cmpf .olt main_v69 main_v70
  let main_c_27 : IVec S_ 1 := constantI S_ 1 1#1
  let main_v72 : IVec S_ 1 := (fun x v => Host.reduce IntOp.andi x v reducesTo_S128x512_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x512 .f32 := Host.absf main_arg16
  let main_cst_30 : FVec F S_ .f32 := constant S_ .f32 0x7F800000#32
  let main_v80 : FVec F S128x512 .f32 := broadcastInDim S128x512 ![] bcast_S_S128x512 main_cst_30
  let main_v81 : IVec S128x512 1 := cmpf .olt main_v79 main_v80
  let main_c_31 : IVec S_ 1 := constantI S_ 1 1#1
  let main_v82 : IVec S_ 1 := (fun x v => Host.reduce IntOp.andi x v reducesTo_S128x512_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S32x512 .f32) (main_arg5 : FVec F S32 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S2048x8x512 .f32) (main_arg1 : FVec F S2048x8x512 .f32) (main_arg2 : FVec F S32x512 .f32) (main_arg3 : FVec F S32 .f32) (main_arg4 : FVec F S32x512 .f32) (main_arg5 : FVec F S32 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S1024x512 .f32) (main_arg13 : FVec F S1024 .f32) (main_arg14 : FVec F S128x512 .f32) (main_arg15 : FVec F S128 .f32) (main_arg16 : FVec F S128x512 .f32) (main_arg17 : FVec F S128 .f32) (main_arg18 : FVec F S2048x512 .f32) (main_arg19 : FVec F S2048 .f32) (main_arg20 : FVec F S512x2048 .f32) (main_arg21 : FVec F S512 .f32) : IVec S_ 1 :=
  let main_v0 : FVec F S2048x8x512 .f32 := Host.absf main_arg0
  let main_cst : FVec F S_ .f32 := constant S_ .f32 0x7F800000#32
  let main_v1 : FVec F S2048x8x512 .f32 := broadcastInDim S2048x8x512 ![] bcast_S_S2048x8x512 main_cst
  let main_v2 : IVec S2048x8x512 1 := cmpf .olt main_v0 main_v1
  let main_c : IVec S_ 1 := constantI S_ 1 1#1
  let main_v3 : IVec S_ 1 := (fun x v => Host.reduce IntOp.andi x v reducesTo_S2048x8x512_S_d0_1_2 h_S_) main_v2 main_c
  let main_v4 : FVec F S2048x8x512 .f32 := Host.absf main_arg1
  let main_cst_0 : FVec F S_ .f32 := constant S_ .f32 0x7F800000#32
  let main_v5 : FVec F S2048x8x512 .f32 := broadcastInDim S2048x8x512 ![] bcast_S_S2048x8x512 main_cst_0
  let main_v6 : IVec S2048x8x512 1 := cmpf .olt main_v4 main_v5
  let main_c_1 : IVec S_ 1 := constantI S_ 1 1#1
  let main_v7 : IVec S_ 1 := (fun x v => Host.reduce IntOp.andi x v reducesTo_S2048x8x512_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S2048x8x512 : Shape := ⟨3, ![2048, 8, 512]⟩
abbrev S32x512 : Shape := ⟨2, ![32, 512]⟩
abbrev S32 : Shape := ⟨1, ![32]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S128x512 : Shape := ⟨2, ![128, 512]⟩
abbrev S128 : Shape := ⟨1, ![128]⟩
abbrev S2048x512 : Shape := ⟨2, ![2048, 512]⟩
abbrev S2048 : Shape := ⟨1, ![2048]⟩
abbrev S512x2048 : Shape := ⟨2, ![512, 2048]⟩
abbrev S128x8x512 : Shape := ⟨3, ![128, 8, 512]⟩
abbrev S128x16x512 : Shape := ⟨3, ![128, 16, 512]⟩
abbrev S1024x32 : Shape := ⟨2, ![1024, 32]⟩
abbrev S1x32 : Shape := ⟨2, ![1, 32]⟩
abbrev S128x8x32 : Shape := ⟨3, ![128, 8, 32]⟩
abbrev S2048x32 : Shape := ⟨2, ![2048, 32]⟩
abbrev S128x16x32 : Shape := ⟨3, ![128, 16, 32]⟩
abbrev S1x512 : Shape := ⟨2, ![1, 512]⟩
abbrev S128x8x16 : Shape := ⟨3, ![128, 8, 16]⟩
abbrev S128x8 : Shape := ⟨2, ![128, 8]⟩
abbrev S128x8x1 : Shape := ⟨3, ![128, 8, 1]⟩
abbrev S128x1x512 : Shape := ⟨3, ![128, 1, 512]⟩
abbrev S1024x1024 : Shape := ⟨2, ![1024, 1024]⟩
abbrev S1x1024 : Shape := ⟨2, ![1, 1024]⟩
abbrev S128x8x1024 : Shape := ⟨3, ![128, 8, 1024]⟩
abbrev S128x8x8 : Shape := ⟨3, ![128, 8, 8]⟩
abbrev S1x1x512 : Shape := ⟨3, ![1, 1, 512]⟩

abbrev nBuf : Space → Nat
  | .hbm => 24
  | .vmem => 28
  | .smem => 0
  | _ => 0

abbrev bufTy : (tb : Table) → Fin (tcTables nBuf tb) → BufTy
  | .hbm, ⟨0, _⟩ => ⟨S2048x8x512, .f32⟩
  | .hbm, ⟨1, _⟩ => ⟨S2048x8x512, .f32⟩
  | .hbm, ⟨2, _⟩ => ⟨S32x512, .f32⟩
  | .hbm, ⟨3, _⟩ => ⟨S32, .f32⟩
  | .hbm, ⟨4, _⟩ => ⟨S32x512, .f32⟩
  | .hbm, ⟨5, _⟩ => ⟨S32, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1024x512, .f32⟩
  | .hbm, ⟨13, _⟩ => ⟨S1024, .f32⟩
  | .hbm, ⟨14, _⟩ => ⟨S128x512, .f32⟩
  | .hbm, ⟨15, _⟩ => ⟨S128, .f32⟩
  | .hbm, ⟨16, _⟩ => ⟨S128x512, .f32⟩
  | .hbm, ⟨17, _⟩ => ⟨S128, .f32⟩
  | .hbm, ⟨18, _⟩ => ⟨S2048x512, .f32⟩
  | .hbm, ⟨19, _⟩ => ⟨S2048, .f32⟩
  | .hbm, ⟨20, _⟩ => ⟨S512x2048, .f32⟩
  | .hbm, ⟨21, _⟩ => ⟨S512, .f32⟩
  | .hbm, ⟨22, _⟩ => ⟨S2048x8x512, .f32⟩
  | .hbm, ⟨23, _⟩ => ⟨S2048x8x512, .f32⟩
  | .local _ .vmem, ⟨0, _⟩ => ⟨S128x8x512, .f32⟩
  | .local _ .vmem, ⟨1, _⟩ => ⟨S128x8x512, .f32⟩
  | .local _ .vmem, ⟨2, _⟩ => ⟨S128x8x512, .f32⟩
  | .local _ .vmem, ⟨3, _⟩ => ⟨S128x8x512, .f32⟩
  | .local _ .vmem, ⟨4, _⟩ => ⟨S32x512, .f32⟩
  | .local _ .vmem, ⟨5, _⟩ => ⟨S32, .f32⟩
  | .local _ .vmem, ⟨6, _⟩ => ⟨S32x512, .f32⟩
  | .local _ .vmem, ⟨7, _⟩ => ⟨S32, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S1024x512, .f32⟩
  | .local _ .vmem, ⟨15, _⟩ => ⟨S1024, .f32⟩
  | .local _ .vmem, ⟨16, _⟩ => ⟨S128x512, .f32⟩
  | .local _ .vmem, ⟨17, _⟩ => ⟨S128, .f32⟩
  | .local _ .vmem, ⟨18, _⟩ => ⟨S128x512, .f32⟩
  | .local _ .vmem, ⟨19, _⟩ => ⟨S128, .f32⟩
  | .local _ .vmem, ⟨20, _⟩ => ⟨S2048x512, .f32⟩
  | .local _ .vmem, ⟨21, _⟩ => ⟨S2048, .f32⟩
  | .local _ .vmem, ⟨22, _⟩ => ⟨S512x2048, .f32⟩
  | .local _ .vmem, ⟨23, _⟩ => ⟨S512, .f32⟩
  | .local _ .vmem, ⟨24, _⟩ => ⟨S128x8x512, .f32⟩
  | .local _ .vmem, ⟨25, _⟩ => ⟨S128x8x512, .f32⟩
  | .local _ .vmem, ⟨26, _⟩ => ⟨S128x8x512, .f32⟩
  | .local _ .vmem, ⟨27, _⟩ => ⟨S128x8x512, .f32⟩
  | _, _ => ⟨S2048x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S128x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x8x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  inb_S128x8x512_S128x8x512_0_0_0 : ∀ a, (![0, 0, 0] : Fin 3 → Nat) a + S128x8x512.size a ≤ S128x8x512.size a
  h_S128x8x512 : 0 < S128x8x512.numel
  concatenates_S128x8x512_S128x8x512_S128x16x512_d1 : Shape.Concatenates [S128x8x512, S128x8x512] S128x16x512 1
  inb_S32x512_S32x512_0_0 : ∀ a, (![0, 0] : Fin 2 → Nat) a + S32x512.size a ≤ S32x512.size a
  h_S32x512 : 0 < S32x512.numel
  bitsLt_bf16_f32 : FTy.bits .bf16 < FTy.bits .f32
  inb_S32_S32_0 : ∀ a, (![0] : Fin 1 → Nat) a + S32.size a ≤ S32.size a
  h_S32 : 0 < S32.numel
  shapeCasts_S128x8x512_S1024x512 : S128x8x512.ShapeCasts S1024x512
  shapeCasts_S32_S1x32 : S32.ShapeCasts S1x32
  broadcasts_S1x32_S1024x32 : S1x32.Broadcasts S1024x32
  shapeCasts_S1024x32_S128x8x32 : S1024x32.ShapeCasts S128x8x32
  shapeCasts_S128x16x512_S2048x512 : S128x16x512.ShapeCasts S2048x512
  broadcasts_S1x32_S2048x32 : S1x32.Broadcasts S2048x32
  shapeCasts_S2048x32_S128x16x32 : S2048x32.ShapeCasts S128x16x32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S128x16x512 : S2048x512.ShapeCasts S128x16x512
  reduces_S128x8x16_S128x8 : S128x8x16.Reduces [2] S128x8
  shapeCasts_S128x8_S128x8x1 : S128x8.ShapeCasts S128x8x1
  broadcasts_S128x8x1_S128x8x16 : S128x8x1.Broadcasts S128x8x16
  broadcasts_S1x512_S1024x512 : S1x512.Broadcasts S1024x512
  shapeCasts_S1024x512_S128x8x512 : S1024x512.ShapeCasts S128x8x512
  reduces_S128x8x512_S128x512 : S128x8x512.Reduces [1] S128x512
  shapeCasts_S128x512_S128x1x512 : S128x512.ShapeCasts S128x1x512
  broadcasts_S128x1x512_S128x8x512 : S128x1x512.Broadcasts S128x8x512
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S128x8x1024 : S1024x1024.ShapeCasts S128x8x1024
  slices_S128x8x1024_o0_0_0_S128x8x512 : S128x8x1024.Slices ![0, 0, 0] S128x8x512
  slices_S128x8x1024_o0_0_512_S128x8x512 : S128x8x1024.Slices ![0, 0, 512] S128x8x512
  inb_S128x512_S32x512_0_0 : ∀ a, (![0, 0] : Fin 2 → Nat) a + S32x512.size a ≤ S128x512.size a
  inb_S128_S32_0 : ∀ a, (![0] : Fin 1 → Nat) a + S32.size a ≤ S128.size a
  inb_S2048x512_S512x512_0_0 : ∀ a, (![0, 0] : Fin 2 → Nat) a + S512x512.size a ≤ S2048x512.size a
  inb_S2048_S512_0 : ∀ a, (![0] : Fin 1 → Nat) a + S512.size a ≤ S2048.size a
  inb_S512x2048_S512x512_0_0 : ∀ a, (![0, 0] : Fin 2 → Nat) a + S512x512.size a ≤ S512x2048.size a
  reduces_S128x8x8_S128x8 : S128x8x8.Reduces [2] S128x8
  broadcasts_S128x8x1_S128x8x8 : S128x8x1.Broadcasts S128x8x8
  inb_S128x512_S32x512_32_0 : ∀ a, (![32, 0] : Fin 2 → Nat) a + S32x512.size a ≤ S128x512.size a
  inb_S128_S32_32 : ∀ a, (![32] : Fin 1 → Nat) a + S32.size a ≤ S128.size a
  inb_S2048x512_S512x512_512_0 : ∀ a, (![512, 0] : Fin 2 → Nat) a + S512x512.size a ≤ S2048x512.size a
  inb_S2048_S512_512 : ∀ a, (![512] : Fin 1 → Nat) a + S512.size a ≤ S2048.size a
  inb_S512x2048_S512x512_0_512 : ∀ a, (![0, 512] : Fin 2 → Nat) a + S512x512.size a ≤ S512x2048.size a
  inb_S128x512_S32x512_64_0 : ∀ a, (![64, 0] : Fin 2 → Nat) a + S32x512.size a ≤ S128x512.size a
  inb_S128_S32_64 : ∀ a, (![64] : Fin 1 → Nat) a + S32.size a ≤ S128.size a
  inb_S2048x512_S512x512_1024_0 : ∀ a, (![1024, 0] : Fin 2 → Nat) a + S512x512.size a ≤ S2048x512.size a
  inb_S2048_S512_1024 : ∀ a, (![1024] : Fin 1 → Nat) a + S512.size a ≤ S2048.size a
  inb_S512x2048_S512x512_0_1024 : ∀ a, (![0, 1024] : Fin 2 → Nat) a + S512x512.size a ≤ S512x2048.size a
  inb_S128x512_S32x512_96_0 : ∀ a, (![96, 0] : Fin 2 → Nat) a + S32x512.size a ≤ S128x512.size a
  inb_S128_S32_96 : ∀ a, (![96] : Fin 1 → Nat) a + S32.size a ≤ S128.size a
  inb_S2048x512_S512x512_1536_0 : ∀ a, (![1536, 0] : Fin 2 → Nat) a + S512x512.size a ≤ S2048x512.size a
  inb_S2048_S512_1536 : ∀ a, (![1536] : Fin 1 → Nat) a + S512.size a ≤ S2048.size a
  inb_S512x2048_S512x512_0_1536 : ∀ a, (![0, 1536] : Fin 2 → Nat) a + S512x512.size a ≤ S512x2048.size a
  shapeCasts_S512_S1x1x512 : S512.ShapeCasts S1x1x512
  broadcasts_S1x1x512_S128x8x512 : S1x1x512.Broadcasts S128x8x512
  dot_S1024x512_S32x512_S1024x32_1_1_0_0_n_n_wf : DotDims.WF S1024x512 S32x512 S1024x32 [1] [1] [0] [0] [] []
  dot_S2048x512_S32x512_S2048x32_1_1_0_0_n_n_wf : DotDims.WF S2048x512 S32x512 S2048x32 [1] [1] [0] [0] [] []
  dot_S2048x512_S512x512_S2048x512_1_1_0_0_n_n_wf : DotDims.WF S2048x512 S512x512 S2048x512 [1] [1] [0] [0] [] []
  dot_S128x8x32_S128x16x32_S128x8x16_2_2_1_1_0_0_wf : DotDims.WF S128x8x32 S128x16x32 S128x8x16 [2] [2] [1] [1] [0] [0]
  dot_S128x8x16_S128x16x512_S128x8x512_2_1_1_2_0_0_wf : DotDims.WF S128x8x16 S128x16x512 S128x8x512 [2] [1] [1] [2] [0] [0]
  dot_S1024x512_S512x512_S1024x512_1_1_0_0_n_n_wf : DotDims.WF S1024x512 S512x512 S1024x512 [1] [1] [0] [0] [] []
  dot_S1024x512_S1024x512_S1024x1024_1_1_0_0_n_n_wf : DotDims.WF S1024x512 S1024x512 S1024x1024 [1] [1] [0] [0] [] []
  dot_S128x8x32_S128x8x32_S128x8x8_2_2_1_1_0_0_wf : DotDims.WF S128x8x32 S128x8x32 S128x8x8 [2] [2] [1] [1] [0] [0]
  dot_S128x8x8_S128x8x512_S128x8x512_2_1_1_2_0_0_wf : DotDims.WF S128x8x8 S128x8x512 S128x8x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x512.size a ≤ S2048x8x512.size a
  hwx0_0 : ∀ i : grid0.Coords, EltTy.bits .f32 = 32 ∨ (Rect.block (s := S2048x8x512) S128x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8x512.size a ≤ S2048x8x512.size a
  hwx0_1 : ∀ i : grid0.Coords, EltTy.bits .f32 = 32 ∨ (Rect.block (s := S2048x8x512) S128x8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .f32 = 32 ∨ (Rect.block (s := S1024x512) S1024x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x512.size a ≤ S128x512.size a
  hwx0_14 : ∀ i : grid0.Coords, EltTy.bits .f32 = 32 ∨ (Rect.block (s := S128x512) S128x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x512.size a ≤ S128x512.size a
  hwx0_16 : ∀ i : grid0.Coords, EltTy.bits .f32 = 32 ∨ (Rect.block (s := S128x512) S128x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2048x512.size a ≤ S2048x512.size a
  hwx0_18 : ∀ i : grid0.Coords, EltTy.bits .f32 = 32 ∨ (Rect.block (s := S2048x512) S2048x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2048.size a ≤ S2048.size a
  hwx0_19 : ∀ i : grid0.Coords, EltTy.bits .f32 = 32 ∨ (Rect.block (s := S2048) S2048.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x2048.size a ≤ S512x2048.size a
  hwx0_20 : ∀ i : grid0.Coords, EltTy.bits .f32 = 32 ∨ (Rect.block (s := S512x2048) S512x2048.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S128x8x512.size a ≤ S2048x8x512.size a
  hwx0_22 : ∀ i : grid0.Coords, EltTy.bits .f32 = 32 ∨ (Rect.block (s := S2048x8x512) S128x8x512.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S128x8x512.size a ≤ S2048x8x512.size a
  hwx0_23 : ∀ i : grid0.Coords, EltTy.bits .f32 = 32 ∨ (Rect.block (s := S2048x8x512) S128x8x512.size (cc0_transform_23 i) (hinb0_23 i)).WholeWords (EltTy.packing .f32)

variable [Facts₀]

def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf
def dot_S2048x512_S32x512_S2048x32_1_1_0_0_n_n : DotDims S2048x512 S32x512 S2048x32 where
  lhsContracting := [1]
  rhsContracting := [1]
  lhsNonContracting := [0]
  rhsNonContracting := [0]
  lhsBatch := []
  rhsBatch := []
  wf := dot_S2048x512_S32x512_S2048x32_1_1_0_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S128x8x32_S128x16x32_S128x8x16_2_2_1_1_0_0 : DotDims S128x8x32 S128x16x32 S128x8x16 where
  lhsContracting := [2]
  rhsContracting := [2]
  lhsNonContracting := [1]
  rhsNonContracting := [1]
  lhsBatch := [0]
  rhsBatch := [0]
  wf := dot_S128x8x32_S128x16x32_S128x8x16_2_2_1_1_0_0_wf
def dot_S128x8x16_S128x16x512_S128x8x512_2_1_1_2_0_0 : DotDims S128x8x16 S128x16x512 S128x8x512 where
  lhsContracting := [2]
  rhsContracting := [1]
  lhsNonContracting := [1]
  rhsNonContracting := [2]
  lhsBatch := [0]
  rhsBatch := [0]
  wf := dot_S128x8x16_S128x16x512_S128x8x512_2_1_1_2_0_0_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S128x8x32_S128x8x32_S128x8x8_2_2_1_1_0_0 : DotDims S128x8x32 S128x8x32 S128x8x8 where
  lhsContracting := [2]
  rhsContracting := [2]
  lhsNonContracting := [1]
  rhsNonContracting := [1]
  lhsBatch := [0]
  rhsBatch := [0]
  wf := dot_S128x8x32_S128x8x32_S128x8x8_2_2_1_1_0_0_wf
def dot_S128x8x8_S128x8x512_S128x8x512_2_1_1_2_0_0 : DotDims S128x8x8 S128x8x512 S128x8x512 where
  lhsContracting := [2]
  rhsContracting := [1]
  lhsNonContracting := [1]
  rhsNonContracting := [2]
  lhsBatch := [0]
  rhsBatch := [0]
  wf := dot_S128x8x8_S128x8x512_S128x8x512_2_1_1_2_0_0_wf

abbrev win0_0 : Pipeline.Window sig grid0 :=
  Pipeline.Window.ofSpec (Memref.whole main_arg0) S128x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S2048x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2048.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S512x2048.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v0_0) S128x8x512.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v0_1) S128x8x512.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S2048x8x512 : Shape := ⟨3, ![2048, 8, 512]⟩
abbrev S32x512 : Shape := ⟨2, ![32, 512]⟩
abbrev S32 : Shape := ⟨1, ![32]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S128x512 : Shape := ⟨2, ![128, 512]⟩
abbrev S128 : Shape := ⟨1, ![128]⟩
abbrev S2048x512 : Shape := ⟨2, ![2048, 512]⟩
abbrev S2048 : Shape := ⟨1, ![2048]⟩
abbrev S512x2048 : Shape := ⟨2, ![512, 2048]⟩
abbrev S2048x16x512 : Shape := ⟨3, ![2048, 16, 512]⟩
abbrev S2048x8x32 : Shape := ⟨3, ![2048, 8, 32]⟩
abbrev S1x1x32 : Shape := ⟨3, ![1, 1, 32]⟩
abbrev S2048x8x1x32 : Shape := ⟨4, ![2048, 8, 1, 32]⟩
abbrev S2048x1x8x32 : Shape := ⟨4, ![2048, 1, 8, 32]⟩
abbrev S2048x16x32 : Shape := ⟨3, ![2048, 16, 32]⟩
abbrev S2048x16x1x32 : Shape := ⟨4, ![2048, 16, 1, 32]⟩
abbrev S2048x1x16x32 : Shape := ⟨4, ![2048, 1, 16, 32]⟩
abbrev S1x1x512 : Shape := ⟨3, ![1, 1, 512]⟩
abbrev S2048x16x1x512 : Shape := ⟨4, ![2048, 16, 1, 512]⟩
abbrev S2048x1x16x512 : Shape := ⟨4, ![2048, 1, 16, 512]⟩
abbrev S2048x1x8x16 : Shape := ⟨4, ![2048, 1, 8, 16]⟩
abbrev S_ : Shape := ⟨0, ![]⟩
abbrev S2048x1x8 : Shape := ⟨3, ![2048, 1, 8]⟩
abbrev S2048x1x8x1 : Shape := ⟨4, ![2048, 1, 8, 1]⟩
abbrev S2048x1x8x512 : Shape := ⟨4, ![2048, 1, 8, 512]⟩
abbrev S2048x8x1x512 : Shape := ⟨4, ![2048, 8, 1, 512]⟩
abbrev S2048x1x512 : Shape := ⟨3, ![2048, 1, 512]⟩
abbrev S2048x8x1024 : Shape := ⟨3, ![2048, 8, 1024]⟩
abbrev S1x1x1024 : Shape := ⟨3, ![1, 1, 1024]⟩
abbrev S2048x8x128 : Shape := ⟨3, ![2048, 8, 128]⟩
abbrev S1x1x128 : Shape := ⟨3, ![1, 1, 128]⟩
abbrev S2048x8x4x32 : Shape := ⟨4, ![2048, 8, 4, 32]⟩
abbrev S2048x4x8x32 : Shape := ⟨4, ![2048, 4, 8, 32]⟩
abbrev S2048x8x2048 : Shape := ⟨3, ![2048, 8, 2048]⟩
abbrev S1x1x2048 : Shape := ⟨3, ![1, 1, 2048]⟩
abbrev S2048x8x4x512 : Shape := ⟨4, ![2048, 8, 4, 512]⟩
abbrev S2048x4x8x512 : Shape := ⟨4, ![2048, 4, 8, 512]⟩
abbrev S2048x4x8x8 : Shape := ⟨4, ![2048, 4, 8, 8]⟩
abbrev S2048x4x8 : Shape := ⟨3, ![2048, 4, 8]⟩
abbrev S2048x4x8x1 : Shape := ⟨4, ![2048, 4, 8, 1]⟩

abbrev nBuf : Space → Nat
  | .hbm => 144
  | .vmem => 0
  | .smem => 0
  | _ => 0

abbrev hbmTy0_0 (i : Nat) : BufTy := match i % 128 with
  | 0 => ⟨S2048x8x512, .f32⟩
  | 1 => ⟨S2048x8x512, .f32⟩
  | 2 => ⟨S32x512, .f32⟩
  | 3 => ⟨S32, .f32⟩
  | 4 => ⟨S32x512, .f32⟩
  | 5 => ⟨S32, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S1024x512, .f32⟩
  | 13 => ⟨S1024, .f32⟩
  | 14 => ⟨S128x512, .f32⟩
  | 15 => ⟨S128, .f32⟩
  | 16 => ⟨S128x512, .f32⟩
  | 17 => ⟨S128, .f32⟩
  | 18 => ⟨S2048x512, .f32⟩
  | 19 => ⟨S2048, .f32⟩
  | 20 => ⟨S512x2048, .f32⟩
  | 21 => ⟨S512, .f32⟩
  | 22 => ⟨S2048x16x512, .f32⟩
  | 23 => ⟨S2048x8x32, .f32⟩
  | 24 => ⟨S1x1x32, .f32⟩
  | 25 => ⟨S2048x8x32, .f32⟩
  | 26 => ⟨S2048x8x32, .f32⟩
  | 27 => ⟨S2048x8x1x32, .f32⟩
  | 28 => ⟨S2048x1x8x32, .f32⟩
  | 29 => ⟨S2048x16x32, .f32⟩
  | 30 => ⟨S1x1x32, .f32⟩
  | 31 => ⟨S2048x16x32, .f32⟩
  | 32 => ⟨S2048x16x32, .f32⟩
  | 33 => ⟨S2048x16x1x32, .f32⟩
  | 34 => ⟨S2048x1x16x32, .f32⟩
  | 35 => ⟨S2048x16x512, .f32⟩
  | 36 => ⟨S1x1x512, .f32⟩
  | 37 => ⟨S2048x16x512, .f32⟩
  | 38 => ⟨S2048x16x512, .f32⟩
  | 39 => ⟨S2048x16x1x512, .f32⟩
  | 40 => ⟨S2048x1x16x512, .f32⟩
  | 41 => ⟨S2048x1x8x16, .f32⟩
  | 42 => ⟨S_, .f32⟩
  | 43 => ⟨S2048x1x8x16, .f32⟩
  | 44 => ⟨S2048x1x8x16, .f32⟩
  | 45 => ⟨S_, .f32⟩
  | 46 => ⟨S2048x1x8, .f32⟩
  | 47 => ⟨S_, .f32⟩
  | 48 => ⟨S2048x1x8, .f32⟩
  | 49 => ⟨S2048x1x8, .f32⟩
  | 50 => ⟨S2048x1x8x1, .f32⟩
  | 51 => ⟨S2048x1x8x16, .f32⟩
  | 52 => ⟨S2048x1x8x16, .f32⟩
  | 53 => ⟨S2048x1x8x16, .f32⟩
  | 54 => ⟨S_, .f32⟩
  | 55 => ⟨S2048x1x8, .f32⟩
  | 56 => ⟨S2048x1x8x1, .f32⟩
  | 57 => ⟨S2048x1x8x16, .f32⟩
  | 58 => ⟨S2048x1x8x16, .f32⟩
  | 59 => ⟨S2048x1x8x512, .f32⟩
  | 60 => ⟨S2048x8x1x512, .f32⟩
  | 61 => ⟨S2048x8x512, .f32⟩
  | 62 => ⟨S2048x8x512, .f32⟩
  | 63 => ⟨S1x1x512, .f32⟩
  | 64 => ⟨S2048x8x512, .f32⟩
  | 65 => ⟨S2048x8x512, .f32⟩
  | 66 => ⟨S2048x8x512, .f32⟩
  | 67 => ⟨S1x1x512, .f32⟩
  | 68 => ⟨S2048x8x512, .f32⟩
  | 69 => ⟨S2048x8x512, .f32⟩
  | 70 => ⟨S_, .f32⟩
  | 71 => ⟨S2048x8x512, .f32⟩
  | 72 => ⟨S2048x8x512, .f32⟩
  | 73 => ⟨S_, .f32⟩
  | 74 => ⟨S2048x512, .f32⟩
  | 75 => ⟨S2048x1x512, .f32⟩
  | 76 => ⟨S_, .f32⟩
  | 77 => ⟨S2048x1x512, .f32⟩
  | 78 => ⟨S2048x1x512, .f32⟩
  | 79 => ⟨S2048x8x512, .f32⟩
  | 80 => ⟨S2048x8x512, .f32⟩
  | 81 => ⟨S2048x8x512, .f32⟩
  | 82 => ⟨S2048x8x1024, .f32⟩
  | 83 => ⟨S1x1x1024, .f32⟩
  | 84 => ⟨S2048x8x1024, .f32⟩
  | 85 => ⟨S2048x8x1024, .f32⟩
  | 86 => ⟨S2048x8x1024, .f32⟩
  | 87 => ⟨S2048x8x1024, .f32⟩
  | 88 => ⟨S_, .f32⟩
  | 89 => ⟨S2048x8x1024, .f32⟩
  | 90 => ⟨S2048x8x1024, .f32⟩
  | 91 => ⟨S_, .f32⟩
  | 92 => ⟨S2048x8x1024, .f32⟩
  | 93 => ⟨S2048x8x1024, .f32⟩
  | 94 => ⟨S2048x8x512, .f32⟩
  | 95 => ⟨S2048x8x512, .f32⟩
  | 96 => ⟨S2048x8x512, .f32⟩
  | 97 => ⟨S2048x8x512, .f32⟩
  | 98 => ⟨S2048x8x512, .f32⟩
  | 99 => ⟨S2048x8x512, .f32⟩
  | 100 => ⟨S2048x8x128, .f32⟩
  | 101 => ⟨S1x1x128, .f32⟩
  | 102 => ⟨S2048x8x128, .f32⟩
  | 103 => ⟨S2048x8x128, .f32⟩
  | 104 => ⟨S2048x8x4x32, .f32⟩
  | 105 => ⟨S2048x4x8x32, .f32⟩
  | 106 => ⟨S2048x8x128, .f32⟩
  | 107 => ⟨S1x1x128, .f32⟩
  | 108 => ⟨S2048x8x128, .f32⟩
  | 109 => ⟨S2048x8x128, .f32⟩
  | 110 => ⟨S2048x8x4x32, .f32⟩
  | 111 => ⟨S2048x4x8x32, .f32⟩
  | 112 => ⟨S2048x8x2048, .f32⟩
  | 113 => ⟨S1x1x2048, .f32⟩
  | 114 => ⟨S2048x8x2048, .f32⟩
  | 115 => ⟨S2048x8x2048, .f32⟩
  | 116 => ⟨S2048x8x4x512, .f32⟩
  | 117 => ⟨S2048x4x8x512, .f32⟩
  | 118 => ⟨S2048x4x8x8, .f32⟩
  | 119 => ⟨S_, .f32⟩
  | 120 => ⟨S2048x4x8x8, .f32⟩
  | 121 => ⟨S2048x4x8x8, .f32⟩
  | 122 => ⟨S_, .f32⟩
  | 123 => ⟨S2048x4x8, .f32⟩
  | 124 => ⟨S_, .f32⟩
  | 125 => ⟨S2048x4x8, .f32⟩
  | 126 => ⟨S2048x4x8, .f32⟩
  | 127 => ⟨S2048x4x8x1, .f32⟩
  | _ => ⟨S2048x8x512, .f32⟩

abbrev hbmTy0_1 (i : Nat) : BufTy := match i % 128 with
  | 0 => ⟨S2048x4x8x8, .f32⟩
  | 1 => ⟨S2048x4x8x8, .f32⟩
  | 2 => ⟨S2048x4x8x8, .f32⟩
  | 3 => ⟨S_, .f32⟩
  | 4 => ⟨S2048x4x8, .f32⟩
  | 5 => ⟨S2048x4x8x1, .f32⟩
  | 6 => ⟨S2048x4x8x8, .f32⟩
  | 7 => ⟨S2048x4x8x8, .f32⟩
  | 8 => ⟨S2048x4x8x512, .f32⟩
  | 9 => ⟨S2048x8x4x512, .f32⟩
  | 10 => ⟨S2048x8x2048, .f32⟩
  | 11 => ⟨S2048x8x512, .f32⟩
  | 12 => ⟨S1x1x512, .f32⟩
  | 13 => ⟨S2048x8x512, .f32⟩
  | 14 => ⟨S2048x8x512, .f32⟩
  | 15 => ⟨S2048x8x512, .f32⟩
  | _ => ⟨S2048x8x512, .f32⟩

abbrev hbmTy (i : Nat) : BufTy := match i / 128 with
  | 0 => hbmTy0_0 i
  | 1 => hbmTy0_1 i
  | _ => ⟨S2048x8x512, .f32⟩

abbrev bufTy : (tb : Table) → Fin (tcTables nBuf tb) → BufTy
  | .hbm, ⟨i, _⟩ => hbmTy i
  | _, _ => ⟨S2048x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_7 : Ref sig .tc := ⟨.hbm, 119, rfl⟩
abbrev main_v87 : Ref sig .tc := ⟨.hbm, 120, rfl⟩
abbrev main_v88 : Ref sig .tc := ⟨.hbm, 121, rfl⟩
abbrev main_cst_8 : Ref sig .tc := ⟨.hbm, 122, rfl⟩
abbrev main_v89 : Ref sig .tc := ⟨.hbm, 123, rfl⟩
abbrev main_cst_9 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_10 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]

class Facts₀ : Prop where
  concatenates_S2048x8x512_S2048x8x512_S2048x16x512_d1 : Shape.Concatenates [S2048x8x512, S2048x8x512] S2048x16x512 1
  bcast_S32_S1x1x32_2 : S32.BroadcastsInDim S1x1x32 (![2] : Fin 1 → Fin S1x1x32.rank)
  bcast_S1x1x32_S2048x8x32_0_1_2 : S1x1x32.BroadcastsInDim S2048x8x32 (![0, 1, 2] : Fin 3 → Fin S2048x8x32.rank)
  shapeCasts_S2048x8x32_S2048x8x1x32 : S2048x8x32.ShapeCasts S2048x8x1x32
  transposes_S2048x8x1x32_S2048x1x8x32_0_2_1_3 : S2048x8x1x32.Transposes [0, 2, 1, 3] S2048x1x8x32
  bcast_S1x1x32_S2048x16x32_0_1_2 : S1x1x32.BroadcastsInDim S2048x16x32 (![0, 1, 2] : Fin 3 → Fin S2048x16x32.rank)
  shapeCasts_S2048x16x32_S2048x16x1x32 : S2048x16x32.ShapeCasts S2048x16x1x32
  transposes_S2048x16x1x32_S2048x1x16x32_0_2_1_3 : S2048x16x1x32.Transposes [0, 2, 1, 3] S2048x1x16x32
  bcast_S512_S1x1x512_2 : S512.BroadcastsInDim S1x1x512 (![2] : Fin 1 → Fin S1x1x512.rank)
  bcast_S1x1x512_S2048x16x512_0_1_2 : S1x1x512.BroadcastsInDim S2048x16x512 (![0, 1, 2] : Fin 3 → Fin S2048x16x512.rank)
  shapeCasts_S2048x16x512_S2048x16x1x512 : S2048x16x512.ShapeCasts S2048x16x1x512
  transposes_S2048x16x1x512_S2048x1x16x512_0_2_1_3 : S2048x16x1x512.Transposes [0, 2, 1, 3] S2048x1x16x512
  bcast_S_S2048x1x8x16 : S_.BroadcastsInDim S2048x1x8x16 (![] : Fin 0 → Fin S2048x1x8x16.rank)
  reducesTo_S2048x1x8x16_S2048x1x8_d3 : S2048x1x8x16.ReducesTo [3] S2048x1x8
  h_S_ : 0 < S_.numel
  bcast_S_S2048x1x8 : S_.BroadcastsInDim S2048x1x8 (![] : Fin 0 → Fin S2048x1x8.rank)
  bcast_S2048x1x8_S2048x1x8x1_0_1_2 : S2048x1x8.BroadcastsInDim S2048x1x8x1 (![0, 1, 2] : Fin 3 → Fin S2048x1x8x1.rank)
  bcast_S2048x1x8x1_S2048x1x8x16_0_1_2_3 : S2048x1x8x1.BroadcastsInDim S2048x1x8x16 (![0, 1, 2, 3] : Fin 4 → Fin S2048x1x8x16.rank)
  transposes_S2048x1x8x512_S2048x8x1x512_0_2_1_3 : S2048x1x8x512.Transposes [0, 2, 1, 3] S2048x8x1x512
  shapeCasts_S2048x8x1x512_S2048x8x512 : S2048x8x1x512.ShapeCasts S2048x8x512
  bcast_S1x1x512_S2048x8x512_0_1_2 : S1x1x512.BroadcastsInDim S2048x8x512 (![0, 1, 2] : Fin 3 → Fin S2048x8x512.rank)
  bcast_S_S2048x8x512 : S_.BroadcastsInDim S2048x8x512 (![] : Fin 0 → Fin S2048x8x512.rank)
  reducesTo_S2048x8x512_S2048x512_d1 : S2048x8x512.ReducesTo [1] S2048x512
  bcast_S2048x512_S2048x1x512_0_2 : S2048x512.BroadcastsInDim S2048x1x512 (![0, 2] : Fin 2 → Fin S2048x1x512.rank)
  bcast_S_S2048x1x512 : S_.BroadcastsInDim S2048x1x512 (![] : Fin 0 → Fin S2048x1x512.rank)
  bcast_S2048x1x512_S2048x8x512_0_1_2 : S2048x1x512.BroadcastsInDim S2048x8x512 (![0, 1, 2] : Fin 3 → Fin S2048x8x512.rank)
  bcast_S1024_S1x1x1024_2 : S1024.BroadcastsInDim S1x1x1024 (![2] : Fin 1 → Fin S1x1x1024.rank)
  bcast_S1x1x1024_S2048x8x1024_0_1_2 : S1x1x1024.BroadcastsInDim S2048x8x1024 (![0, 1, 2] : Fin 3 → Fin S2048x8x1024.rank)
  bcast_S_S2048x8x1024 : S_.BroadcastsInDim S2048x8x1024 (![] : Fin 0 → Fin S2048x8x1024.rank)
  slices_S2048x8x1024_S2048x8x512_0_0_0 : S2048x8x1024.Slices ![0, 0, 0] S2048x8x512
  slices_S2048x8x1024_S2048x8x512_0_0_512 : S2048x8x1024.Slices ![0, 0, 512] S2048x8x512
  bcast_S128_S1x1x128_2 : S128.BroadcastsInDim S1x1x128 (![2] : Fin 1 → Fin S1x1x128.rank)
  bcast_S1x1x128_S2048x8x128_0_1_2 : S1x1x128.BroadcastsInDim S2048x8x128 (![0, 1, 2] : Fin 3 → Fin S2048x8x128.rank)
  shapeCasts_S2048x8x128_S2048x8x4x32 : S2048x8x128.ShapeCasts S2048x8x4x32
  transposes_S2048x8x4x32_S2048x4x8x32_0_2_1_3 : S2048x8x4x32.Transposes [0, 2, 1, 3] S2048x4x8x32
  bcast_S2048_S1x1x2048_2 : S2048.BroadcastsInDim S1x1x2048 (![2] : Fin 1 → Fin S1x1x2048.rank)
  bcast_S1x1x2048_S2048x8x2048_0_1_2 : S1x1x2048.BroadcastsInDim S2048x8x2048 (![0, 1, 2] : Fin 3 → Fin S2048x8x2048.rank)
  shapeCasts_S2048x8x2048_S2048x8x4x512 : S2048x8x2048.ShapeCasts S2048x8x4x512
  transposes_S2048x8x4x512_S2048x4x8x512_0_2_1_3 : S2048x8x4x512.Transposes [0, 2, 1, 3] S2048x4x8x512
  bcast_S_S2048x4x8x8 : S_.BroadcastsInDim S2048x4x8x8 (![] : Fin 0 → Fin S2048x4x8x8.rank)
  reducesTo_S2048x4x8x8_S2048x4x8_d3 : S2048x4x8x8.ReducesTo [3] S2048x4x8
  bcast_S_S2048x4x8 : S_.BroadcastsInDim S2048x4x8 (![] : Fin 0 → Fin S2048x4x8.rank)
  bcast_S2048x4x8_S2048x4x8x1_0_1_2 : S2048x4x8.BroadcastsInDim S2048x4x8x1 (![0, 1, 2] : Fin 3 → Fin S2048x4x8x1.rank)
  bcast_S2048x4x8x1_S2048x4x8x8_0_1_2_3 : S2048x4x8x1.BroadcastsInDim S2048x4x8x8 (![0, 1, 2, 3] : Fin 4 → Fin S2048x4x8x8.rank)
  transposes_S2048x4x8x512_S2048x8x4x512_0_2_1_3 : S2048x4x8x512.Transposes [0, 2, 1, 3] S2048x8x4x512
  shapeCasts_S2048x8x4x512_S2048x8x2048 : S2048x8x4x512.ShapeCasts S2048x8x2048
  dot_S2048x8x512_S32x512_S2048x8x32_2_1_01_0_n_n_wf : DotDims.WF S2048x8x512 S32x512 S2048x8x32 [2] [1] [0, 1] [0] [] []
  dot_S2048x16x512_S32x512_S2048x16x32_2_1_01_0_n_n_wf : DotDims.WF S2048x16x512 S32x512 S2048x16x32 [2] [1] [0, 1] [0] [] []
  dot_S2048x16x512_S512x512_S2048x16x512_2_1_01_0_n_n_wf : DotDims.WF S2048x16x512 S512x512 S2048x16x512 [2] [1] [0, 1] [0] [] []
  dot_S2048x1x8x32_S2048x1x16x32_S2048x1x8x16_3_3_2_2_01_01_wf : DotDims.WF S2048x1x8x32 S2048x1x16x32 S2048x1x8x16 [3] [3] [2] [2] [0, 1] [0, 1]
  dot_S2048x1x8x16_S2048x1x16x512_S2048x1x8x512_3_2_2_3_01_01_wf : DotDims.WF S2048x1x8x16 S2048x1x16x512 S2048x1x8x512 [3] [2] [2] [3] [0, 1] [0, 1]
  dot_S2048x8x512_S512x512_S2048x8x512_2_1_01_0_n_n_wf : DotDims.WF S2048x8x512 S512x512 S2048x8x512 [2] [1] [0, 1] [0] [] []
  dot_S2048x8x512_S1024x512_S2048x8x1024_2_1_01_0_n_n_wf : DotDims.WF S2048x8x512 S1024x512 S2048x8x1024 [2] [1] [0, 1] [0] [] []
  dot_S2048x8x512_S128x512_S2048x8x128_2_1_01_0_n_n_wf : DotDims.WF S2048x8x512 S128x512 S2048x8x128 [2] [1] [0, 1] [0] [] []
  dot_S2048x8x512_S2048x512_S2048x8x2048_2_1_01_0_n_n_wf : DotDims.WF S2048x8x512 S2048x512 S2048x8x2048 [2] [1] [0, 1] [0] [] []
  dot_S2048x4x8x32_S2048x4x8x32_S2048x4x8x8_3_3_2_2_01_01_wf : DotDims.WF S2048x4x8x32 S2048x4x8x32 S2048x4x8x8 [3] [3] [2] [2] [0, 1] [0, 1]
  dot_S2048x4x8x8_S2048x4x8x512_S2048x4x8x512_3_2_2_3_01_01_wf : DotDims.WF S2048x4x8x8 S2048x4x8x512 S2048x4x8x512 [3] [2] [2] [3] [0, 1] [0, 1]
  dot_S2048x8x2048_S512x2048_S2048x8x512_2_1_01_0_n_n_wf : DotDims.WF S2048x8x2048 S512x2048 S2048x8x512 [2] [1] [0, 1] [0] [] []

variable [Facts₀]

def dot_S2048x8x512_S32x512_S2048x8x32_2_1_01_0_n_n : DotDims S2048x8x512 S32x512 S2048x8x32 where
  lhsContracting := [2]
  rhsContracting := [1]
  lhsNonContracting := [0, 1]
  rhsNonContracting := [0]
  lhsBatch := []
  rhsBatch := []
  wf := dot_S2048x8x512_S32x512_S2048x8x32_2_1_01_0_n_n_wf
def dot_S2048x16x512_S32x512_S2048x16x32_2_1_01_0_n_n : DotDims S2048x16x512 S32x512 S2048x16x32 where
  lhsContracting := [2]
  rhsContracting := [1]
  lhsNonContracting := [0, 1]
  rhsNonContracting := [0]
  lhsBatch := []
  rhsBatch := []
  wf := dot_S2048x16x512_S32x512_S2048x16x32_2_1_01_0_n_n_wf
def dot_S2048x16x512_S512x512_S2048x16x512_2_1_01_0_n_n : DotDims S2048x16x512 S512x512 S2048x16x512 where
  lhsContracting := [2]
  rhsContracting := [1]
  lhsNonContracting := [0, 1]
  rhsNonContracting := [0]
  lhsBatch := []
  rhsBatch := []
  wf := dot_S2048x16x512_S512x512_S2048x16x512_2_1_01_0_n_n_wf
def dot_S2048x1x8x32_S2048x1x16x32_S2048x1x8x16_3_3_2_2_01_01 : DotDims S2048x1x8x32 S2048x1x16x32 S2048x1x8x16 where
  lhsContracting := [3]
  rhsContracting := [3]
  lhsNonContracting := [2]
  rhsNonContracting := [2]
  lhsBatch := [0, 1]
  rhsBatch := [0, 1]
  wf := dot_S2048x1x8x32_S2048x1x16x32_S2048x1x8x16_3_3_2_2_01_01_wf
def dot_S2048x1x8x16_S2048x1x16x512_S2048x1x8x512_3_2_2_3_01_01 : DotDims S2048x1x8x16 S2048x1x16x512 S2048x1x8x512 where
  lhsContracting := [3]
  rhsContracting := [2]
  lhsNonContracting := [2]
  rhsNonContracting := [3]
  lhsBatch := [0, 1]
  rhsBatch := [0, 1]
  wf := dot_S2048x1x8x16_S2048x1x16x512_S2048x1x8x512_3_2_2_3_01_01_wf
def dot_S2048x8x512_S512x512_S2048x8x512_2_1_01_0_n_n : DotDims S2048x8x512 S512x512 S2048x8x512 where
  lhsContracting := [2]
  rhsContracting := [1]
  lhsNonContracting := [0, 1]
  rhsNonContracting := [0]
  lhsBatch := []
  rhsBatch := []
  wf := dot_S2048x8x512_S512x512_S2048x8x512_2_1_01_0_n_n_wf
def dot_S2048x8x512_S1024x512_S2048x8x1024_2_1_01_0_n_n : DotDims S2048x8x512 S1024x512 S2048x8x1024 where
  lhsContracting := [2]
  rhsContracting := [1]
  lhsNonContracting := [0, 1]
  rhsNonContracting := [0]
  lhsBatch := []
  rhsBatch := []
  wf := dot_S2048x8x512_S1024x512_S2048x8x1024_2_1_01_0_n_n_wf
def dot_S2048x8x512_S128x512_S2048x8x128_2_1_01_0_n_n : DotDims S2048x8x512 S128x512 S2048x8x128 where
  lhsContracting := [2]
  rhsContracting := [1]
  lhsNonContracting := [0, 1]
  rhsNonContracting := [0]
  lhsBatch := []
  rhsBatch := []
  wf := dot_S2048x8x512_S128x512_S2048x8x128_2_1_01_0_n_n_wf
def dot_S2048x8x512_S2048x512_S2048x8x2048_2_1_01_0_n_n : DotDims S2048x8x512 S2048x512 S2048x8x2048 where
  lhsContracting := [2]
  rhsContracting := [1]
  lhsNonContracting := [0, 1]
  rhsNonContracting := [0]
  lhsBatch := []
  rhsBatch := []
  wf := dot_S2048x8x512_S2048x512_S2048x8x2048_2_1_01_0_n_n_wf
def dot_S2048x4x8x32_S2048x4x8x32_S2048x4x8x8_3_3_2_2_01_01 : DotDims S2048x4x8x32 S2048x4x8x32 S2048x4x8x8 where
  lhsContracting := [3]
  rhsContracting := [3]
  lhsNonContracting := [2]
  rhsNonContracting := [2]
  lhsBatch := [0, 1]
  rhsBatch := [0, 1]
  wf := dot_S2048x4x8x32_S2048x4x8x32_S2048x4x8x8_3_3_2_2_01_01_wf
def dot_S2048x4x8x8_S2048x4x8x512_S2048x4x8x512_3_2_2_3_01_01 : DotDims S2048x4x8x8 S2048x4x8x512 S2048x4x8x512 where
  lhsContracting := [3]
  rhsContracting := [2]
  lhsNonContracting := [2]
  rhsNonContracting := [3]
  lhsBatch := [0, 1]
  rhsBatch := [0, 1]
  wf := dot_S2048x4x8x8_S2048x4x8x512_S2048x4x8x512_3_2_2_3_01_01_wf
def dot_S2048x8x2048_S512x2048_S2048x8x512_2_1_01_0_n_n : DotDims S2048x8x2048 S512x2048 S2048x8x512 where
  lhsContracting := [2]
  rhsContracting := [1]
  lhsNonContracting := [0, 1]
  rhsNonContracting := [0]
  lhsBatch := []
  rhsBatch := []
  wf := dot_S2048x8x2048_S512x2048_S2048x8x512_2_1_01_0_n_n_wf

class Facts : Prop extends Facts₀ where

variable [Facts]
-- ==== Proof.Imports.lean ====
/- The generated value leg of the idealized kernel and the generated run of the reference with its read-at-an-index lemmas, gathered under one import. -/
import proofs.«106064_j9835475108028_1_alg».proof.Proof.Gen.KernelIdeal.Value
import proofs.«106064_j9835475108028_1_alg».proof.Proof.Gen.ReferenceIdeal.Run
import proofs.«106064_j9835475108028_1_alg».proof.Proof.Gen.ReferenceIdeal.Read
-- ==== Proof.Spec.lean ====
/-
  The mathematics both programs compute, for ONE batch element, as plain functions of indices over the extended reals.

  A batch element carries `hs, mem : 8 × 512`. With `lin W b x o = (∑ i, x i · W o i) + b o`:
  * write attention (one head, key size 32): queries from `mem`, keys and values from the 16 rows `hs ++ mem`,
    scores `⟨q, k⟩ · c`, a softmax over the 16 keys, the context projected by `wo`;
  * the gated update: the mean over the 8 units of `relu (lin ut hs)` plus `tanh mem`, through `ug` and the logistic
    function gives an input gate (first 512 columns) and a forget gate (last 512), and
    `memNew = inputGate · tanh memWrite + forgetGate · mem`;
  * read attention (4 heads, key size 32, value size 512): queries from `hs`, keys and values from `memNew`, head `h`
    using rows `32 h + k` of `rq, rk`, rows `512 h + d` of `rv` and columns `512 h + d` of `ro`;
    `hOut = hs + ∑ₕ contribₕ + ro_b`.
  The scale `c` is the exact reciprocal of the divisor the reference divides its scores by.
-/
import Idealize.ShloMosaic.PureOps.Ideal
import Idealize.ShloMosaic.Lib.ValueIdx

noncomputable section

namespace Cert.Spec

open Idealize.ShloMosaic Idealize.ShloMosaic.ValueIdx

/-- The word of −∞, the start of both programs' running maxima. -/
abbrev NEG : EReal := Ideal.ofBits .f32 0xFF800000#32
/-- The word of 0. -/
abbrev ZERO : EReal := Ideal.ofBits .f32 0x00000000#32
/-- The word of 8, the number of units the mean divides by. -/
abbrev EIGHT : EReal := Ideal.ofBits .f32 0x41000000#32
/-- The score scale: the reciprocal of the reference's divisor 11863283 / 2097152. -/
abbrev SCALE : EReal := ((2097152 / 11863283 : ℝ) : EReal)

/-- The weights, each an array over its literal shape. -/
structure Params where
  wq_w : (⟨2, ![32, 512]⟩ : Shape).Idx → EReal
  wq_b : (⟨1, ![32]⟩ : Shape).Idx → EReal
  wk_w : (⟨2, ![32, 512]⟩ : Shape).Idx → EReal
  wk_b : (⟨1, ![32]⟩ : Shape).Idx → EReal
  wv_w : (⟨2, ![512, 512]⟩ : Shape).Idx → EReal
  wv_b : (⟨1, ![512]⟩ : Shape).Idx → EReal
  wo_w : (⟨2, ![512, 512]⟩ : Shape).Idx → EReal
  wo_b : (⟨1, ![512]⟩ : Shape).Idx → EReal
  ut_w : (⟨2, ![512, 512]⟩ : Shape).Idx → EReal
  ut_b : (⟨1, ![512]⟩ : Shape).Idx → EReal
  ug_w : (⟨2, ![1024, 512]⟩ : Shape).Idx → EReal
  ug_b : (⟨1, ![1024]⟩ : Shape).Idx → EReal
  rq_w : (⟨2, ![128, 512]⟩ : Shape).Idx → EReal
  rq_b : (⟨1, ![128]⟩ : Shape).Idx → EReal
  rk_w : (⟨2, ![128, 512]⟩ : Shape).Idx → EReal
  rk_b : (⟨1, ![128]⟩ : Shape).Idx → EReal
  rv_w : (⟨2, ![2048, 512]⟩ : Shape).Idx → EReal
  rv_b : (⟨1, ![2048]⟩ : Shape).Idx → EReal
  ro_w : (⟨2, ![512, 2048]⟩ : Shape).Idx → EReal
  ro_b : (⟨1, ![512]⟩ : Shape).Idx → EReal

/-- A softmax row as both programs print it: `exp (x j − M) / ∑ exp (x j' − M)` with `M` the running maximum from −∞,
    once more capped below by −∞. -/
def rowMax {n : ℕ} (x : Fin n → EReal) : EReal := max NEG ((Finset.univ : Finset (Fin n)).fold max NEG x)

def softmax {n : ℕ} (x : Fin n → EReal) (j : Fin n) : EReal :=
  Ideal.div (Ideal.exp (x j - rowMax x)) (∑ j' : Fin n, Ideal.exp (x j' - rowMax x))

variable (P : Params) (hs mem : Fin 8 → Fin 512 → EReal)

/-- The 16 rows `hs ++ mem`. -/
def xi (t : Fin 16) (i : Fin 512) : EReal :=
  if h : t.val < 8 then hs ⟨t.val, h⟩ i else mem ⟨t.val - 8, by have := t.isLt; omega⟩ i

/-! ### Write attention -/
def wq (s : Fin 8) (k : Fin 32) : EReal := (∑ i : Fin 512, mem s i * P.wq_w (ix2 k i)) + P.wq_b (ix1 k)
def wk (t : Fin 16) (k : Fin 32) : EReal := (∑ i : Fin 512, xi hs mem t i * P.wk_w (ix2 k i)) + P.wk_b (ix1 k)
def wv (t : Fin 16) (d : Fin 512) : EReal := (∑ i : Fin 512, xi hs mem t i * P.wv_w (ix2 d i)) + P.wv_b (ix1 d)
def wscore (s : Fin 8) (t : Fin 16) : EReal := (∑ k : Fin 32, wq P mem s k * wk P hs mem t k) * SCALE
def wprob (s : Fin 8) (t : Fin 16) : EReal := softmax (wscore P hs mem s) t
def wctx (s : Fin 8) (d : Fin 512) : EReal := ∑ t : Fin 16, wprob P hs mem s t * wv P hs mem t d
def memWrite (s : Fin 8) (d : Fin 512) : EReal := (∑ j : Fin 512, wctx P hs mem s j * P.wo_w (ix2 d j)) + P.wo_b (ix1 d)

/-! ### The gated update -/
def inProj (n : Fin 8) (d : Fin 512) : EReal := max ((∑ i : Fin 512, hs n i * P.ut_w (ix2 d i)) + P.ut_b (ix1 d)) ZERO
def inMean (d : Fin 512) : EReal := Ideal.div (∑ n : Fin 8, inProj P hs n d) EIGHT
def gateIn (s : Fin 8) (d : Fin 512) : EReal := inMean P hs d + Ideal.tanh (mem s d)
def gate (s : Fin 8) (j : Fin 1024) : EReal :=
  Ideal.logistic ((∑ i : Fin 512, gateIn P hs mem s i * P.ug_w (ix2 j i)) + P.ug_b (ix1 j))
def memNew (s : Fin 8) (d : Fin 512) : EReal :=
  gate P hs mem s ⟨d.val, by have := d.isLt; omega⟩ * Ideal.tanh (memWrite P hs mem s d)
    + gate P hs mem s ⟨512 + d.val, by have := d.isLt; omega⟩ * mem s d

/-! ### Read attention, head `h` -/
variable (h : ℕ) (hh : h < 4)
def rq (n : Fin 8) (k : Fin 32) : EReal :=
  (∑ i : Fin 512, hs n i * P.rq_w (ix2 ⟨32 * h + k.val, by have := k.isLt; omega⟩ i)) + P.rq_b (ix1 ⟨32 * h + k.val, by have := k.isLt; omega⟩)
def rk (s : Fin 8) (k : Fin 32) : EReal :=
  (∑ i : Fin 512, memNew P hs mem s i * P.rk_w (ix2 ⟨32 * h + k.val, by have := k.isLt; omega⟩ i)) + P.rk_b (ix1 ⟨32 * h + k.val, by have := k.isLt; omega⟩)
def rv (s : Fin 8) (d : Fin 512) : EReal :=
  (∑ i : Fin 512, memNew P hs mem s i * P.rv_w (ix2 ⟨512 * h + d.val, by have := d.isLt; omega⟩ i)) + P.rv_b (ix1 ⟨512 * h + d.val, by have := d.isLt; omega⟩)
def rscore (n s : Fin 8) : EReal := (∑ k : Fin 32, rq P hs h hh n k * rk P hs mem h hh s k) * SCALE
def rprob (n s : Fin 8) : EReal := softmax (rscore P hs mem h hh n) s
def rctx (n : Fin 8) (d : Fin 512) : EReal := ∑ s : Fin 8, rprob P hs mem h hh n s * rv P hs mem h hh s d
def contrib (n : Fin 8) (o : Fin 512) : EReal :=
  ∑ d : Fin 512, rctx P hs mem h hh n d * P.ro_w (ix2 o ⟨512 * h + d.val, by have := d.isLt; omega⟩)

end Cert.Spec

namespace Cert.Spec
open Idealize.ShloMosaic Idealize.ShloMosaic.ValueIdx
variable (P : Params) (hs mem : Fin 8 → Fin 512 → EReal)

/-- The output as the kernel accumulates it: the four heads' contributions added one after the other onto 0, then the
    residual and the bias. -/
def hOut (n : Fin 8) (o : Fin 512) : EReal :=
  (hs n o + ((((ZERO + contrib P hs mem 0 (by omega) n o) + contrib P hs mem 1 (by omega) n o) + contrib P hs mem 2 (by omega) n o)
    + contrib P hs mem 3 (by omega) n o)) + P.ro_b (ix1 o)

/-- The four heads' contexts side by side, as the reference lays them out: column `512 h + d` is head `h`'s `d`. -/
def rctxCat (n : Fin 8) (j : Fin 2048) : EReal :=
  rctx P hs mem (j.val / 512) (by have := j.isLt; omega) n ⟨j.val % 512, Nat.mod_lt _ (by omega)⟩

/-- The output as the reference computes it: one product over all 2048 columns. -/
def hOutRef (n : Fin 8) (o : Fin 512) : EReal :=
  hs n o + ((∑ j : Fin 2048, rctxCat P hs mem n j * P.ro_w (ix2 o j)) + P.ro_b (ix1 o))

end Cert.Spec

end
-- ==== Proof.LibBlock.lean ====
/-
  The kernel's vector operations read at an index, at the ideal instance, over the block shapes of this kernel.
  A block holds 128 batch elements. Row `8 b + s` of a [1024, C] matrix is row `s` of batch element `b` of the
  [128, 8, C] block, and row `16 b + t` of a [2048, C] matrix is row `t` of element `b` of a [128, 16, C] block.
  A matrix product with both operands contracted on their last axis is `∑ i, L r i · W o i`; the batched products of the
  two attentions contract the key axis (scores) and the slot axis (contexts) inside one batch element; a bias is read at
  its column whatever the row; a softmax row is `Spec.softmax` of the row.
-/
import proofs.«106064_j9835475108028_1_alg».proof.Proof.Spec
import proofs.«106064_j9835475108028_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KerLib

open Cert.KernelIdeal Cert.KernelIdeal.Gen Idealize.ShloMosaic Idealize.ShloMosaic.ValueIdx

variable [Cert.KernelIdeal.Facts]
variable {α : Type}

/-- Row `8 b + s` of the 1024-row matrices. -/
abbrev row8 (b : Fin 128) (s : Fin 8) : Fin 1024 := ⟨8 * b.val + s.val, by have := b.isLt; have := s.isLt; omega⟩
/-- Row `16 b + t` of the 2048-row matrices. -/
abbrev row16 (b : Fin 128) (t : Fin 16) : Fin 2048 := ⟨16 * b.val + t.val, by have := b.isLt; have := t.isLt; omega⟩

/-! ### Blocks as matrices and back -/
theorem cast_128x8x512_1024x512 (X : S128x8x512.Idx → α) (h : S128x8x512.ShapeCasts S1024x512) (b : Fin 128) (s : Fin 8) (i : Fin 512) :
    shapeCast S1024x512 X h (ix2 (row8 b s) i) = X (ix3 b s i) :=
  shapeCast_apply X h _ _ (by
    rw [Shape.rowMajor_val_three, Shape.rowMajor_val_two]
    show (b.val * 8 + s.val) * 512 + i.val = (8 * b.val + s.val) * 512 + i.val
    omega)
theorem cast_128x16x512_2048x512 (X : S128x16x512.Idx → α) (h : S128x16x512.ShapeCasts S2048x512) (b : Fin 128) (t : Fin 16) (i : Fin 512) :
    shapeCast S2048x512 X h (ix2 (row16 b t) i) = X (ix3 b t i) :=
  shapeCast_apply X h _ _ (by
    rw [Shape.rowMajor_val_three, Shape.rowMajor_val_two]
    show (b.val * 16 + t.val) * 512 + i.val = (16 * b.val + t.val) * 512 + i.val
    omega)
theorem cast_1024x32_128x8x32 (Y : S1024x32.Idx → α) (h : S1024x32.ShapeCasts S128x8x32) (b : Fin 128) (s : Fin 8) (k : Fin 32) :
    shapeCast S128x8x32 Y h (ix3 b s k) = Y (ix2 (row8 b s) k) :=
  shapeCast_apply Y h _ _ (by
    rw [Shape.rowMajor_val_three, Shape.rowMajor_val_two]
    show (8 * b.val + s.val) * 32 + k.val = (b.val * 8 + s.val) * 32 + k.val
    omega)
theorem cast_1024x512_128x8x512 (Y : S1024x512.Idx → α) (h : S1024x512.ShapeCasts S128x8x512) (b : Fin 128) (s : Fin 8) (d : Fin 512) :
    shapeCast S128x8x512 Y h (ix3 b s d) = Y (ix2 (row8 b s) d) :=
  shapeCast_apply Y h _ _ (by
    rw [Shape.rowMajor_val_three, Shape.rowMajor_val_two]
    show (8 * b.val + s.val) * 512 + d.val = (b.val * 8 + s.val) * 512 + d.val
    omega)
theorem cast_1024x1024_128x8x1024 (Y : S1024x1024.Idx → α) (h : S1024x1024.ShapeCasts S128x8x1024) (b : Fin 128) (s : Fin 8) (j : Fin 1024) :
    shapeCast S128x8x1024 Y h (ix3 b s j) = Y (ix2 (row8 b s) j) :=
  shapeCast_apply Y h _ _ (by
    rw [Shape.rowMajor_val_three, Shape.rowMajor_val_two]
    show (8 * b.val + s.val) * 1024 + j.val = (b.val * 8 + s.val) * 1024 + j.val
    omega)
theorem cast_2048x32_128x16x32 (Y : S2048x32.Idx → α) (h : S2048x32.ShapeCasts S128x16x32) (b : Fin 128) (t : Fin 16) (k : Fin 32) :
    shapeCast S128x16x32 Y h (ix3 b t k) = Y (ix2 (row16 b t) k) :=
  shapeCast_apply Y h _ _ (by
    rw [Shape.rowMajor_val_three, Shape.rowMajor_val_two]
    show (16 * b.val + t.val) * 32 + k.val = (b.val * 16 + t.val) * 32 + k.val
    omega)
theorem cast_2048x512_128x16x512 (Y : S2048x512.Idx → α) (h : S2048x512.ShapeCasts S128x16x512) (b : Fin 128) (t : Fin 16) (d : Fin 512) :
    shapeCast S128x16x512 Y h (ix3 b t d) = Y (ix2 (row16 b t) d) :=
  shapeCast_apply Y h _ _ (by
    rw [Shape.rowMajor_val_three, Shape.rowMajor_val_two]
    show (16 * b.val + t.val) * 512 + d.val = (b.val * 16 + t.val) * 512 + d.val
    omega)

/-! ### A bias added to every row -/
theorem bias_1024x32 (v : S32.Idx → α) (h1 : S32.ShapeCasts S1x32) (h2 : S1x32.Broadcasts S1024x32) (r : Fin 1024) (k : Fin 32) :
    broadcastTo S1024x32 (shapeCast S1x32 v h1) h2 (ix2 r k) = v (ix1 k) := by
  refine (broadcastTo_apply _ h2 (ix2 r k) (ix2 (0 : Fin 1) k) (fun a => ?_)).trans ?_
  · match a with
    | ⟨0, _⟩ => show 0 = if (1 : Nat) = 1 then 0 else r.val; rw [if_pos rfl]
    | ⟨1, _⟩ => show k.val = if (32 : Nat) = 1 then 0 else k.val; rw [if_neg (by decide)]
  · exact shapeCast_apply v h1 _ _ (by
      rw [Shape.rowMajor_val_one, Shape.rowMajor_val_two]
      show k.val = 0 * 32 + k.val
      omega)
theorem bias_2048x32 (v : S32.Idx → α) (h1 : S32.ShapeCasts S1x32) (h2 : S1x32.Broadcasts S2048x32) (r : Fin 2048) (k : Fin 32) :
    broadcastTo S2048x32 (shapeCast S1x32 v h1) h2 (ix2 r k) = v (ix1 k) := by
  refine (broadcastTo_apply _ h2 (ix2 r k) (ix2 (0 : Fin 1) k) (fun a => ?_)).trans ?_
  · match a with
    | ⟨0, _⟩ => show 0 = if (1 : Nat) = 1 then 0 else r.val; rw [if_pos rfl]
    | ⟨1, _⟩ => show k.val = if (32 : Nat) = 1 then 0 else k.val; rw [if_neg (by decide)]
  · exact shapeCast_apply v h1 _ _ (by
      rw [Shape.rowMajor_val_one, Shape.rowMajor_val_two]
      show k.val = 0 * 32 + k.val
      omega)
theorem bias_1024x512 (v : S512.Idx → α) (h1 : S512.ShapeCasts S1x512) (h2 : S1x512.Broadcasts S1024x512) (r : Fin 1024) (k : Fin 512) :
    broadcastTo S1024x512 (shapeCast S1x512 v h1) h2 (ix2 r k) = v (ix1 k) := by
  refine (broadcastTo_apply _ h2 (ix2 r k) (ix2 (0 : Fin 1) k) (fun a => ?_)).trans ?_
  · match a with
    | ⟨0, _⟩ => show 0 = if (1 : Nat) = 1 then 0 else r.val; rw [if_pos rfl]
    | ⟨1, _⟩ => show k.val = if (512 : Nat) = 1 then 0 else k.val; rw [if_neg (by decide)]
  · exact shapeCast_apply v h1 _ _ (by
      rw [Shape.rowMajor_val_one, Shape.rowMajor_val_two]
      show k.val = 0 * 512 + k.val
      omega)
theorem bias_2048x512 (v : S512.Idx → α) (h1 : S512.ShapeCasts S1x512) (h2 : S1x512.Broadcasts S2048x512) (r : Fin 2048) (k : Fin 512) :
    broadcastTo S2048x512 (shapeCast S1x512 v h1) h2 (ix2 r k) = v (ix1 k) := by
  refine (broadcastTo_apply _ h2 (ix2 r k) (ix2 (0 : Fin 1) k) (fun a => ?_)).trans ?_
  · match a with
    | ⟨0, _⟩ => show 0 = if (1 : Nat) = 1 then 0 else r.val; rw [if_pos rfl]
    | ⟨1, _⟩ => show k.val = if (512 : Nat) = 1 then 0 else k.val; rw [if_neg (by decide)]
  · exact shapeCast_apply v h1 _ _ (by
      rw [Shape.rowMajor_val_one, Shape.rowMajor_val_two]
      show k.val = 0 * 512 + k.val
      omega)
theorem bias_1024x1024 (v : S1024.Idx → α) (h1 : S1024.ShapeCasts S1x1024) (h2 : S1x1024.Broadcasts S1024x1024) (r : Fin 1024) (k : Fin 1024) :
    broadcastTo S1024x1024 (shapeCast S1x1024 v h1) h2 (ix2 r k) = v (ix1 k) := by
  refine (broadcastTo_apply _ h2 (ix2 r k) (ix2 (0 : Fin 1) k) (fun a => ?_)).trans ?_
  · match a with
    | ⟨0, _⟩ => show 0 = if (1 : Nat) = 1 then 0 else r.val; rw [if_pos rfl]
    | ⟨1, _⟩ => show k.val = if (1024 : Nat) = 1 then 0 else k.val; rw [if_neg (by decide)]
  · exact shapeCast_apply v h1 _ _ (by
      rw [Shape.rowMajor_val_one, Shape.rowMajor_val_two]
      show k.val = 0 * 1024 + k.val
      omega)
/-- The output bias, added to every row of every batch element. -/
theorem bias_128x8x512 (v : S512.Idx → α) (h1 : S512.ShapeCasts S1x1x512) (h2 : S1x1x512.Broadcasts S128x8x512) (b : Fin 128) (n : Fin 8) (o : Fin 512) :
    broadcastTo S128x8x512 (shapeCast S1x1x512 v h1) h2 (ix3 b n o) = v (ix1 o) := by
  refine (broadcastTo_apply _ h2 (ix3 b n o) (ix3 (0 : Fin 1) (0 : Fin 1) o) (fun a => ?_)).trans ?_
  · match a with
    | ⟨0, _⟩ => show 0 = if (1 : Nat) = 1 then 0 else b.val; rw [if_pos rfl]
    | ⟨1, _⟩ => show 0 = if (1 : Nat) = 1 then 0 else n.val; rw [if_pos rfl]
    | ⟨2, _⟩ => show o.val = if (512 : Nat) = 1 then 0 else o.val; rw [if_neg (by decide)]
  · exact shapeCast_apply v h1 _ _ (by
      rw [Shape.rowMajor_val_one, Shape.rowMajor_val_three]
      show o.val = (0 * 1 + 0) * 512 + o.val
      omega)

/-! ### Matrix products contracting both operands' last axis, into a zero accumulator -/
private theorem mm_1024x512_32x512_lhs0 (i : S1024x32.Idx) (q : dot_S1024x512_S32x512_S1024x32_1_1_0_0_n_n.contr.Idx) :
    (dot_S1024x512_S32x512_S1024x32_1_1_0_0_n_n.lhsIdx i q 0).val = (i 0).val := by
  unfold DotDims.lhsIdx
  rw [dif_neg (show ¬(0 : Fin S1024x512.rank) ∈ dot_S1024x512_S32x512_S1024x32_1_1_0_0_n_n.lhsBatch by decide), dif_pos (show (0 : Fin S1024x512.rank) ∈ dot_S1024x512_S32x512_S1024x32_1_1_0_0_n_n.lhsNonContracting by decide)]
  rfl
private theorem mm_1024x512_32x512_lhs1 (i : S1024x32.Idx) (q : dot_S1024x512_S32x512_S1024x32_1_1_0_0_n_n.contr.Idx) :
    (dot_S1024x512_S32x512_S1024x32_1_1_0_0_n_n.lhsIdx i q 1).val = (q ⟨0, by decide⟩).val :=
  dot_S1024x512_S32x512_S1024x32_1_1_0_0_n_n.lhsIdx_val_of_single rfl i q
private theorem mm_1024x512_32x512_rhs0 (i : S1024x32.Idx) (q : dot_S1024x512_S32x512_S1024x32_1_1_0_0_n_n.contr.Idx) :
    (dot_S1024x512_S32x512_S1024x32_1_1_0_0_n_n.rhsIdx i q 0).val = (i 1).val := by
  unfold DotDims.rhsIdx
  rw [dif_neg (show ¬(0 : Fin S32x512.rank) ∈ dot_S1024x512_S32x512_S1024x32_1_1_0_0_n_n.rhsBatch by decide), dif_pos (show (0 : Fin S32x512.rank) ∈ dot_S1024x512_S32x512_S1024x32_1_1_0_0_n_n.rhsNonContracting by decide)]
  rfl
private theorem mm_1024x512_32x512_rhs1 (i : S1024x32.Idx) (q : dot_S1024x512_S32x512_S1024x32_1_1_0_0_n_n.contr.Idx) :
    (dot_S1024x512_S32x512_S1024x32_1_1_0_0_n_n.rhsIdx i q 1).val = (q ⟨0, by decide⟩).val :=
  dot_S1024x512_S32x512_S1024x32_1_1_0_0_n_n.rhsIdx_val_of_single rfl i q
theorem mm_1024x512_32x512 {φ₁ φ₂ : FTy} (L : FVec Ideal S1024x512 φ₁) (W : FVec Ideal S32x512 φ₂) (r : Fin 1024) (o : Fin 32) :
    matmul dot_S1024x512_S32x512_S1024x32_1_1_0_0_n_n none L W (constant S1024x32 .f32 0x00000000#32) (ix2 r o)
      = ∑ i : Fin 512, L (ix2 r i) * W (ix2 o i) := by
  refine (Ideal.matmul_constant_zero_apply dot_S1024x512_S32x512_S1024x32_1_1_0_0_n_n none L W (ix2 r o)).trans ?_
  rw [← Equiv.sum_comp (contrEquiv1 dot_S1024x512_S32x512_S1024x32_1_1_0_0_n_n 512 rfl rfl).symm]
  refine Finset.sum_congr rfl fun k _ => ?_
  have hk := contrEquiv1_symm_val dot_S1024x512_S32x512_S1024x32_1_1_0_0_n_n 512 rfl rfl k
  have el : dot_S1024x512_S32x512_S1024x32_1_1_0_0_n_n.lhsIdx (ix2 r o) ((contrEquiv1 dot_S1024x512_S32x512_S1024x32_1_1_0_0_n_n 512 rfl rfl).symm k) = ix2 r k := funext fun a => Fin.ext (by
    match a with
    | ⟨0, _⟩ => exact mm_1024x512_32x512_lhs0 _ _
    | ⟨1, _⟩ => exact (mm_1024x512_32x512_lhs1 _ _).trans hk)
  have er : dot_S1024x512_S32x512_S1024x32_1_1_0_0_n_n.rhsIdx (ix2 r o) ((contrEquiv1 dot_S1024x512_S32x512_S1024x32_1_1_0_0_n_n 512 rfl rfl).symm k) = ix2 o k := funext fun a => Fin.ext (by
    match a with
    | ⟨0, _⟩ => exact mm_1024x512_32x512_rhs0 _ _
    | ⟨1, _⟩ => exact (mm_1024x512_32x512_rhs1 _ _).trans hk)
  rw [el, er]
private theorem mm_2048x512_32x512_lhs0 (i : S2048x32.Idx) (q : dot_S2048x512_S32x512_S2048x32_1_1_0_0_n_n.contr.Idx) :
    (dot_S2048x512_S32x512_S2048x32_1_1_0_0_n_n.lhsIdx i q 0).val = (i 0).val := by
  unfold DotDims.lhsIdx
  rw [dif_neg (show ¬(0 : Fin S2048x512.rank) ∈ dot_S2048x512_S32x512_S2048x32_1_1_0_0_n_n.lhsBatch by decide), dif_pos (show (0 : Fin S2048x512.rank) ∈ dot_S2048x512_S32x512_S2048x32_1_1_0_0_n_n.lhsNonContracting by decide)]
  rfl
private theorem mm_2048x512_32x512_lhs1 (i : S2048x32.Idx) (q : dot_S2048x512_S32x512_S2048x32_1_1_0_0_n_n.contr.Idx) :
    (dot_S2048x512_S32x512_S2048x32_1_1_0_0_n_n.lhsIdx i q 1).val = (q ⟨0, by decide⟩).val :=
  dot_S2048x512_S32x512_S2048x32_1_1_0_0_n_n.lhsIdx_val_of_single rfl i q
private theorem mm_2048x512_32x512_rhs0 (i : S2048x32.Idx) (q : dot_S2048x512_S32x512_S2048x32_1_1_0_0_n_n.contr.Idx) :
    (dot_S2048x512_S32x512_S2048x32_1_1_0_0_n_n.rhsIdx i q 0).val = (i 1).val := by
  unfold DotDims.rhsIdx
  rw [dif_neg (show ¬(0 : Fin S32x512.rank) ∈ dot_S2048x512_S32x512_S2048x32_1_1_0_0_n_n.rhsBatch by decide), dif_pos (show (0 : Fin S32x512.rank) ∈ dot_S2048x512_S32x512_S2048x32_1_1_0_0_n_n.rhsNonContracting by decide)]
  rfl
private theorem mm_2048x512_32x512_rhs1 (i : S2048x32.Idx) (q : dot_S2048x512_S32x512_S2048x32_1_1_0_0_n_n.contr.Idx) :
    (dot_S2048x512_S32x512_S2048x32_1_1_0_0_n_n.rhsIdx i q 1).val = (q ⟨0, by decide⟩).val :=
  dot_S2048x512_S32x512_S2048x32_1_1_0_0_n_n.rhsIdx_val_of_single rfl i q
theorem mm_2048x512_32x512 {φ₁ φ₂ : FTy} (L : FVec Ideal S2048x512 φ₁) (W : FVec Ideal S32x512 φ₂) (r : Fin 2048) (o : Fin 32) :
    matmul dot_S2048x512_S32x512_S2048x32_1_1_0_0_n_n none L W (constant S2048x32 .f32 0x00000000#32) (ix2 r o)
      = ∑ i : Fin 512, L (ix2 r i) * W (ix2 o i) := by
  refine (Ideal.matmul_constant_zero_apply dot_S2048x512_S32x512_S2048x32_1_1_0_0_n_n none L W (ix2 r o)).trans ?_
  rw [← Equiv.sum_comp (contrEquiv1 dot_S2048x512_S32x512_S2048x32_1_1_0_0_n_n 512 rfl rfl).symm]
  refine Finset.sum_congr rfl fun k _ => ?_
  have hk := contrEquiv1_symm_val dot_S2048x512_S32x512_S2048x32_1_1_0_0_n_n 512 rfl rfl k
  have el : dot_S2048x512_S32x512_S2048x32_1_1_0_0_n_n.lhsIdx (ix2 r o) ((contrEquiv1 dot_S2048x512_S32x512_S2048x32_1_1_0_0_n_n 512 rfl rfl).symm k) = ix2 r k := funext fun a => Fin.ext (by
    match a with
    | ⟨0, _⟩ => exact mm_2048x512_32x512_lhs0 _ _
    | ⟨1, _⟩ => exact (mm_2048x512_32x512_lhs1 _ _).trans hk)
  have er : dot_S2048x512_S32x512_S2048x32_1_1_0_0_n_n.rhsIdx (ix2 r o) ((contrEquiv1 dot_S2048x512_S32x512_S2048x32_1_1_0_0_n_n 512 rfl rfl).symm k) = ix2 o k := funext fun a => Fin.ext (by
    match a with
    | ⟨0, _⟩ => exact mm_2048x512_32x512_rhs0 _ _
    | ⟨1, _⟩ => exact (mm_2048x512_32x512_rhs1 _ _).trans hk)
  rw [el, er]
private theorem mm_2048x512_512x512_lhs0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
private theorem mm_2048x512_512x512_lhs1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
private theorem mm_2048x512_512x512_rhs0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
private theorem mm_2048x512_512x512_rhs1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q
theorem mm_2048x512_512x512 {φ₁ φ₂ : FTy} (L : FVec Ideal S2048x512 φ₁) (W : FVec Ideal S512x512 φ₂) (r : Fin 2048) (o : Fin 512) :
    matmul dot_S2048x512_S512x512_S2048x512_1_1_0_0_n_n none L W (constant S2048x512 .f32 0x00000000#32) (ix2 r o)
      = ∑ i : Fin 512, L (ix2 r i) * W (ix2 o i) := by
  refine (Ideal.matmul_constant_zero_apply dot_S2048x512_S512x512_S2048x512_1_1_0_0_n_n none L W (ix2 r o)).trans ?_
  rw [← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 r o) ((contrEquiv1 dot_S2048x512_S512x512_S2048x512_1_1_0_0_n_n 512 rfl rfl).symm k) = ix2 r k := funext fun a => Fin.ext (by
    match a with
    | ⟨0, _⟩ => exact mm_2048x512_512x512_lhs0 _ _
    | ⟨1, _⟩ => exact (mm_2048x512_512x512_lhs1 _ _).trans hk)
  have er : dot_S2048x512_S512x512_S2048x512_1_1_0_0_n_n.rhsIdx (ix2 r o) ((contrEquiv1 dot_S2048x512_S512x512_S2048x512_1_1_0_0_n_n 512 rfl rfl).symm k) = ix2 o k := funext fun a => Fin.ext (by
    match a with
    | ⟨0, _⟩ => exact mm_2048x512_512x512_rhs0 _ _
    | ⟨1, _⟩ => exact (mm_2048x512_512x512_rhs1 _ _).trans hk)
  rw [el, er]
private theorem mm_1024x512_512x512_lhs0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
private theorem mm_1024x512_512x512_lhs1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
private theorem mm_1024x512_512x512_rhs0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
private theorem mm_1024x512_512x512_rhs1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q
theorem mm_1024x512_512x512 {φ₁ φ₂ : FTy} (L : FVec Ideal S1024x512 φ₁) (W : FVec Ideal S512x512 φ₂) (r : Fin 1024) (o : Fin 512) :
    matmul dot_S1024x512_S512x512_S1024x512_1_1_0_0_n_n none L W (constant S1024x512 .f32 0x00000000#32) (ix2 r o)
      = ∑ i : Fin 512, L (ix2 r i) * W (ix2 o i) := by
  refine (Ideal.matmul_constant_zero_apply dot_S1024x512_S512x512_S1024x512_1_1_0_0_n_n none L W (ix2 r o)).trans ?_
  rw [← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 r o) ((contrEquiv1 dot_S1024x512_S512x512_S1024x512_1_1_0_0_n_n 512 rfl rfl).symm k) = ix2 r k := funext fun a => Fin.ext (by
    match a with
    | ⟨0, _⟩ => exact mm_1024x512_512x512_lhs0 _ _
    | ⟨1, _⟩ => exact (mm_1024x512_512x512_lhs1 _ _).trans hk)
  have er : dot_S1024x512_S512x512_S1024x512_1_1_0_0_n_n.rhsIdx (ix2 r o) ((contrEquiv1 dot_S1024x512_S512x512_S1024x512_1_1_0_0_n_n 512 rfl rfl).symm k) = ix2 o k := funext fun a => Fin.ext (by
    match a with
    | ⟨0, _⟩ => exact mm_1024x512_512x512_rhs0 _ _
    | ⟨1, _⟩ => exact (mm_1024x512_512x512_rhs1 _ _).trans hk)
  rw [el, er]
private theorem mm_1024x512_1024x512_lhs0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
private theorem mm_1024x512_1024x512_lhs1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
private theorem mm_1024x512_1024x512_rhs0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
private theorem mm_1024x512_1024x512_rhs1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q
theorem mm_1024x512_1024x512 {φ₁ φ₂ : FTy} (L : FVec Ideal S1024x512 φ₁) (W : FVec Ideal S1024x512 φ₂) (r : Fin 1024) (o : Fin 1024) :
    matmul dot_S1024x512_S1024x512_S1024x1024_1_1_0_0_n_n none L W (constant S1024x1024 .f32 0x00000000#32) (ix2 r o)
      = ∑ i : Fin 512, L (ix2 r i) * W (ix2 o i) := by
  refine (Ideal.matmul_constant_zero_apply dot_S1024x512_S1024x512_S1024x1024_1_1_0_0_n_n none L W (ix2 r o)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r o) ((contrEquiv1 dot_S1024x512_S1024x512_S1024x1024_1_1_0_0_n_n 512 rfl rfl).symm k) = ix2 r k := funext fun a => Fin.ext (by
    match a with
    | ⟨0, _⟩ => exact mm_1024x512_1024x512_lhs0 _ _
    | ⟨1, _⟩ => exact (mm_1024x512_1024x512_lhs1 _ _).trans hk)
  have er : dot_S1024x512_S1024x512_S1024x1024_1_1_0_0_n_n.rhsIdx (ix2 r o) ((contrEquiv1 dot_S1024x512_S1024x512_S1024x1024_1_1_0_0_n_n 512 rfl rfl).symm k) = ix2 o k := funext fun a => Fin.ext (by
    match a with
    | ⟨0, _⟩ => exact mm_1024x512_1024x512_rhs0 _ _
    | ⟨1, _⟩ => exact (mm_1024x512_1024x512_rhs1 _ _).trans hk)
  rw [el, er]

/-! ### The attentions' batched products -/
private theorem bmm_scores16_lhs0 (i : S128x8x16.Idx) (q : dot_S128x8x32_S128x16x32_S128x8x16_2_2_1_1_0_0.contr.Idx) :
    (dot_S128x8x32_S128x16x32_S128x8x16_2_2_1_1_0_0.lhsIdx i q 0).val = (i 0).val := by
  unfold DotDims.lhsIdx
  rw [dif_pos (show (0 : Fin S128x8x32.rank) ∈ dot_S128x8x32_S128x16x32_S128x8x16_2_2_1_1_0_0.lhsBatch by decide)]
  rfl
private theorem bmm_scores16_lhs1 (i : S128x8x16.Idx) (q : dot_S128x8x32_S128x16x32_S128x8x16_2_2_1_1_0_0.contr.Idx) :
    (dot_S128x8x32_S128x16x32_S128x8x16_2_2_1_1_0_0.lhsIdx i q 1).val = (i 1).val := by
  unfold DotDims.lhsIdx
  rw [dif_neg (show ¬(1 : Fin S128x8x32.rank) ∈ dot_S128x8x32_S128x16x32_S128x8x16_2_2_1_1_0_0.lhsBatch by decide), dif_pos (show (1 : Fin S128x8x32.rank) ∈ dot_S128x8x32_S128x16x32_S128x8x16_2_2_1_1_0_0.lhsNonContracting by decide)]
  rfl
private theorem bmm_scores16_lhs2 (i : S128x8x16.Idx) (q : dot_S128x8x32_S128x16x32_S128x8x16_2_2_1_1_0_0.contr.Idx) :
    (dot_S128x8x32_S128x16x32_S128x8x16_2_2_1_1_0_0.lhsIdx i q 2).val = (q ⟨0, by decide⟩).val :=
  dot_S128x8x32_S128x16x32_S128x8x16_2_2_1_1_0_0.lhsIdx_val_of_single rfl i q
private theorem bmm_scores16_rhs0 (i : S128x8x16.Idx) (q : dot_S128x8x32_S128x16x32_S128x8x16_2_2_1_1_0_0.contr.Idx) :
    (dot_S128x8x32_S128x16x32_S128x8x16_2_2_1_1_0_0.rhsIdx i q 0).val = (i 0).val := by
  unfold DotDims.rhsIdx
  rw [dif_pos (show (0 : Fin S128x16x32.rank) ∈ dot_S128x8x32_S128x16x32_S128x8x16_2_2_1_1_0_0.rhsBatch by decide)]
  rfl
private theorem bmm_scores16_rhs1 (i : S128x8x16.Idx) (q : dot_S128x8x32_S128x16x32_S128x8x16_2_2_1_1_0_0.contr.Idx) :
    (dot_S128x8x32_S128x16x32_S128x8x16_2_2_1_1_0_0.rhsIdx i q 1).val = (i 2).val := by
  unfold DotDims.rhsIdx
  rw [dif_neg (show ¬(1 : Fin S128x16x32.rank) ∈ dot_S128x8x32_S128x16x32_S128x8x16_2_2_1_1_0_0.rhsBatch by decide), dif_pos (show (1 : Fin S128x16x32.rank) ∈ dot_S128x8x32_S128x16x32_S128x8x16_2_2_1_1_0_0.rhsNonContracting by decide)]
  rfl
private theorem bmm_scores16_rhs2 (i : S128x8x16.Idx) (q : dot_S128x8x32_S128x16x32_S128x8x16_2_2_1_1_0_0.contr.Idx) :
    (dot_S128x8x32_S128x16x32_S128x8x16_2_2_1_1_0_0.rhsIdx i q 2).val = (q ⟨0, by decide⟩).val :=
  dot_S128x8x32_S128x16x32_S128x8x16_2_2_1_1_0_0.rhsIdx_val_of_single rfl i q
/-- Write scores: queries against the 16 keys of the same batch element. -/
theorem bmm_scores16 {φ₁ φ₂ : FTy} (L : FVec Ideal S128x8x32 φ₁) (R : FVec Ideal S128x16x32 φ₂) (b : Fin 128) (s : Fin 8) (t : Fin 16) :
    matmul dot_S128x8x32_S128x16x32_S128x8x16_2_2_1_1_0_0 none L R (constant S128x8x16 .f32 0x00000000#32) (ix3 b s t)
      = ∑ k : Fin 32, L (ix3 b s k) * R (ix3 b t k) := by
  refine (Ideal.matmul_constant_zero_apply dot_S128x8x32_S128x16x32_S128x8x16_2_2_1_1_0_0 none L R (ix3 b s t)).trans ?_
  rw [← Equiv.sum_comp (contrEquiv1 dot_S128x8x32_S128x16x32_S128x8x16_2_2_1_1_0_0 32 rfl rfl).symm]
  refine Finset.sum_congr rfl fun k _ => ?_
  have hk := contrEquiv1_symm_val dot_S128x8x32_S128x16x32_S128x8x16_2_2_1_1_0_0 32 rfl rfl k
  have el : dot_S128x8x32_S128x16x32_S128x8x16_2_2_1_1_0_0.lhsIdx (ix3 b s t) ((contrEquiv1 dot_S128x8x32_S128x16x32_S128x8x16_2_2_1_1_0_0 32 rfl rfl).symm k) = ix3 b s k := funext fun a => Fin.ext (by
    match a with
    | ⟨0, _⟩ => exact bmm_scores16_lhs0 _ _
    | ⟨1, _⟩ => exact bmm_scores16_lhs1 _ _
    | ⟨2, _⟩ => exact (bmm_scores16_lhs2 _ _).trans hk)
  have er : dot_S128x8x32_S128x16x32_S128x8x16_2_2_1_1_0_0.rhsIdx (ix3 b s t) ((contrEquiv1 dot_S128x8x32_S128x16x32_S128x8x16_2_2_1_1_0_0 32 rfl rfl).symm k) = ix3 b t k := funext fun a => Fin.ext (by
    match a with
    | ⟨0, _⟩ => exact bmm_scores16_rhs0 _ _
    | ⟨1, _⟩ => exact bmm_scores16_rhs1 _ _
    | ⟨2, _⟩ => exact (bmm_scores16_rhs2 _ _).trans hk)
  rw [el, er]
private theorem bmm_ctx16_lhs0 (i : S128x8x512.Idx) (q : dot_S128x8x16_S128x16x512_S128x8x512_2_1_1_2_0_0.contr.Idx) :
    (dot_S128x8x16_S128x16x512_S128x8x512_2_1_1_2_0_0.lhsIdx i q 0).val = (i 0).val := by
  unfold DotDims.lhsIdx
  rw [dif_pos (show (0 : Fin S128x8x16.rank) ∈ dot_S128x8x16_S128x16x512_S128x8x512_2_1_1_2_0_0.lhsBatch by decide)]
  rfl
private theorem bmm_ctx16_lhs1 (i : S128x8x512.Idx) (q : dot_S128x8x16_S128x16x512_S128x8x512_2_1_1_2_0_0.contr.Idx) :
    (dot_S128x8x16_S128x16x512_S128x8x512_2_1_1_2_0_0.lhsIdx i q 1).val = (i 1).val := by
  unfold DotDims.lhsIdx
  rw [dif_neg (show ¬(1 : Fin S128x8x16.rank) ∈ dot_S128x8x16_S128x16x512_S128x8x512_2_1_1_2_0_0.lhsBatch by decide), dif_pos (show (1 : Fin S128x8x16.rank) ∈ dot_S128x8x16_S128x16x512_S128x8x512_2_1_1_2_0_0.lhsNonContracting by decide)]
  rfl
private theorem bmm_ctx16_lhs2 (i : S128x8x512.Idx) (q : dot_S128x8x16_S128x16x512_S128x8x512_2_1_1_2_0_0.contr.Idx) :
    (dot_S128x8x16_S128x16x512_S128x8x512_2_1_1_2_0_0.lhsIdx i q 2).val = (q ⟨0, by decide⟩).val :=
  dot_S128x8x16_S128x16x512_S128x8x512_2_1_1_2_0_0.lhsIdx_val_of_single rfl i q
private theorem bmm_ctx16_rhs0 (i : S128x8x512.Idx) (q : dot_S128x8x16_S128x16x512_S128x8x512_2_1_1_2_0_0.contr.Idx) :
    (dot_S128x8x16_S128x16x512_S128x8x512_2_1_1_2_0_0.rhsIdx i q 0).val = (i 0).val := by
  unfold DotDims.rhsIdx
  rw [dif_pos (show (0 : Fin S128x16x512.rank) ∈ dot_S128x8x16_S128x16x512_S128x8x512_2_1_1_2_0_0.rhsBatch by decide)]
  rfl
private theorem bmm_ctx16_rhs1 (i : S128x8x512.Idx) (q : dot_S128x8x16_S128x16x512_S128x8x512_2_1_1_2_0_0.contr.Idx) :
    (dot_S128x8x16_S128x16x512_S128x8x512_2_1_1_2_0_0.rhsIdx i q 1).val = (q ⟨0, by decide⟩).val :=
  dot_S128x8x16_S128x16x512_S128x8x512_2_1_1_2_0_0.rhsIdx_val_of_single rfl i q
private theorem bmm_ctx16_rhs2 (i : S128x8x512.Idx) (q : dot_S128x8x16_S128x16x512_S128x8x512_2_1_1_2_0_0.contr.Idx) :
    (dot_S128x8x16_S128x16x512_S128x8x512_2_1_1_2_0_0.rhsIdx i q 2).val = (i 2).val := by
  unfold DotDims.rhsIdx
  rw [dif_neg (show ¬(2 : Fin S128x16x512.rank) ∈ dot_S128x8x16_S128x16x512_S128x8x512_2_1_1_2_0_0.rhsBatch by decide), dif_pos (show (2 : Fin S128x16x512.rank) ∈ dot_S128x8x16_S128x16x512_S128x8x512_2_1_1_2_0_0.rhsNonContracting by decide)]
  rfl
/-- Write context: the 16 probabilities against the 16 value rows. -/
theorem bmm_ctx16 {φ₁ φ₂ : FTy} (L : FVec Ideal S128x8x16 φ₁) (R : FVec Ideal S128x16x512 φ₂) (b : Fin 128) (s : Fin 8) (d : Fin 512) :
    matmul dot_S128x8x16_S128x16x512_S128x8x512_2_1_1_2_0_0 none L R (constant S128x8x512 .f32 0x00000000#32) (ix3 b s d)
      = ∑ t : Fin 16, L (ix3 b s t) * R (ix3 b t d) := by
  refine (Ideal.matmul_constant_zero_apply dot_S128x8x16_S128x16x512_S128x8x512_2_1_1_2_0_0 none L R (ix3 b s d)).trans ?_
  rw [← Equiv.sum_comp (contrEquiv1 dot_S128x8x16_S128x16x512_S128x8x512_2_1_1_2_0_0 16 rfl rfl).symm]
  refine Finset.sum_congr rfl fun k _ => ?_
  have hk := contrEquiv1_symm_val dot_S128x8x16_S128x16x512_S128x8x512_2_1_1_2_0_0 16 rfl rfl k
  have el : dot_S128x8x16_S128x16x512_S128x8x512_2_1_1_2_0_0.lhsIdx (ix3 b s d) ((contrEquiv1 dot_S128x8x16_S128x16x512_S128x8x512_2_1_1_2_0_0 16 rfl rfl).symm k) = ix3 b s k := funext fun a => Fin.ext (by
    match a with
    | ⟨0, _⟩ => exact bmm_ctx16_lhs0 _ _
    | ⟨1, _⟩ => exact bmm_ctx16_lhs1 _ _
    | ⟨2, _⟩ => exact (bmm_ctx16_lhs2 _ _).trans hk)
  have er : dot_S128x8x16_S128x16x512_S128x8x512_2_1_1_2_0_0.rhsIdx (ix3 b s d) ((contrEquiv1 dot_S128x8x16_S128x16x512_S128x8x512_2_1_1_2_0_0 16 rfl rfl).symm k) = ix3 b k d := funext fun a => Fin.ext (by
    match a with
    | ⟨0, _⟩ => exact bmm_ctx16_rhs0 _ _
    | ⟨1, _⟩ => exact (bmm_ctx16_rhs1 _ _).trans hk
    | ⟨2, _⟩ => exact bmm_ctx16_rhs2 _ _)
  rw [el, er]
private theorem bmm_scores8_lhs0 (i : S128x8x8.Idx) (q : dot_S128x8x32_S128x8x32_S128x8x8_2_2_1_1_0_0.contr.Idx) :
    (dot_S128x8x32_S128x8x32_S128x8x8_2_2_1_1_0_0.lhsIdx i q 0).val = (i 0).val := by
  unfold DotDims.lhsIdx
  rw [dif_pos (show (0 : Fin S128x8x32.rank) ∈ dot_S128x8x32_S128x8x32_S128x8x8_2_2_1_1_0_0.lhsBatch by decide)]
  rfl
private theorem bmm_scores8_lhs1 (i : S128x8x8.Idx) (q : dot_S128x8x32_S128x8x32_S128x8x8_2_2_1_1_0_0.contr.Idx) :
    (dot_S128x8x32_S128x8x32_S128x8x8_2_2_1_1_0_0.lhsIdx i q 1).val = (i 1).val := by
  unfold DotDims.lhsIdx
  rw [dif_neg (show ¬(1 : Fin S128x8x32.rank) ∈ dot_S128x8x32_S128x8x32_S128x8x8_2_2_1_1_0_0.lhsBatch by decide), dif_pos (show (1 : Fin S128x8x32.rank) ∈ dot_S128x8x32_S128x8x32_S128x8x8_2_2_1_1_0_0.lhsNonContracting by decide)]
  rfl
private theorem bmm_scores8_lhs2 (i : S128x8x8.Idx) (q : dot_S128x8x32_S128x8x32_S128x8x8_2_2_1_1_0_0.contr.Idx) :
    (dot_S128x8x32_S128x8x32_S128x8x8_2_2_1_1_0_0.lhsIdx i q 2).val = (q ⟨0, by decide⟩).val :=
  dot_S128x8x32_S128x8x32_S128x8x8_2_2_1_1_0_0.lhsIdx_val_of_single rfl i q
private theorem bmm_scores8_rhs0 (i : S128x8x8.Idx) (q : dot_S128x8x32_S128x8x32_S128x8x8_2_2_1_1_0_0.contr.Idx) :
    (dot_S128x8x32_S128x8x32_S128x8x8_2_2_1_1_0_0.rhsIdx i q 0).val = (i 0).val := by
  unfold DotDims.rhsIdx
  rw [dif_pos (show (0 : Fin S128x8x32.rank) ∈ dot_S128x8x32_S128x8x32_S128x8x8_2_2_1_1_0_0.rhsBatch by decide)]
  rfl
private theorem bmm_scores8_rhs1 (i : S128x8x8.Idx) (q : dot_S128x8x32_S128x8x32_S128x8x8_2_2_1_1_0_0.contr.Idx) :
    (dot_S128x8x32_S128x8x32_S128x8x8_2_2_1_1_0_0.rhsIdx i q 1).val = (i 2).val := by
  unfold DotDims.rhsIdx
  rw [dif_neg (show ¬(1 : Fin S128x8x32.rank) ∈ dot_S128x8x32_S128x8x32_S128x8x8_2_2_1_1_0_0.rhsBatch by decide), dif_pos (show (1 : Fin S128x8x32.rank) ∈ dot_S128x8x32_S128x8x32_S128x8x8_2_2_1_1_0_0.rhsNonContracting by decide)]
  rfl
private theorem bmm_scores8_rhs2 (i : S128x8x8.Idx) (q : dot_S128x8x32_S128x8x32_S128x8x8_2_2_1_1_0_0.contr.Idx) :
    (dot_S128x8x32_S128x8x32_S128x8x8_2_2_1_1_0_0.rhsIdx i q 2).val = (q ⟨0, by decide⟩).val :=
  dot_S128x8x32_S128x8x32_S128x8x8_2_2_1_1_0_0.rhsIdx_val_of_single rfl i q
/-- Read scores: a head's queries against its 8 keys. -/
theorem bmm_scores8 {φ₁ φ₂ : FTy} (L : FVec Ideal S128x8x32 φ₁) (R : FVec Ideal S128x8x32 φ₂) (b : Fin 128) (n s : Fin 8) :
    matmul dot_S128x8x32_S128x8x32_S128x8x8_2_2_1_1_0_0 none L R (constant S128x8x8 .f32 0x00000000#32) (ix3 b n s)
      = ∑ k : Fin 32, L (ix3 b n k) * R (ix3 b s k) := by
  refine (Ideal.matmul_constant_zero_apply dot_S128x8x32_S128x8x32_S128x8x8_2_2_1_1_0_0 none L R (ix3 b n s)).trans ?_
  rw [← Equiv.sum_comp (contrEquiv1 dot_S128x8x32_S128x8x32_S128x8x8_2_2_1_1_0_0 32 rfl rfl).symm]
  refine Finset.sum_congr rfl fun k _ => ?_
  have hk := contrEquiv1_symm_val dot_S128x8x32_S128x8x32_S128x8x8_2_2_1_1_0_0 32 rfl rfl k
  have el : dot_S128x8x32_S128x8x32_S128x8x8_2_2_1_1_0_0.lhsIdx (ix3 b n s) ((contrEquiv1 dot_S128x8x32_S128x8x32_S128x8x8_2_2_1_1_0_0 32 rfl rfl).symm k) = ix3 b n k := funext fun a => Fin.ext (by
    match a with
    | ⟨0, _⟩ => exact bmm_scores8_lhs0 _ _
    | ⟨1, _⟩ => exact bmm_scores8_lhs1 _ _
    | ⟨2, _⟩ => exact (bmm_scores8_lhs2 _ _).trans hk)
  have er : dot_S128x8x32_S128x8x32_S128x8x8_2_2_1_1_0_0.rhsIdx (ix3 b n s) ((contrEquiv1 dot_S128x8x32_S128x8x32_S128x8x8_2_2_1_1_0_0 32 rfl rfl).symm k) = ix3 b s k := funext fun a => Fin.ext (by
    match a with
    | ⟨0, _⟩ => exact bmm_scores8_rhs0 _ _
    | ⟨1, _⟩ => exact bmm_scores8_rhs1 _ _
    | ⟨2, _⟩ => exact (bmm_scores8_rhs2 _ _).trans hk)
  rw [el, er]
private theorem bmm_ctx8_lhs0 (i : S128x8x512.Idx) (q : dot_S128x8x8_S128x8x512_S128x8x512_2_1_1_2_0_0.contr.Idx) :
    (dot_S128x8x8_S128x8x512_S128x8x512_2_1_1_2_0_0.lhsIdx i q 0).val = (i 0).val := by
  unfold DotDims.lhsIdx
  rw [dif_pos (show (0 : Fin S128x8x8.rank) ∈ dot_S128x8x8_S128x8x512_S128x8x512_2_1_1_2_0_0.lhsBatch by decide)]
  rfl
private theorem bmm_ctx8_lhs1 (i : S128x8x512.Idx) (q : dot_S128x8x8_S128x8x512_S128x8x512_2_1_1_2_0_0.contr.Idx) :
    (dot_S128x8x8_S128x8x512_S128x8x512_2_1_1_2_0_0.lhsIdx i q 1).val = (i 1).val := by
  unfold DotDims.lhsIdx
  rw [dif_neg (show ¬(1 : Fin S128x8x8.rank) ∈ dot_S128x8x8_S128x8x512_S128x8x512_2_1_1_2_0_0.lhsBatch by decide), dif_pos (show (1 : Fin S128x8x8.rank) ∈ dot_S128x8x8_S128x8x512_S128x8x512_2_1_1_2_0_0.lhsNonContracting by decide)]
  rfl
private theorem bmm_ctx8_lhs2 (i : S128x8x512.Idx) (q : dot_S128x8x8_S128x8x512_S128x8x512_2_1_1_2_0_0.contr.Idx) :
    (dot_S128x8x8_S128x8x512_S128x8x512_2_1_1_2_0_0.lhsIdx i q 2).val = (q ⟨0, by decide⟩).val :=
  dot_S128x8x8_S128x8x512_S128x8x512_2_1_1_2_0_0.lhsIdx_val_of_single rfl i q
private theorem bmm_ctx8_rhs0 (i : S128x8x512.Idx) (q : dot_S128x8x8_S128x8x512_S128x8x512_2_1_1_2_0_0.contr.Idx) :
    (dot_S128x8x8_S128x8x512_S128x8x512_2_1_1_2_0_0.rhsIdx i q 0).val = (i 0).val := by
  unfold DotDims.rhsIdx
  rw [dif_pos (show (0 : Fin S128x8x512.rank) ∈ dot_S128x8x8_S128x8x512_S128x8x512_2_1_1_2_0_0.rhsBatch by decide)]
  rfl
private theorem bmm_ctx8_rhs1 (i : S128x8x512.Idx) (q : dot_S128x8x8_S128x8x512_S128x8x512_2_1_1_2_0_0.contr.Idx) :
    (dot_S128x8x8_S128x8x512_S128x8x512_2_1_1_2_0_0.rhsIdx i q 1).val = (q ⟨0, by decide⟩).val :=
  dot_S128x8x8_S128x8x512_S128x8x512_2_1_1_2_0_0.rhsIdx_val_of_single rfl i q
private theorem bmm_ctx8_rhs2 (i : S128x8x512.Idx) (q : dot_S128x8x8_S128x8x512_S128x8x512_2_1_1_2_0_0.contr.Idx) :
    (dot_S128x8x8_S128x8x512_S128x8x512_2_1_1_2_0_0.rhsIdx i q 2).val = (i 2).val := by
  unfold DotDims.rhsIdx
  rw [dif_neg (show ¬(2 : Fin S128x8x512.rank) ∈ dot_S128x8x8_S128x8x512_S128x8x512_2_1_1_2_0_0.rhsBatch by decide), dif_pos (show (2 : Fin S128x8x512.rank) ∈ dot_S128x8x8_S128x8x512_S128x8x512_2_1_1_2_0_0.rhsNonContracting by decide)]
  rfl
/-- Read context: a head's 8 probabilities against its 8 value rows. -/
theorem bmm_ctx8 {φ₁ φ₂ : FTy} (L : FVec Ideal S128x8x8 φ₁) (R : FVec Ideal S128x8x512 φ₂) (b : Fin 128) (n : Fin 8) (d : Fin 512) :
    matmul dot_S128x8x8_S128x8x512_S128x8x512_2_1_1_2_0_0 none L R (constant S128x8x512 .f32 0x00000000#32) (ix3 b n d)
      = ∑ s : Fin 8, L (ix3 b n s) * R (ix3 b s d) := by
  refine (Ideal.matmul_constant_zero_apply dot_S128x8x8_S128x8x512_S128x8x512_2_1_1_2_0_0 none L R (ix3 b n d)).trans ?_
  rw [← Equiv.sum_comp (contrEquiv1 dot_S128x8x8_S128x8x512_S128x8x512_2_1_1_2_0_0 8 rfl rfl).symm]
  refine Finset.sum_congr rfl fun k _ => ?_
  have hk := contrEquiv1_symm_val dot_S128x8x8_S128x8x512_S128x8x512_2_1_1_2_0_0 8 rfl rfl k
  have el : dot_S128x8x8_S128x8x512_S128x8x512_2_1_1_2_0_0.lhsIdx (ix3 b n d) ((contrEquiv1 dot_S128x8x8_S128x8x512_S128x8x512_2_1_1_2_0_0 8 rfl rfl).symm k) = ix3 b n k := funext fun a => Fin.ext (by
    match a with
    | ⟨0, _⟩ => exact bmm_ctx8_lhs0 _ _
    | ⟨1, _⟩ => exact bmm_ctx8_lhs1 _ _
    | ⟨2, _⟩ => exact (bmm_ctx8_lhs2 _ _).trans hk)
  have er : dot_S128x8x8_S128x8x512_S128x8x512_2_1_1_2_0_0.rhsIdx (ix3 b n d) ((contrEquiv1 dot_S128x8x8_S128x8x512_S128x8x512_2_1_1_2_0_0 8 rfl rfl).symm k) = ix3 b k d := funext fun a => Fin.ext (by
    match a with
    | ⟨0, _⟩ => exact bmm_ctx8_rhs0 _ _
    | ⟨1, _⟩ => exact (bmm_ctx8_rhs1 _ _).trans hk
    | ⟨2, _⟩ => exact bmm_ctx8_rhs2 _ _)
  rw [el, er]

/-! ### The score scale and the softmax rows -/
/-- The named scale constant is the reciprocal of the reference's divisor. -/
theorem scale_eq : Named.named (F := Ideal) Cert.KernelIdeal.κ "inv_sqrt_key" (φ := .f32) 0x3E3504F3#32 = Cert.Spec.SCALE :=
  IdealRules.named_const.ideal_named_scalar _ _ _ _ rfl

/-- The reduced index (b, s) with coordinate `k` put back on the last axis is (b, s, k). -/
private theorem lift_ix3 {n : Nat} (h : (⟨3, ![128, 8, n]⟩ : Shape).Reduces [2] S128x8) (b : Fin 128) (s : Fin 8)
    (k : Fin ((⟨3, ![128, 8, n]⟩ : Shape).size 2)) : h.lift (ix2 b s) k = ix3 b s (⟨k.val, k.isLt⟩ : Fin n) := by
  funext c; apply Fin.ext
  fin_cases c <;> rfl
/-- A [128, 8] value given a unit last axis and spread along a row of 16 is read at its (b, s). -/
private theorem unit_bcast16 (x : S128x8.Idx → α) (h1 : S128x8.ShapeCasts S128x8x1) (h2 : S128x8x1.Broadcasts S128x8x16) (b : Fin 128) (s : Fin 8) (t : Fin 16) :
    broadcastTo S128x8x16 (shapeCast S128x8x1 x h1) h2 (ix3 b s t) = x (ix2 b s) := by
  refine (broadcastTo_apply _ h2 (ix3 b s t) (ix3 b s (0 : Fin 1)) (fun a => ?_)).trans ?_
  · match a with
    | ⟨0, _⟩ => show b.val = if (128 : Nat) = 1 then 0 else b.val; rw [if_neg (by decide)]
    | ⟨1, _⟩ => show s.val = if (8 : Nat) = 1 then 0 else s.val; rw [if_neg (by decide)]
    | ⟨2, _⟩ => show 0 = if (1 : Nat) = 1 then 0 else t.val; rw [if_pos rfl]
  · exact shapeCast_apply x h1 _ _ (by
      rw [Shape.rowMajor_val_two, Shape.rowMajor_val_three]
      show b.val * 8 + s.val = (b.val * 8 + s.val) * 1 + 0
      omega)
/-- A [128, 8] value given a unit last axis and spread along a row of 8 is read at its (b, s). -/
private theorem unit_bcast8 (x : S128x8.Idx → α) (h1 : S128x8.ShapeCasts S128x8x1) (h2 : S128x8x1.Broadcasts S128x8x8) (b : Fin 128) (s : Fin 8) (t : Fin 8) :
    broadcastTo S128x8x8 (shapeCast S128x8x1 x h1) h2 (ix3 b s t) = x (ix2 b s) := by
  refine (broadcastTo_apply _ h2 (ix3 b s t) (ix3 b s (0 : Fin 1)) (fun a => ?_)).trans ?_
  · match a with
    | ⟨0, _⟩ => show b.val = if (128 : Nat) = 1 then 0 else b.val; rw [if_neg (by decide)]
    | ⟨1, _⟩ => show s.val = if (8 : Nat) = 1 then 0 else s.val; rw [if_neg (by decide)]
    | ⟨2, _⟩ => show 0 = if (1 : Nat) = 1 then 0 else t.val; rw [if_pos rfl]
  · exact shapeCast_apply x h1 _ _ (by
      rw [Shape.rowMajor_val_two, Shape.rowMajor_val_three]
      show b.val * 8 + s.val = (b.val * 8 + s.val) * 1 + 0
      omega)

/-- The running maximum of a row of 16 scores, capped below by −∞, as the kernel prints it. -/
theorem rowmax16 (v : FVec Ideal S128x8x16 .f32) (hr : S128x8x16.Reduces [2] S128x8) (hφ : FKind.Formats .f32)
    (hacc : (0xFF800000#32 : BitVec 32) = FKind.maximumf.neutral .f32 hφ) (h1 : S128x8.ShapeCasts S128x8x1) (h2 : S128x8x1.Broadcasts S128x8x16)
    (b : Fin 128) (s : Fin 8) (t : Fin 16) :
    broadcastTo S128x8x16 (shapeCast S128x8x1 (maximumf (broadcast S128x8 (Scalar.ofBits (F := Ideal) .f32 0xFF800000#32))
        (multiReduction .maximumf [2] S128x8 v 0xFF800000#32 hr hφ hacc)) h1) h2 (ix3 b s t)
      = Cert.Spec.rowMax (fun t' : Fin 16 => v (ix3 b s t')) := by
  refine (unit_bcast16 _ h1 h2 b s t).trans ?_
  have e := Ideal.multiReduction_maximumf_single v _ hr hφ hacc (ix2 b s)
  have hf : (v ∘ hr.lift (ix2 b s)) = fun t' : Fin 16 => v (ix3 b s t') :=
    funext fun k => congrArg v (lift_ix3 hr b s k)
  rw [hf] at e
  exact congrArg (max (Ideal.ofBits .f32 0xFF800000#32)) e
/-- The sum of a row of 16, broadcast back along the row. -/
theorem rowsum16 (v : FVec Ideal S128x8x16 .f32) (hr : S128x8x16.Reduces [2] S128x8) (hφ : FKind.Formats .f32)
    (hacc : (0x00000000#32 : BitVec 32) = FKind.add.neutral .f32 hφ) (h1 : S128x8.ShapeCasts S128x8x1) (h2 : S128x8x1.Broadcasts S128x8x16)
    (b : Fin 128) (s : Fin 8) (t : Fin 16) :
    broadcastTo S128x8x16 (shapeCast S128x8x1 (multiReduction .add [2] S128x8 v 0x00000000#32 hr hφ hacc) h1) h2 (ix3 b s t)
      = ∑ t' : Fin 16, v (ix3 b s t') := by
  refine (unit_bcast16 _ h1 h2 b s t).trans ?_
  refine (Ideal.multiReduction_add_single v _ hr hφ hacc (ix2 b s)).trans ?_
  exact Finset.sum_congr rfl fun k _ => congrArg v (lift_ix3 hr b s k)
/-- The same two for the read heads' rows of 8. -/
theorem rowmax8 (v : FVec Ideal S128x8x8 .f32) (hr : S128x8x8.Reduces [2] S128x8) (hφ : FKind.Formats .f32)
    (hacc : (0xFF800000#32 : BitVec 32) = FKind.maximumf.neutral .f32 hφ) (h1 : S128x8.ShapeCasts S128x8x1) (h2 : S128x8x1.Broadcasts S128x8x8)
    (b : Fin 128) (n s : Fin 8) :
    broadcastTo S128x8x8 (shapeCast S128x8x1 (maximumf (broadcast S128x8 (Scalar.ofBits (F := Ideal) .f32 0xFF800000#32))
        (multiReduction .maximumf [2] S128x8 v 0xFF800000#32 hr hφ hacc)) h1) h2 (ix3 b n s)
      = Cert.Spec.rowMax (fun s' : Fin 8 => v (ix3 b n s')) := by
  refine (unit_bcast8 _ h1 h2 b n s).trans ?_
  have e := Ideal.multiReduction_maximumf_single v _ hr hφ hacc (ix2 b n)
  have hf : (v ∘ hr.lift (ix2 b n)) = fun s' : Fin 8 => v (ix3 b n s') :=
    funext fun k => congrArg v (lift_ix3 hr b n k)
  rw [hf] at e
  exact congrArg (max (Ideal.ofBits .f32 0xFF800000#32)) e
theorem rowsum8 (v : FVec Ideal S128x8x8 .f32) (hr : S128x8x8.Reduces [2] S128x8) (hφ : FKind.Formats .f32)
    (hacc : (0x00000000#32 : BitVec 32) = FKind.add.neutral .f32 hφ) (h1 : S128x8.ShapeCasts S128x8x1) (h2 : S128x8x1.Broadcasts S128x8x8)
    (b : Fin 128) (n s : Fin 8) :
    broadcastTo S128x8x8 (shapeCast S128x8x1 (multiReduction .add [2] S128x8 v 0x00000000#32 hr hφ hacc) h1) h2 (ix3 b n s)
      = ∑ s' : Fin 8, v (ix3 b n s') := by
  refine (unit_bcast8 _ h1 h2 b n s).trans ?_
  refine (Ideal.multiReduction_add_single v _ hr hφ hacc (ix2 b n)).trans ?_
  exact Finset.sum_congr rfl fun k _ => congrArg v (lift_ix3 hr b n k)

end Cert.KerLib

end
-- ==== Proof.KerWrite.lean ====
/-
  The kernel's write attention and gated update for batch element `b` of a block: each payload of the body, read at an
  index of element `b`, is the specification's value when its inputs are (hypotheses name what each input holds at `b`).
-/
import proofs.«106064_j9835475108028_1_alg».proof.Proof.LibBlock

noncomputable section

namespace Cert.KerWrite

open Cert.KernelIdeal Cert.KernelIdeal.Gen Cert.KerLib Idealize.ShloMosaic Idealize.ShloMosaic.ValueIdx

variable [Cert.KernelIdeal.Facts]

/-! ### Further operations read at an index: element-wise functions, the concatenation, the mean's group, the column halves -/

section Ops
variable {α : Type}

/-- The exponential, the hyperbolic tangent and the logistic function act element by element. -/
theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- Rows `t < 8` of the concatenation along axis 1 are the first block's rows. -/
theorem concat_lo (X Y : S128x8x512.Idx → α) (h : Shape.Concatenates [S128x8x512, S128x8x512] S128x16x512 1)
    (b : Fin 128) (t : Fin 16) (i : Fin 512) (ht : t.val < 8) :
    concatenate S128x16x512 1 [⟨S128x8x512, X⟩, ⟨S128x8x512, Y⟩] h (ix3 b t i) = X (ix3 b ⟨t.val, ht⟩ i) :=
  concatenate_pair_apply_left _ X Y h (ix3 b t i) rfl (ix3 b ⟨t.val, ht⟩ i)
    (fun a => match a with | ⟨0, _⟩ => rfl | ⟨1, _⟩ => rfl | ⟨2, _⟩ => rfl)

/-- Rows `t ≥ 8` are the second block's rows `t − 8`. -/
theorem concat_hi (X Y : S128x8x512.Idx → α) (h : Shape.Concatenates [S128x8x512, S128x8x512] S128x16x512 1)
    (b : Fin 128) (t : Fin 16) (i : Fin 512) (ht : ¬ t.val < 8) :
    concatenate S128x16x512 1 [⟨S128x8x512, X⟩, ⟨S128x8x512, Y⟩] h (ix3 b t i)
      = Y (ix3 b ⟨t.val - 8, by have := t.isLt; omega⟩ i) :=
  concatenate_pair_apply_right _ X Y h (ix3 b t i) rfl rfl (ix3 b ⟨t.val - 8, by have := t.isLt; omega⟩ i)
    (fun a => match a with
      | ⟨0, _⟩ => fun _ => rfl
      | ⟨1, _⟩ => fun hne => absurd rfl hne
      | ⟨2, _⟩ => fun _ => rfl)
    (by show t.val - 8 + 8 = t.val; omega)

/-- The sum over the 8 units (axis 1) of a block, at batch element `b` and column `d`. -/
theorem sum_units (v : FVec Ideal S128x8x512 .f32) (hr : S128x8x512.Reduces [1] S128x512) (hφ : FKind.Formats .f32)
    (hacc : (0x00000000#32 : BitVec 32) = FKind.add.neutral .f32 hφ) (b : Fin 128) (d : Fin 512) :
    multiReduction .add [1] S128x512 v 0x00000000#32 hr hφ hacc (ix2 b d) = ∑ n : Fin 8, v (ix3 b n d) := by
  refine (Ideal.multiReduction_add_single v _ hr hφ hacc (ix2 b d)).trans ?_
  refine Finset.sum_congr rfl fun n _ => congrArg v ?_
  funext a
  match a with
  | ⟨0, _⟩ => exact Fin.ext rfl
  | ⟨1, _⟩ => exact Fin.ext rfl
  | ⟨2, _⟩ => exact Fin.ext rfl

/-- A [128, 512] matrix seen as a [128, 1, 512] block. -/
theorem cast_128x512_128x1x512 (Y : S128x512.Idx → α) (h : S128x512.ShapeCasts S128x1x512) (b : Fin 128) (u : Fin 1) (d : Fin 512) :
    shapeCast S128x1x512 Y h (ix3 b u d) = Y (ix2 b d) :=
  shapeCast_apply Y h _ _ (by
    have hu : u.val = 0 := by omega
    rw [Shape.rowMajor_val_two, Shape.rowMajor_val_three]
    show b.val * 512 + d.val = (b.val * 1 + u.val) * 512 + d.val
    omega)

/-- A [128, 1, 512] block repeated along its unit axis. -/
theorem bcast_128x1x512 (Z : S128x1x512.Idx → α) (h : S128x1x512.Broadcasts S128x8x512) (b : Fin 128) (s : Fin 8) (d : Fin 512) :
    broadcastTo S128x8x512 Z h (ix3 b s d) = Z (ix3 b (0 : Fin 1) d) :=
  broadcastTo_apply Z h _ _ (fun a => match a with | ⟨0, _⟩ => rfl | ⟨1, _⟩ => rfl | ⟨2, _⟩ => rfl)

/-- The first 512 columns of a [128, 8, 1024] block … -/
theorem slice_lo (X : S128x8x1024.Idx → α) (h : S128x8x1024.Slices ![0, 0, 0] S128x8x512) (b : Fin 128) (s : Fin 8) (d : Fin 512) :
    extractStridedSlice S128x8x512 ![0, 0, 0] X h (ix3 b s d) = X (ix3 b s ⟨d.val, by have := d.isLt; omega⟩) :=
  extractStridedSlice_apply _ X h _ _ (fun a => match a with
    | ⟨0, _⟩ => by show b.val = 0 + b.val; omega
    | ⟨1, _⟩ => by show s.val = 0 + s.val; omega
    | ⟨2, _⟩ => by show d.val = 0 + d.val; omega)

/-- … and the last 512. -/
theorem slice_hi (X : S128x8x1024.Idx → α) (h : S128x8x1024.Slices ![0, 0, 512] S128x8x512) (b : Fin 128) (s : Fin 8) (d : Fin 512) :
    extractStridedSlice S128x8x512 ![0, 0, 512] X h (ix3 b s d) = X (ix3 b s ⟨512 + d.val, by have := d.isLt; omega⟩) :=
  extractStridedSlice_apply _ X h _ _ (fun a => match a with
    | ⟨0, _⟩ => by show b.val = 0 + b.val; omega
    | ⟨1, _⟩ => by show s.val = 0 + s.val; omega
    | ⟨2, _⟩ => by show 512 + d.val = 512 + d.val; rfl)

end Ops

variable (P : Cert.Spec.Params) (hs mem : Fin 8 → Fin 512 → EReal) (b : Fin 128)

/-- The 16 rows the write attention reads: the concatenation at row `t` of element `b` is `hs ++ mem` at `t`. -/
theorem pay2_spec (v0 v1 : Vec Ideal S128x8x512 .f32)
    (h0 : ∀ n i, v0 (ix3 b n i) = hs n i) (h1 : ∀ s i, v1 (ix3 b s i) = mem s i) (t : Fin 16) (i : Fin 512) :
    k0_pay2 (F := Ideal) v0 v1 (ix3 b t i) = Cert.Spec.xi hs mem t i := by
  unfold k0_pay2 Cert.Spec.xi
  by_cases ht : t.val < 8
  · rw [dif_pos ht]
    exact (concat_lo v0 v1 _ b t i ht).trans (h0 _ _)
  · rw [dif_neg ht]
    exact (concat_hi v0 v1 _ b t i ht).trans (h1 _ _)

/-- Values: row `16 b + t` of the 2048-row product is `lin wv` of row `t` of `hs ++ mem`. -/
theorem pay3_spec (v0 v1 : Vec Ideal S128x8x512 .f32) (v23 : Vec Ideal S512x512 .f32) (v25 : Vec Ideal S512 .f32)
    (h0 : ∀ n i, v0 (ix3 b n i) = hs n i) (h1 : ∀ s i, v1 (ix3 b s i) = mem s i)
    (h23 : ∀ d i : Fin 512, v23 (ix2 d i) = P.wv_w (ix2 d i)) (h25 : ∀ d : Fin 512, v25 (ix1 d) = P.wv_b (ix1 d))
    (t : Fin 16) (d : Fin 512) :
    k0_pay3 (F := Ideal) v0 v1 v23 v25 (ix3 b t d) = Cert.Spec.wv P hs mem t d := by
  unfold k0_pay3
  refine (cast_2048x512_128x16x512 _ _ b t d).trans ?_
  rw [addf_apply, mm_2048x512_512x512, bias_2048x512, h25]
  unfold Cert.Spec.wv
  refine congrArg (· + P.wv_b (ix1 d)) (Finset.sum_congr rfl fun i _ => ?_)
  rw [truncf_apply, truncf_apply, cast_128x16x512_2048x512, pay2_spec hs mem b v0 v1 h0 h1, h23]

/-- Scores: queries from `mem`, keys from `hs ++ mem`, their products summed over the 32 key coordinates and scaled. -/
theorem pay4_spec (v0 v1 : Vec Ideal S128x8x512 .f32) (v3 : Vec Ideal S32x512 .f32) (v5 : Vec Ideal S32 .f32) (v13 : Vec Ideal S32x512 .f32) (v15 : Vec Ideal S32 .f32)
    (h0 : ∀ n i, v0 (ix3 b n i) = hs n i) (h1 : ∀ s i, v1 (ix3 b s i) = mem s i)
    (h3 : ∀ (k : Fin 32) (i : Fin 512), v3 (ix2 k i) = P.wq_w (ix2 k i)) (h5 : ∀ k : Fin 32, v5 (ix1 k) = P.wq_b (ix1 k))
    (h13 : ∀ (k : Fin 32) (i : Fin 512), v13 (ix2 k i) = P.wk_w (ix2 k i)) (h15 : ∀ k : Fin 32, v15 (ix1 k) = P.wk_b (ix1 k))
    (s : Fin 8) (t : Fin 16) :
    k0_pay4 (F := Ideal) v0 v1 v3 v5 v13 v15 (ix3 b s t) = Cert.Spec.wscore P hs mem s t := by
  unfold k0_pay4
  rw [mulf_apply, broadcast_apply, scale_eq, bmm_scores16]
  unfold Cert.Spec.wscore
  refine congrArg (· * Cert.Spec.SCALE) (Finset.sum_congr rfl fun k _ => ?_)
  congr 1
  · -- the query
    rw [truncf_apply, cast_1024x32_128x8x32, addf_apply, mm_1024x512_32x512, bias_1024x32, h5]
    unfold Cert.Spec.wq
    refine congrArg (· + P.wq_b (ix1 k)) (Finset.sum_congr rfl fun i _ => ?_)
    rw [truncf_apply, truncf_apply, cast_128x8x512_1024x512, h1, h3]
  · -- the key
    rw [truncf_apply, cast_2048x32_128x16x32, addf_apply, mm_2048x512_32x512, bias_2048x32, h15]
    unfold Cert.Spec.wk
    refine congrArg (· + P.wk_b (ix1 k)) (Finset.sum_congr rfl fun i _ => ?_)
    rw [truncf_apply, truncf_apply, cast_128x16x512_2048x512, pay2_spec hs mem b v0 v1 h0 h1, h13]

/-- A softmax row of 16 as the kernel prints it: the exponentials of the row less its capped running maximum, over
    their sum, is `Spec.softmax` of the row. -/
theorem softmax16 (v : FVec Ideal S128x8x16 .f32) (hr : S128x8x16.Reduces [2] S128x8) (hφ : FKind.Formats .f32)
    (hmax : (0xFF800000#32 : BitVec 32) = FKind.maximumf.neutral .f32 hφ) (hadd : (0x00000000#32 : BitVec 32) = FKind.add.neutral .f32 hφ)
    (h1 : S128x8.ShapeCasts S128x8x1) (h2 : S128x8x1.Broadcasts S128x8x16) (b : Fin 128) (s : Fin 8) (t : Fin 16) :
    divf
        (exp (subf v (broadcastTo S128x8x16 (shapeCast S128x8x1 (maximumf (broadcast S128x8 (Scalar.ofBits (F := Ideal) .f32 0xFF800000#32))
          (multiReduction .maximumf [2] S128x8 v 0xFF800000#32 hr hφ hmax)) h1) h2)))
        (broadcastTo S128x8x16 (shapeCast S128x8x1 (multiReduction .add [2] S128x8
          (exp (subf v (broadcastTo S128x8x16 (shapeCast S128x8x1 (maximumf (broadcast S128x8 (Scalar.ofBits (F := Ideal) .f32 0xFF800000#32))
            (multiReduction .maximumf [2] S128x8 v 0xFF800000#32 hr hφ hmax)) h1) h2)))
          0x00000000#32 hr hφ hadd) h1) h2) (ix3 b s t)
      = Cert.Spec.softmax (fun t' : Fin 16 => v (ix3 b s t')) t := by
  rw [divf_apply, rowsum16, exp_apply, subf_apply, rowmax16]
  unfold Cert.Spec.softmax
  refine congrArg (Ideal.div _) (Finset.sum_congr rfl fun t' _ => ?_)
  rw [exp_apply, subf_apply, rowmax16]

/-- The softmax over the 16 keys, the context and its output projection. -/
theorem pay5_spec (v32 : FVec Ideal S128x16x512 .f32) (v37 : FVec Ideal S128x8x16 .f32) (v52 : Vec Ideal S512x512 .f32) (v54 : Vec Ideal S512 .f32)
    (h32 : ∀ t d, v32 (ix3 b t d) = Cert.Spec.wv P hs mem t d) (h37 : ∀ s t, v37 (ix3 b s t) = Cert.Spec.wscore P hs mem s t)
    (h52 : ∀ d j : Fin 512, v52 (ix2 d j) = P.wo_w (ix2 d j)) (h54 : ∀ d : Fin 512, v54 (ix1 d) = P.wo_b (ix1 d))
    (s : Fin 8) (d : Fin 512) :
    k0_pay5 (F := Ideal) v32 v37 v52 v54 (ix3 b s d) = Cert.Spec.memWrite P hs mem s d := by
  have hrow : (fun t' : Fin 16 => v37 (ix3 b s t')) = Cert.Spec.wscore P hs mem s := funext fun t' => h37 s t'
  unfold k0_pay5
  refine (cast_1024x512_128x8x512 _ _ b s d).trans ?_
  rw [addf_apply, mm_1024x512_512x512, bias_1024x512, h54]
  unfold Cert.Spec.memWrite
  refine congrArg (· + P.wo_b (ix1 d)) (Finset.sum_congr rfl fun j _ => ?_)
  rw [truncf_apply, truncf_apply, cast_128x8x512_1024x512, h52, bmm_ctx16]
  unfold Cert.Spec.wctx
  refine congrArg (· * P.wo_w (ix2 d j)) (Finset.sum_congr rfl fun t _ => ?_)
  rw [truncf_apply, truncf_apply, h32]
  refine congrArg (· * Cert.Spec.wv P hs mem t j) ((softmax16 v37 _ _ _ _ _ _ b s t).trans ?_)
  rw [hrow]
  rfl

/-- The gate input: the mean over the 8 units of `relu (lin ut hs)`, plus `tanh mem`. -/
theorem pay6_spec (v0 v1 : Vec Ideal S128x8x512 .f32) (v62 : Vec Ideal S512x512 .f32) (v64 : Vec Ideal S512 .f32)
    (h0 : ∀ n i, v0 (ix3 b n i) = hs n i) (h1 : ∀ s i, v1 (ix3 b s i) = mem s i)
    (h62 : ∀ d i : Fin 512, v62 (ix2 d i) = P.ut_w (ix2 d i)) (h64 : ∀ d : Fin 512, v64 (ix1 d) = P.ut_b (ix1 d))
    (s : Fin 8) (d : Fin 512) :
    k0_pay6 (F := Ideal) v0 v1 v62 v64 (ix3 b s d) = Cert.Spec.gateIn P hs mem s d := by
  unfold k0_pay6
  rw [addf_apply, tanh_apply, h1, bcast_128x1x512, divf_apply, broadcast_apply, cast_128x512_128x1x512]
  unfold Cert.Spec.gateIn Cert.Spec.inMean
  refine congrArg (fun z => Ideal.div z Cert.Spec.EIGHT + Ideal.tanh (mem s d))
    ((sum_units _ _ _ _ b d).trans (Finset.sum_congr rfl fun n _ => ?_))
  rw [maximumf_apply, broadcast_apply, cast_1024x512_128x8x512, addf_apply, mm_1024x512_512x512, bias_1024x512, h64]
  unfold Cert.Spec.inProj
  refine congrArg (fun z => max (z + P.ut_b (ix1 d)) Cert.Spec.ZERO) (Finset.sum_congr rfl fun i _ => ?_)
  rw [truncf_apply, truncf_apply, cast_128x8x512_1024x512, h0, h62]

/-- A gate: the logistic function of `lin ug gateIn`, at column `j` of the 1024. -/
theorem gate_spec (v80 : FVec Ideal S128x8x512 .f32) (v81 : Vec Ideal S1024x512 .f32) (v83 : Vec Ideal S1024 .f32)
    (h80 : ∀ s d, v80 (ix3 b s d) = Cert.Spec.gateIn P hs mem s d)
    (h81 : ∀ (j : Fin 1024) (i : Fin 512), v81 (ix2 j i) = P.ug_w (ix2 j i)) (h83 : ∀ j : Fin 1024, v83 (ix1 j) = P.ug_b (ix1 j))
    (hc : S1024x1024.ShapeCasts S128x8x1024) (hc' : S128x8x512.ShapeCasts S1024x512) (hb1 : S1024.ShapeCasts S1x1024)
    (hb2 : S1x1024.Broadcasts S1024x1024) (hlt : FTy.bf16.bits < FTy.f32.bits)
    (s : Fin 8) (j : Fin 1024) :
    logistic (shapeCast S128x8x1024 (addf (matmul dot_S1024x512_S1024x512_S1024x1024_1_1_0_0_n_n none
        (truncf .bf16 (shapeCast S1024x512 v80 hc') hlt) (truncf .bf16 v81 hlt) (constant S1024x1024 .f32 0x00000000#32))
        (broadcastTo S1024x1024 (shapeCast S1x1024 v83 hb1) hb2)) hc) (ix3 b s j) = Cert.Spec.gate P hs mem s j := by
  rw [logistic_apply, cast_1024x1024_128x8x1024, addf_apply, mm_1024x512_1024x512, bias_1024x1024, h83]
  unfold Cert.Spec.gate
  refine congrArg (fun z => Ideal.logistic (z + P.ug_b (ix1 j))) (Finset.sum_congr rfl fun i _ => ?_)
  rw [truncf_apply, truncf_apply, cast_128x8x512_1024x512, h80, h81]

/-- The new memory: the input gate (first 512 columns) times `tanh memWrite` plus the forget gate (last 512) times `mem`. -/
theorem pay7_spec (v1 : Vec Ideal S128x8x512 .f32) (v61 v80 : FVec Ideal S128x8x512 .f32) (v81 : Vec Ideal S1024x512 .f32) (v83 : Vec Ideal S1024 .f32)
    (h1 : ∀ s i, v1 (ix3 b s i) = mem s i)
    (h61 : ∀ s d, v61 (ix3 b s d) = Cert.Spec.memWrite P hs mem s d) (h80 : ∀ s d, v80 (ix3 b s d) = Cert.Spec.gateIn P hs mem s d)
    (h81 : ∀ (j : Fin 1024) (i : Fin 512), v81 (ix2 j i) = P.ug_w (ix2 j i)) (h83 : ∀ j : Fin 1024, v83 (ix1 j) = P.ug_b (ix1 j))
    (s : Fin 8) (d : Fin 512) :
    k0_pay7 (F := Ideal) v1 v61 v80 v81 v83 (ix3 b s d) = Cert.Spec.memNew P hs mem s d := by
  unfold k0_pay7
  rw [addf_apply, mulf_apply, mulf_apply, tanh_apply, h61, h1, slice_lo, slice_hi,
    gate_spec P hs mem b v80 v81 v83 h80 h81 h83, gate_spec P hs mem b v80 v81 v83 h80 h81 h83]
  rfl

end Cert.KerWrite

end
-- ==== Proof.KerHeadA.lean ====
/-
  The kernel's read attention, the payloads of the first two heads, for batch element `b` of a block and a head `h`
  (the head enters only through which rows and columns of the weights a payload was handed): queries, keys, values,
  and a head's contribution added onto what was accumulated before.
-/
import proofs.«106064_j9835475108028_1_alg».proof.Proof.LibBlock

noncomputable section

namespace Cert.KerHeadA

open Cert.KernelIdeal Cert.KernelIdeal.Gen Cert.KerLib Idealize.ShloMosaic Idealize.ShloMosaic.ValueIdx

variable [Cert.KernelIdeal.Facts]

/-! ### The pieces a head is made of, as functions of whole blocks

A head's payload is a fixed composition of five pieces: a linear layer with 32 outputs (queries, keys), a linear layer
with 512 outputs (values), the scaled scores, the softmax of every row of scores, and the context projected through
the head's columns of the output weights and added onto the accumulator. Each piece is read at an index once, below;
a payload is then one of these compositions by unfolding. -/

/-- The exponential of a block at an index is the exponential of the element. -/
theorem exp_at {s : Shape} {φ : FTy} (a : FVec Ideal s φ) (i : s.Idx) : exp a i = Ideal.exp (a i) := rfl

/-- A linear layer with 32 outputs on every row of a block: `X · Wᵀ + c`, as a [128, 8, 32] block. -/
def proj32 (X : FVec Ideal S1024x512 .bf16) (W : FVec Ideal S32x512 .bf16) (c : Vec Ideal S32 .f32) : FVec Ideal S128x8x32 .f32 :=
  shapeCast S128x8x32
    (addf (matmul dot_S1024x512_S32x512_S1024x32_1_1_0_0_n_n none X W (constant (F := Ideal) S1024x32 .f32 0x00000000#32))
      (broadcastTo S1024x32 (shapeCast S1x32 c shapeCasts_S32_S1x32 : FVec Ideal S1x32 .f32) broadcasts_S1x32_S1024x32))
    shapeCasts_S1024x32_S128x8x32

theorem proj32_apply (X : FVec Ideal S1024x512 .bf16) (W : FVec Ideal S32x512 .bf16) (c : Vec Ideal S32 .f32)
    (b : Fin 128) (n : Fin 8) (k : Fin 32) :
    proj32 X W c (ix3 b n k) = (∑ i : Fin 512, (X (ix2 (row8 b n) i) : EReal) * (W (ix2 k i) : EReal)) + (c (ix1 k) : EReal) := by
  unfold proj32
  rw [cast_1024x32_128x8x32, addf_apply, mm_1024x512_32x512, bias_1024x32]

/-- A linear layer with 512 outputs on every row of a block, as a [128, 8, 512] block. -/
def proj512 (X : FVec Ideal S1024x512 .bf16) (W : FVec Ideal S512x512 .bf16) (c : Vec Ideal S512 .f32) : FVec Ideal S128x8x512 .f32 :=
  shapeCast S128x8x512
    (addf (matmul dot_S1024x512_S512x512_S1024x512_1_1_0_0_n_n none X W (constant (F := Ideal) S1024x512 .f32 0x00000000#32))
      (broadcastTo S1024x512 (shapeCast S1x512 c shapeCasts_S512_S1x512 : FVec Ideal S1x512 .f32) broadcasts_S1x512_S1024x512))
    shapeCasts_S1024x512_S128x8x512

theorem proj512_apply (X : FVec Ideal S1024x512 .bf16) (W : FVec Ideal S512x512 .bf16) (c : Vec Ideal S512 .f32)
    (b : Fin 128) (s : Fin 8) (d : Fin 512) :
    proj512 X W c (ix3 b s d) = (∑ i : Fin 512, (X (ix2 (row8 b s) i) : EReal) * (W (ix2 d i) : EReal)) + (c (ix1 d) : EReal) := by
  unfold proj512
  rw [cast_1024x512_128x8x512, addf_apply, mm_1024x512_512x512, bias_1024x512]

/-- The scaled scores of a head: every query against the 8 keys of its batch element, times the scale. -/
def scores8 (Q K : FVec Ideal S128x8x32 .f32) : FVec Ideal S128x8x8 .f32 :=
  mulf (matmul dot_S128x8x32_S128x8x32_S128x8x8_2_2_1_1_0_0 none (truncf .bf16 Q bitsLt_bf16_f32) (truncf .bf16 K bitsLt_bf16_f32)
      (constant (F := Ideal) S128x8x8 .f32 0x00000000#32))
    (broadcast S128x8x8 (Named.named (F := Ideal) Cert.KernelIdeal.κ "inv_sqrt_key" (φ := .f32) 0x3E3504F3#32))

theorem scores8_apply (Q K : FVec Ideal S128x8x32 .f32) (b : Fin 128) (n s : Fin 8) :
    scores8 Q K (ix3 b n s) = (∑ k : Fin 32, (Q (ix3 b n k) : EReal) * (K (ix3 b s k) : EReal)) * Cert.Spec.SCALE := by
  unfold scores8
  rw [mulf_apply, bmm_scores8, broadcast_apply, scale_eq]
  rfl

/-- The running maximum of every row of scores, capped below by −∞, broadcast back along the row. -/
def rmax8 (Sc : FVec Ideal S128x8x8 .f32) : FVec Ideal S128x8x8 .f32 :=
  broadcastTo S128x8x8
    (shapeCast S128x8x1
      (maximumf (broadcast S128x8 (Scalar.ofBits (F := Ideal) .f32 0xFF800000#32))
        (multiReduction .maximumf [2] S128x8 Sc 0xFF800000#32 reduces_S128x8x8_S128x8 (.inl rfl) rfl))
      shapeCasts_S128x8_S128x8x1)
    broadcasts_S128x8x1_S128x8x8

theorem rmax8_apply (Sc : FVec Ideal S128x8x8 .f32) (b : Fin 128) (n s : Fin 8) :
    rmax8 Sc (ix3 b n s) = Cert.Spec.rowMax (fun s' : Fin 8 => Sc (ix3 b n s')) :=
  rowmax8 Sc _ _ _ _ _ b n s

/-- The exponentials of the scores less their row's maximum. -/
def ex8 (Sc : FVec Ideal S128x8x8 .f32) : FVec Ideal S128x8x8 .f32 := exp (subf Sc (rmax8 Sc))

theorem ex8_apply (Sc : FVec Ideal S128x8x8 .f32) (b : Fin 128) (n s : Fin 8) :
    ex8 Sc (ix3 b n s) = Ideal.exp (Sc (ix3 b n s) - Cert.Spec.rowMax (fun s' : Fin 8 => Sc (ix3 b n s'))) := by
  unfold ex8
  rw [exp_at, subf_apply, rmax8_apply]

/-- The sum of every row of a block of the scores' shape, broadcast back along the row. -/
def rsum8 (E : FVec Ideal S128x8x8 .f32) : FVec Ideal S128x8x8 .f32 :=
  broadcastTo S128x8x8
    (shapeCast S128x8x1 (multiReduction .add [2] S128x8 E 0x00000000#32 reduces_S128x8x8_S128x8 (.inl rfl) rfl)
      shapeCasts_S128x8_S128x8x1)
    broadcasts_S128x8x1_S128x8x8

theorem rsum8_apply (E : FVec Ideal S128x8x8 .f32) (b : Fin 128) (n s : Fin 8) :
    rsum8 E (ix3 b n s) = ∑ s' : Fin 8, (E (ix3 b n s') : EReal) :=
  rowsum8 E _ _ _ _ _ b n s

/-- The softmax of every row of scores. -/
def probs8 (Sc : FVec Ideal S128x8x8 .f32) : FVec Ideal S128x8x8 .f32 := divf (ex8 Sc) (rsum8 (ex8 Sc))

theorem probs8_apply (Sc : FVec Ideal S128x8x8 .f32) (b : Fin 128) (n s : Fin 8) :
    probs8 Sc (ix3 b n s) = Cert.Spec.softmax (fun s' : Fin 8 => Sc (ix3 b n s')) s := by
  unfold probs8
  rw [divf_apply, rsum8_apply]
  unfold Cert.Spec.softmax
  simp only [ex8_apply]

/-- A head's contribution added onto the accumulator `A`: the probabilities against the value rows `V`, the context
    through the head's columns `Wo` of the output weights. -/
def headOut (A V : FVec Ideal S128x8x512 .f32) (Wo : FVec Ideal S512x512 .bf16) (Q K : FVec Ideal S128x8x32 .f32) :
    FVec Ideal S128x8x512 .f32 :=
  addf A
    (shapeCast S128x8x512
      (matmul dot_S1024x512_S512x512_S1024x512_1_1_0_0_n_n none
        (truncf .bf16
          (shapeCast S1024x512
            (matmul dot_S128x8x8_S128x8x512_S128x8x512_2_1_1_2_0_0 none (truncf .bf16 (probs8 (scores8 Q K)) bitsLt_bf16_f32)
              (truncf .bf16 V bitsLt_bf16_f32) (constant (F := Ideal) S128x8x512 .f32 0x00000000#32))
            shapeCasts_S128x8x512_S1024x512 : FVec Ideal S1024x512 .f32)
          bitsLt_bf16_f32)
        Wo (constant (F := Ideal) S1024x512 .f32 0x00000000#32))
      shapeCasts_S1024x512_S128x8x512)

theorem headOut_apply (A V : FVec Ideal S128x8x512 .f32) (Wo : FVec Ideal S512x512 .bf16) (Q K : FVec Ideal S128x8x32 .f32)
    (b : Fin 128) (n : Fin 8) (o : Fin 512) :
    headOut A V Wo Q K (ix3 b n o)
      = (A (ix3 b n o) : EReal)
        + ∑ d : Fin 512, (∑ s : Fin 8, Cert.Spec.softmax (fun s' : Fin 8 => scores8 Q K (ix3 b n s')) s * (V (ix3 b s d) : EReal))
            * (Wo (ix2 o d) : EReal) := by
  unfold headOut
  rw [addf_apply, cast_1024x512_128x8x512, mm_1024x512_512x512]
  refine congrArg (fun x => (A (ix3 b n o) : EReal) + x) (Finset.sum_congr rfl fun d _ => ?_)
  rw [truncf_apply, cast_128x8x512_1024x512, bmm_ctx8]
  refine congrArg (fun x => x * (Wo (ix2 o d) : EReal)) (Finset.sum_congr rfl fun s _ => ?_)
  rw [truncf_apply, truncf_apply, probs8_apply]

variable (P : Cert.Spec.Params) (hs mem : Fin 8 → Fin 512 → EReal) (b : Fin 128)

/-- A head's contribution from its queries, keys, values and output columns, whatever computed them. -/
theorem head_spec (h : ℕ) (hh : h < 4) (A V : FVec Ideal S128x8x512 .f32) (Wo : FVec Ideal S512x512 .bf16) (Q K : FVec Ideal S128x8x32 .f32)
    (acc : Fin 8 → Fin 512 → EReal) (hA : ∀ n o, A (ix3 b n o) = acc n o)
    (hV : ∀ s d, V (ix3 b s d) = Cert.Spec.rv P hs mem h hh s d)
    (hW : ∀ o d : Fin 512, Wo (ix2 o d) = P.ro_w (ix2 o ⟨512 * h + d.val, by have := d.isLt; omega⟩))
    (hQ : ∀ n k, Q (ix3 b n k) = Cert.Spec.rq P hs h hh n k) (hK : ∀ s k, K (ix3 b s k) = Cert.Spec.rk P hs mem h hh s k)
    (n : Fin 8) (o : Fin 512) :
    headOut A V Wo Q K (ix3 b n o) = acc n o + Cert.Spec.contrib P hs mem h hh n o := by
  have hsc : (fun s' : Fin 8 => scores8 Q K (ix3 b n s')) = Cert.Spec.rscore P hs mem h hh n := by
    funext s'
    rw [scores8_apply]
    unfold Cert.Spec.rscore
    simp only [hQ, hK]
  rw [headOut_apply, hA, hsc]
  unfold Cert.Spec.contrib Cert.Spec.rctx Cert.Spec.rprob
  simp only [hV, hW]

/-! ### The payloads -/

/-- The zero the heads' contributions are accumulated onto. -/
theorem pay8_spec (n : Fin 8) (o : Fin 512) : k0_pay8 (F := Ideal) (ix3 b n o) = Cert.Spec.ZERO := rfl

/-- The units as rows of a matrix. -/
theorem pay19_spec (v0 : Vec Ideal S128x8x512 .f32) (h0 : ∀ n i, v0 (ix3 b n i) = hs n i) (n : Fin 8) (i : Fin 512) :
    k0_pay19 (F := Ideal) v0 (ix2 (row8 b n) i) = hs n i := by
  unfold k0_pay19
  exact (cast_128x8x512_1024x512 v0 _ b n i).trans (h0 n i)

theorem pay11_spec (h : ℕ) (hh : h < 4) (v0 : Vec Ideal S128x8x512 .f32) (v99 : Vec Ideal S32x512 .f32) (v101 : Vec Ideal S32 .f32) (h0 : ∀ n i, v0 (ix3 b n i) = hs n i)
    (h99 : ∀ (k : Fin 32) (i : Fin 512), v99 (ix2 k i) = P.rq_w (ix2 ⟨32 * h + k.val, by have := k.isLt; omega⟩ i)) (h101 : ∀ k : Fin 32, v101 (ix1 k) = P.rq_b (ix1 ⟨32 * h + k.val, by have := k.isLt; omega⟩)) (n : Fin 8) (k : Fin 32) :
    k0_pay11 (F := Ideal) v0 v99 v101 (ix3 b n k) = Cert.Spec.rq P hs h hh n k := by
  have e : k0_pay11 (F := Ideal) v0 v99 v101
      = proj32 (truncf .bf16 (shapeCast S1024x512 v0 shapeCasts_S128x8x512_S1024x512 : FVec Ideal S1024x512 .f32) bitsLt_bf16_f32)
          (truncf .bf16 v99 bitsLt_bf16_f32) v101 := rfl
  rw [e, proj32_apply]
  unfold Cert.Spec.rq
  simp only [truncf_apply, cast_128x8x512_1024x512, h0, h99, h101]

theorem pay12_spec (h : ℕ) (hh : h < 4) (v1 : Vec Ideal S128x8x512 .f32) (v61 v80 : FVec Ideal S128x8x512 .f32) (v81 : Vec Ideal S1024x512 .f32) (v83 : Vec Ideal S1024 .f32) (v102 : Vec Ideal S32x512 .f32) (v104 : Vec Ideal S32 .f32)
    (h97 : ∀ s d, k0_pay7 (F := Ideal) v1 v61 v80 v81 v83 (ix3 b s d) = Cert.Spec.memNew P hs mem s d)
    (h102 : ∀ (k : Fin 32) (i : Fin 512), v102 (ix2 k i) = P.rk_w (ix2 ⟨32 * h + k.val, by have := k.isLt; omega⟩ i)) (h104 : ∀ k : Fin 32, v104 (ix1 k) = P.rk_b (ix1 ⟨32 * h + k.val, by have := k.isLt; omega⟩)) (s : Fin 8) (k : Fin 32) :
    k0_pay12 (F := Ideal) v1 v61 v80 v81 v83 v102 v104 (ix3 b s k) = Cert.Spec.rk P hs mem h hh s k := by
  have e : k0_pay12 (F := Ideal) v1 v61 v80 v81 v83 v102 v104
      = proj32 (truncf .bf16 (shapeCast S1024x512 (k0_pay7 (F := Ideal) v1 v61 v80 v81 v83) shapeCasts_S128x8x512_S1024x512 : FVec Ideal S1024x512 .f32) bitsLt_bf16_f32)
          (truncf .bf16 v102 bitsLt_bf16_f32) v104 := rfl
  rw [e, proj32_apply]
  unfold Cert.Spec.rk
  simp only [truncf_apply, cast_128x8x512_1024x512, h97, h102, h104]

theorem pay13_spec (v1 : Vec Ideal S128x8x512 .f32) (v61 v80 : FVec Ideal S128x8x512 .f32) (v81 : Vec Ideal S1024x512 .f32) (v83 : Vec Ideal S1024 .f32)
    (h97 : ∀ s d, k0_pay7 (F := Ideal) v1 v61 v80 v81 v83 (ix3 b s d) = Cert.Spec.memNew P hs mem s d) (s : Fin 8) (i : Fin 512) :
    k0_pay13 (F := Ideal) v1 v61 v80 v81 v83 (ix2 (row8 b s) i) = Cert.Spec.memNew P hs mem s i := by
  unfold k0_pay13
  exact (cast_128x8x512_1024x512 (k0_pay7 (F := Ideal) v1 v61 v80 v81 v83) _ b s i).trans (h97 s i)

theorem pay14_spec (h : ℕ) (hh : h < 4) (v98 : FVec Ideal S128x8x512 .f32) (v106 : FVec Ideal S512x512 .bf16) (v107 : Vec Ideal S512 .f32) (v109 : FVec Ideal S512x512 .bf16) (v116 v123 : FVec Ideal S128x8x32 .f32) (v125 : FVec Ideal S1024x512 .bf16)
    (acc : Fin 8 → Fin 512 → EReal) (h98 : ∀ n o, v98 (ix3 b n o) = acc n o)
    (h106 : ∀ d i : Fin 512, v106 (ix2 d i) = P.rv_w (ix2 ⟨512 * h + d.val, by have := d.isLt; omega⟩ i)) (h107 : ∀ d : Fin 512, v107 (ix1 d) = P.rv_b (ix1 ⟨512 * h + d.val, by have := d.isLt; omega⟩)) (h109 : ∀ o d : Fin 512, v109 (ix2 o d) = P.ro_w (ix2 o ⟨512 * h + d.val, by have := d.isLt; omega⟩))
    (h116 : ∀ n k, v116 (ix3 b n k) = Cert.Spec.rq P hs h hh n k) (h123 : ∀ s k, v123 (ix3 b s k) = Cert.Spec.rk P hs mem h hh s k)
    (h125 : ∀ s i, v125 (ix2 (row8 b s) i) = Cert.Spec.memNew P hs mem s i) (n : Fin 8) (o : Fin 512) :
    k0_pay14 (F := Ideal) v98 v106 v107 v109 v116 v123 v125 (ix3 b n o) = acc n o + Cert.Spec.contrib P hs mem h hh n o := by
  have e : k0_pay14 (F := Ideal) v98 v106 v107 v109 v116 v123 v125 = headOut v98 (proj512 v125 v106 v107) v109 v116 v123 := rfl
  rw [e]
  refine head_spec P hs mem b h hh v98 _ v109 v116 v123 acc h98 (fun s d => ?_) h109 h116 h123 n o
  rw [proj512_apply]
  unfold Cert.Spec.rv
  simp only [h125, h106, h107]

theorem pay20_spec (h : ℕ) (hh : h < 4) (v97 v154 : FVec Ideal S128x8x512 .f32) (v156 : FVec Ideal S32x512 .bf16) (v157 : Vec Ideal S32 .f32) (v159 : FVec Ideal S32x512 .bf16) (v160 : Vec Ideal S32 .f32) (v162 : FVec Ideal S512x512 .bf16) (v163 : Vec Ideal S512 .f32) (v165 : FVec Ideal S512x512 .bf16) (v166 : FVec Ideal S1024x512 .f32)
    (acc : Fin 8 → Fin 512 → EReal) (h97 : ∀ s d, v97 (ix3 b s d) = Cert.Spec.memNew P hs mem s d) (h154 : ∀ n o, v154 (ix3 b n o) = acc n o)
    (h156 : ∀ (k : Fin 32) (i : Fin 512), v156 (ix2 k i) = P.rq_w (ix2 ⟨32 * h + k.val, by have := k.isLt; omega⟩ i)) (h157 : ∀ k : Fin 32, v157 (ix1 k) = P.rq_b (ix1 ⟨32 * h + k.val, by have := k.isLt; omega⟩)) (h159 : ∀ (k : Fin 32) (i : Fin 512), v159 (ix2 k i) = P.rk_w (ix2 ⟨32 * h + k.val, by have := k.isLt; omega⟩ i)) (h160 : ∀ k : Fin 32, v160 (ix1 k) = P.rk_b (ix1 ⟨32 * h + k.val, by have := k.isLt; omega⟩)) (h162 : ∀ d i : Fin 512, v162 (ix2 d i) = P.rv_w (ix2 ⟨512 * h + d.val, by have := d.isLt; omega⟩ i)) (h163 : ∀ d : Fin 512, v163 (ix1 d) = P.rv_b (ix1 ⟨512 * h + d.val, by have := d.isLt; omega⟩)) (h165 : ∀ o d : Fin 512, v165 (ix2 o d) = P.ro_w (ix2 o ⟨512 * h + d.val, by have := d.isLt; omega⟩))
    (h166 : ∀ n i, v166 (ix2 (row8 b n) i) = hs n i) (n : Fin 8) (o : Fin 512) :
    k0_pay20 (F := Ideal) v97 v154 v156 v157 v159 v160 v162 v163 v165 v166 (ix3 b n o) = acc n o + Cert.Spec.contrib P hs mem h hh n o := by
  have e : k0_pay20 (F := Ideal) v97 v154 v156 v157 v159 v160 v162 v163 v165 v166
      = headOut v154
          (proj512 (truncf .bf16 (shapeCast S1024x512 v97 shapeCasts_S128x8x512_S1024x512 : FVec Ideal S1024x512 .f32) bitsLt_bf16_f32) v162 v163)
          v165 (proj32 (truncf .bf16 v166 bitsLt_bf16_f32) v156 v157)
          (proj32 (truncf .bf16 (shapeCast S1024x512 v97 shapeCasts_S128x8x512_S1024x512 : FVec Ideal S1024x512 .f32) bitsLt_bf16_f32) v159 v160) := rfl
  rw [e]
  refine head_spec P hs mem b h hh v154 _ v165 _ _ acc h154 (fun s d => ?_) h165 (fun n k => ?_) (fun s k => ?_) n o
  · rw [proj512_apply]
    unfold Cert.Spec.rv
    simp only [truncf_apply, cast_128x8x512_1024x512, h97, h162, h163]
  · rw [proj32_apply]
    unfold Cert.Spec.rq
    simp only [truncf_apply, h166, h156, h157]
  · rw [proj32_apply]
    unfold Cert.Spec.rk
    simp only [truncf_apply, cast_128x8x512_1024x512, h97, h159, h160]

end Cert.KerHeadA

end
-- ==== Proof.KerHeadB.lean ====
/-
  The kernel's read attention, the payloads of the last two heads and the final sum, for batch element `b` of a block and
  a head `h` (the head enters only through which rows and columns of the weights a payload was handed): the softmax's
  numerators and row sums, values, a head's contribution added onto what was accumulated before, and the output: the
  residual plus the accumulated contributions plus the bias.
-/
import proofs.«106064_j9835475108028_1_alg».proof.Proof.LibBlock

noncomputable section

namespace Cert.KerHeadB

open Cert.KernelIdeal Cert.KernelIdeal.Gen Cert.KerLib Idealize.ShloMosaic Idealize.ShloMosaic.ValueIdx

variable [Cert.KernelIdeal.Facts]
variable (P : Cert.Spec.Params) (hs mem : Fin 8 → Fin 512 → EReal) (b : Fin 128)

/-- The exponential of a vector, read at an index. -/
private theorem exp_apply {s : Shape} {φ : FTy} (a : FVec Ideal s φ) (i : s.Idx) : exp a i = Ideal.exp (a i) := rfl

/-- The rows of a block through a linear map with 32 outputs: `(∑ i, X s i · W k i) + B k`. -/
private theorem lin32 (X : FVec Ideal S128x8x512 .f32) (W : FVec Ideal S32x512 .bf16) (B : FVec Ideal S32 .f32) (s : Fin 8) (k : Fin 32) :
    shapeCast S128x8x32 (addf (matmul dot_S1024x512_S32x512_S1024x32_1_1_0_0_n_n none
        (truncf .bf16 (shapeCast S1024x512 X shapeCasts_S128x8x512_S1024x512) bitsLt_bf16_f32) W (constant S1024x32 .f32 0x00000000#32))
      (broadcastTo S1024x32 (shapeCast S1x32 B shapeCasts_S32_S1x32) broadcasts_S1x32_S1024x32)) shapeCasts_S1024x32_S128x8x32 (ix3 b s k)
      = (∑ i : Fin 512, X (ix3 b s i) * W (ix2 k i)) + B (ix1 k) := by
  rw [cast_1024x32_128x8x32, addf_apply, mm_1024x512_32x512, bias_1024x32]
  congr 1
  exact Finset.sum_congr rfl fun i _ => by rw [truncf_apply, cast_128x8x512_1024x512]

/-- The rows of a block through a linear map with 512 outputs. -/
private theorem lin512 (X : FVec Ideal S128x8x512 .f32) (W : FVec Ideal S512x512 .bf16) (B : FVec Ideal S512 .f32) (s : Fin 8) (d : Fin 512) :
    shapeCast S128x8x512 (addf (matmul dot_S1024x512_S512x512_S1024x512_1_1_0_0_n_n none
        (truncf .bf16 (shapeCast S1024x512 X shapeCasts_S128x8x512_S1024x512) bitsLt_bf16_f32) W (constant S1024x512 .f32 0x00000000#32))
      (broadcastTo S1024x512 (shapeCast S1x512 B shapeCasts_S512_S1x512) broadcasts_S1x512_S1024x512)) shapeCasts_S1024x512_S128x8x512 (ix3 b s d)
      = (∑ i : Fin 512, X (ix3 b s i) * W (ix2 d i)) + B (ix1 d) := by
  rw [cast_1024x512_128x8x512, addf_apply, mm_1024x512_512x512, bias_1024x512]
  congr 1
  exact Finset.sum_congr rfl fun i _ => by rw [truncf_apply, cast_128x8x512_1024x512]

/-- A head's scores: the queries against the keys of the same batch element, scaled. -/
private theorem score8 (Q K : FVec Ideal S128x8x32 .bf16) (q k : Fin 8 → Fin 32 → EReal)
    (hQ : ∀ n j, Q (ix3 b n j) = q n j) (hK : ∀ s j, K (ix3 b s j) = k s j) (n s : Fin 8) :
    mulf (matmul dot_S128x8x32_S128x8x32_S128x8x8_2_2_1_1_0_0 none Q K (constant S128x8x8 .f32 0x00000000#32))
      (broadcast S128x8x8 (Named.named (F := Ideal) Cert.KernelIdeal.κ "inv_sqrt_key" (φ := .f32) 0x3E3504F3#32)) (ix3 b n s)
      = (∑ j : Fin 32, q n j * k s j) * Cert.Spec.SCALE := by
  rw [mulf_apply, bmm_scores8, broadcast_apply, scale_eq]
  congr 1
  exact Finset.sum_congr rfl fun j _ => by rw [hQ, hK]

/-- The numerators of a softmax row: `exp (x s − M)` with `M` the row's maximum. -/
private theorem numer8 (v : FVec Ideal S128x8x8 .f32) (f : Fin 8 → Fin 8 → EReal) (hv : ∀ n s, v (ix3 b n s) = f n s) (n s : Fin 8) :
    exp (subf v (broadcastTo S128x8x8 (shapeCast S128x8x1 (maximumf (broadcast S128x8 (Scalar.ofBits (F := Ideal) .f32 0xFF800000#32))
        (multiReduction .maximumf [2] S128x8 v 0xFF800000#32 reduces_S128x8x8_S128x8 (.inl rfl) rfl)) shapeCasts_S128x8_S128x8x1)
        broadcasts_S128x8x1_S128x8x8)) (ix3 b n s)
      = Ideal.exp (f n s - Cert.Spec.rowMax (f n)) := by
  rw [exp_apply, subf_apply]
  refine (congrArg (fun m => Ideal.exp (v (ix3 b n s) - m)) (rowmax8 v _ _ _ _ _ b n s)).trans ?_
  rw [hv, show (fun s' : Fin 8 => v (ix3 b n s')) = f n from funext (hv n)]

/-- Numerators over row sums against the value rows, then the output projection's columns:
    `∑ d, (∑ s, (e n s / z n) · v s d) · w o d`. -/
private theorem proj8 (E D : FVec Ideal S128x8x8 .f32) (V : FVec Ideal S128x8x512 .f32) (W : FVec Ideal S512x512 .bf16)
    (e : Fin 8 → Fin 8 → EReal) (z : Fin 8 → EReal) (rvf : Fin 8 → Fin 512 → EReal) (w : Fin 512 → Fin 512 → EReal)
    (hE : ∀ n s, E (ix3 b n s) = e n s) (hD : ∀ n s, D (ix3 b n s) = z n) (hV : ∀ s d, V (ix3 b s d) = rvf s d)
    (hW : ∀ o d, W (ix2 o d) = w o d) (n : Fin 8) (o : Fin 512) :
    shapeCast S128x8x512 (matmul dot_S1024x512_S512x512_S1024x512_1_1_0_0_n_n none
        (truncf .bf16 (shapeCast S1024x512 (matmul dot_S128x8x8_S128x8x512_S128x8x512_2_1_1_2_0_0 none (truncf .bf16 (divf E D) bitsLt_bf16_f32)
          (truncf .bf16 V bitsLt_bf16_f32) (constant S128x8x512 .f32 0x00000000#32)) shapeCasts_S128x8x512_S1024x512) bitsLt_bf16_f32)
        W (constant S1024x512 .f32 0x00000000#32)) shapeCasts_S1024x512_S128x8x512 (ix3 b n o)
      = ∑ d : Fin 512, (∑ s : Fin 8, Ideal.div (e n s) (z n) * rvf s d) * w o d := by
  rw [cast_1024x512_128x8x512, mm_1024x512_512x512]
  refine Finset.sum_congr rfl fun d _ => ?_
  rw [truncf_apply, cast_128x8x512_1024x512, bmm_ctx8, hW]
  congr 1
  exact Finset.sum_congr rfl fun s _ => by rw [truncf_apply, truncf_apply, divf_apply, hE, hD, hV]

theorem pay23_spec (h : ℕ) (hh : h < 4) (v97 : FVec Ideal S128x8x512 .f32) (v217 : Vec Ideal S512x512 .f32) (v219 : Vec Ideal S512 .f32) (h97 : ∀ s d, v97 (ix3 b s d) = Cert.Spec.memNew P hs mem s d)
    (h217 : ∀ d i : Fin 512, v217 (ix2 d i) = P.rv_w (ix2 ⟨512 * h + d.val, by have := d.isLt; omega⟩ i)) (h219 : ∀ d : Fin 512, v219 (ix1 d) = P.rv_b (ix1 ⟨512 * h + d.val, by have := d.isLt; omega⟩)) (s : Fin 8) (d : Fin 512) :
    k0_pay23 (F := Ideal) v97 v217 v219 (ix3 b s d) = Cert.Spec.rv P hs mem h hh s d := by
  unfold k0_pay23
  rw [lin512 b]
  unfold Cert.Spec.rv
  congr 1
  · exact Finset.sum_congr rfl fun i _ => by rw [h97, truncf_apply, h217]
  · exact h219 d

theorem pay28_spec (h : ℕ) (hh : h < 4) (v97 : FVec Ideal S128x8x512 .f32) (v273 : Vec Ideal S512x512 .f32) (v275 : Vec Ideal S512 .f32) (h97 : ∀ s d, v97 (ix3 b s d) = Cert.Spec.memNew P hs mem s d)
    (h273 : ∀ d i : Fin 512, v273 (ix2 d i) = P.rv_w (ix2 ⟨512 * h + d.val, by have := d.isLt; omega⟩ i)) (h275 : ∀ d : Fin 512, v275 (ix1 d) = P.rv_b (ix1 ⟨512 * h + d.val, by have := d.isLt; omega⟩)) (s : Fin 8) (d : Fin 512) :
    k0_pay28 (F := Ideal) v97 v273 v275 (ix3 b s d) = Cert.Spec.rv P hs mem h hh s d := by
  unfold k0_pay28
  rw [lin512 b]
  unfold Cert.Spec.rv
  congr 1
  · exact Finset.sum_congr rfl fun i _ => by rw [h97, truncf_apply, h273]
  · exact h275 d

/-- The softmax's numerators of head `h`. -/
theorem pay24_spec (h : ℕ) (hh : h < 4) (v0 : Vec Ideal S128x8x512 .f32) (v97 : FVec Ideal S128x8x512 .f32) (v212 : FVec Ideal S32x512 .bf16) (v213 : Vec Ideal S32 .f32) (v214 : Vec Ideal S32x512 .f32) (v216 : Vec Ideal S32 .f32)
    (h0 : ∀ n i, v0 (ix3 b n i) = hs n i) (h97 : ∀ s d, v97 (ix3 b s d) = Cert.Spec.memNew P hs mem s d) (h212 : ∀ (k : Fin 32) (i : Fin 512), v212 (ix2 k i) = P.rq_w (ix2 ⟨32 * h + k.val, by have := k.isLt; omega⟩ i)) (h213 : ∀ k : Fin 32, v213 (ix1 k) = P.rq_b (ix1 ⟨32 * h + k.val, by have := k.isLt; omega⟩)) (h214 : ∀ (k : Fin 32) (i : Fin 512), v214 (ix2 k i) = P.rk_w (ix2 ⟨32 * h + k.val, by have := k.isLt; omega⟩ i)) (h216 : ∀ k : Fin 32, v216 (ix1 k) = P.rk_b (ix1 ⟨32 * h + k.val, by have := k.isLt; omega⟩)) (n s : Fin 8) :
    k0_pay24 (F := Ideal) v0 v97 v212 v213 v214 v216 (ix3 b n s) = Ideal.exp (Cert.Spec.rscore P hs mem h hh n s - Cert.Spec.rowMax (Cert.Spec.rscore P hs mem h hh n)) := by
  unfold k0_pay24
  dsimp only
  refine numer8 b _ (Cert.Spec.rscore P hs mem h hh) (fun n' s' => ?_) n s
  refine (score8 b _ _ (Cert.Spec.rq P hs h hh) (Cert.Spec.rk P hs mem h hh) (fun n'' k => ?_) (fun s'' k => ?_) n' s').trans rfl
  · rw [truncf_apply, lin32 b]
    unfold Cert.Spec.rq
    congr 1
    · exact Finset.sum_congr rfl fun i _ => by rw [h0, h212]
    · exact h213 k
  · rw [truncf_apply, lin32 b]
    unfold Cert.Spec.rk
    congr 1
    · exact Finset.sum_congr rfl fun i _ => by rw [h97, truncf_apply, h214]
    · exact h216 k

/-- The softmax's row sums of head `h`, along the row. -/
theorem pay25_spec (h : ℕ) (hh : h < 4) (v0 : Vec Ideal S128x8x512 .f32) (v97 : FVec Ideal S128x8x512 .f32) (v212 : FVec Ideal S32x512 .bf16) (v213 : Vec Ideal S32 .f32) (v214 : Vec Ideal S32x512 .f32) (v216 : Vec Ideal S32 .f32)
    (h0 : ∀ n i, v0 (ix3 b n i) = hs n i) (h97 : ∀ s d, v97 (ix3 b s d) = Cert.Spec.memNew P hs mem s d) (h212 : ∀ (k : Fin 32) (i : Fin 512), v212 (ix2 k i) = P.rq_w (ix2 ⟨32 * h + k.val, by have := k.isLt; omega⟩ i)) (h213 : ∀ k : Fin 32, v213 (ix1 k) = P.rq_b (ix1 ⟨32 * h + k.val, by have := k.isLt; omega⟩)) (h214 : ∀ (k : Fin 32) (i : Fin 512), v214 (ix2 k i) = P.rk_w (ix2 ⟨32 * h + k.val, by have := k.isLt; omega⟩ i)) (h216 : ∀ k : Fin 32, v216 (ix1 k) = P.rk_b (ix1 ⟨32 * h + k.val, by have := k.isLt; omega⟩)) (n s : Fin 8) :
    k0_pay25 (F := Ideal) v0 v97 v212 v213 v214 v216 (ix3 b n s) = ∑ s' : Fin 8, Ideal.exp (Cert.Spec.rscore P hs mem h hh n s' - Cert.Spec.rowMax (Cert.Spec.rscore P hs mem h hh n)) := by
  unfold k0_pay25
  dsimp only
  exact (rowsum8 _ _ _ _ _ _ b n s).trans <| Finset.sum_congr rfl fun s' _ => pay24_spec P hs mem b h hh v0 v97 v212 v213 v214 v216 h0 h97 h212 h213 h214 h216 n s'

theorem pay26_spec (h : ℕ) (hh : h < 4) (v210 : FVec Ideal S128x8x512 .f32) (v221 : FVec Ideal S512x512 .bf16) (v242 : FVec Ideal S128x8x512 .f32) (v254 v257 : FVec Ideal S128x8x8 .f32)
    (acc : Fin 8 → Fin 512 → EReal) (h210 : ∀ n o, v210 (ix3 b n o) = acc n o) (h221 : ∀ o d : Fin 512, v221 (ix2 o d) = P.ro_w (ix2 o ⟨512 * h + d.val, by have := d.isLt; omega⟩))
    (h242 : ∀ s d, v242 (ix3 b s d) = Cert.Spec.rv P hs mem h hh s d)
    (h254 : ∀ n s, v254 (ix3 b n s) = Ideal.exp (Cert.Spec.rscore P hs mem h hh n s - Cert.Spec.rowMax (Cert.Spec.rscore P hs mem h hh n)))
    (h257 : ∀ n s, v257 (ix3 b n s) = ∑ s' : Fin 8, Ideal.exp (Cert.Spec.rscore P hs mem h hh n s' - Cert.Spec.rowMax (Cert.Spec.rscore P hs mem h hh n))) (n : Fin 8) (o : Fin 512) :
    k0_pay26 (F := Ideal) v210 v221 v242 v254 v257 (ix3 b n o) = acc n o + Cert.Spec.contrib P hs mem h hh n o := by
  unfold k0_pay26
  rw [addf_apply, h210]
  congr 1
  refine (proj8 b v254 v257 v242 v221
    (fun n s => Ideal.exp (Cert.Spec.rscore P hs mem h hh n s - Cert.Spec.rowMax (Cert.Spec.rscore P hs mem h hh n)))
    (fun n => ∑ s' : Fin 8, Ideal.exp (Cert.Spec.rscore P hs mem h hh n s' - Cert.Spec.rowMax (Cert.Spec.rscore P hs mem h hh n)))
    (Cert.Spec.rv P hs mem h hh) _ h254 h257 h242 h221 n o).trans ?_
  rfl

theorem pay29_spec (h : ℕ) (hh : h < 4) (v0 : Vec Ideal S128x8x512 .f32) (v267 : Vec Ideal S32x512 .f32) (v269 : Vec Ideal S32 .f32) (h0 : ∀ n i, v0 (ix3 b n i) = hs n i)
    (h267 : ∀ (k : Fin 32) (i : Fin 512), v267 (ix2 k i) = P.rq_w (ix2 ⟨32 * h + k.val, by have := k.isLt; omega⟩ i)) (h269 : ∀ k : Fin 32, v269 (ix1 k) = P.rq_b (ix1 ⟨32 * h + k.val, by have := k.isLt; omega⟩)) (n : Fin 8) (k : Fin 32) :
    k0_pay29 (F := Ideal) v0 v267 v269 (ix3 b n k) = Cert.Spec.rq P hs h hh n k := by
  unfold k0_pay29
  rw [truncf_apply, lin32 b]
  unfold Cert.Spec.rq
  congr 1
  · exact Finset.sum_congr rfl fun i _ => by rw [h0, truncf_apply, h267]
  · exact h269 k

theorem pay30_spec (h : ℕ) (hh : h < 4) (v97 : FVec Ideal S128x8x512 .f32) (v270 : Vec Ideal S32x512 .f32) (v272 : Vec Ideal S32 .f32) (h97 : ∀ s d, v97 (ix3 b s d) = Cert.Spec.memNew P hs mem s d)
    (h270 : ∀ (k : Fin 32) (i : Fin 512), v270 (ix2 k i) = P.rk_w (ix2 ⟨32 * h + k.val, by have := k.isLt; omega⟩ i)) (h272 : ∀ k : Fin 32, v272 (ix1 k) = P.rk_b (ix1 ⟨32 * h + k.val, by have := k.isLt; omega⟩)) (s : Fin 8) (k : Fin 32) :
    k0_pay30 (F := Ideal) v97 v270 v272 (ix3 b s k) = Cert.Spec.rk P hs mem h hh s k := by
  unfold k0_pay30
  rw [truncf_apply, lin32 b]
  unfold Cert.Spec.rk
  congr 1
  · exact Finset.sum_congr rfl fun i _ => by rw [h97, truncf_apply, h270]
  · exact h272 k

/-- The output rows of element `b`: the residual, plus what the heads before accumulated plus the last head's contribution, plus the bias. -/
theorem pay1_spec (h : ℕ) (hh : h < 4) (v0 : Vec Ideal S128x8x512 .f32) (v266 : FVec Ideal S128x8x512 .f32) (v277 : FVec Ideal S512x512 .bf16) (v298 : FVec Ideal S128x8x512 .f32) (v299 v300 : FVec Ideal S128x8x32 .bf16) (v324 : Vec Ideal S512 .f32)
    (acc : Fin 8 → Fin 512 → EReal) (h0 : ∀ n i, v0 (ix3 b n i) = hs n i) (h266 : ∀ n o, v266 (ix3 b n o) = acc n o) (h277 : ∀ o d : Fin 512, v277 (ix2 o d) = P.ro_w (ix2 o ⟨512 * h + d.val, by have := d.isLt; omega⟩))
    (h298 : ∀ s d, v298 (ix3 b s d) = Cert.Spec.rv P hs mem h hh s d)
    (h299 : ∀ n k, v299 (ix3 b n k) = Cert.Spec.rq P hs h hh n k) (h300 : ∀ s k, v300 (ix3 b s k) = Cert.Spec.rk P hs mem h hh s k)
    (h324 : ∀ o : Fin 512, v324 (ix1 o) = P.ro_b (ix1 o)) (n : Fin 8) (o : Fin 512) :
    k0_pay1 (F := Ideal) v0 v266 v277 v298 v299 v300 (constant S128x8x8 .f32 0x00000000#32) v324 (ix3 b n o)
      = (hs n o + (acc n o + Cert.Spec.contrib P hs mem h hh n o)) + P.ro_b (ix1 o) := by
  unfold k0_pay1
  dsimp only
  rw [addf_apply, addf_apply, addf_apply, bias_128x8x512, h0, h266, h324]
  refine congrArg (fun x => (hs n o + (acc n o + x)) + P.ro_b (ix1 o)) ?_
  have hnum := numer8 b _ (Cert.Spec.rscore P hs mem h hh)
    (fun n' s' => (score8 b v299 v300 (Cert.Spec.rq P hs h hh) (Cert.Spec.rk P hs mem h hh) h299 h300 n' s').trans rfl)
  refine (proj8 b _ _ v298 v277
    (fun n s => Ideal.exp (Cert.Spec.rscore P hs mem h hh n s - Cert.Spec.rowMax (Cert.Spec.rscore P hs mem h hh n)))
    (fun n => ∑ s' : Fin 8, Ideal.exp (Cert.Spec.rscore P hs mem h hh n s' - Cert.Spec.rowMax (Cert.Spec.rscore P hs mem h hh n)))
    (Cert.Spec.rv P hs mem h hh) _ hnum (fun n' s' => ?_) h298 h277 n o).trans ?_
  · exact (rowsum8 _ _ _ _ _ _ b n' s').trans <| Finset.sum_congr rfl fun s'' _ => hnum n' s''
  · rfl

end Cert.KerHeadB

end
-- ==== Proof.KerGlue.lean ====
/-
  The body of the kernel at one batch element of a block. Whatever the 22 input blocks hold, row `b` of the two blocks
  the body stores is the specification's `hOut` and `memNew` of row `b` of the two data blocks and the weights: the
  payloads composed as the body composes them, each read by its lemma. A weight block the body loads through a
  sub-rectangle (a head's 32 rows of the query and key weights, its 512 rows of the value weights, its 512 columns
  of the output weights) is the weight array at the shifted index.
-/
import proofs.«106064_j9835475108028_1_alg».proof.Proof.Gen.KernelIdeal.Frame
import proofs.«106064_j9835475108028_1_alg».proof.Proof.KerWrite
import proofs.«106064_j9835475108028_1_alg».proof.Proof.KerHeadA
import proofs.«106064_j9835475108028_1_alg».proof.Proof.KerHeadB

set_option maxRecDepth 16384

noncomputable section

namespace Cert.KerGlue

open Cert.KernelIdeal Cert.KernelIdeal.Gen Cert.KerLib Idealize.ShloMosaic Idealize.ShloMosaic.ValueIdx

variable [Cert.KernelIdeal.Facts]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ### A head's slices of the weights: a load through the head's rectangle reads the array at the shifted index -/

theorem ld_rq_w0 (x : Vec Ideal S128x512 .f32) (k : Fin 32) (i : Fin 512) :
    View.ld x r0_7 (ix2 k i) = x (ix2 ⟨32 * 0 + k.val, by have := k.isLt; omega⟩ i) :=
  congrArg x (funext fun a => Fin.ext (by
    match a with
    | ⟨0, _⟩ => show 0 + 1 * k.val = 32 * 0 + k.val; omega
    | ⟨1, _⟩ => show 0 + 1 * i.val = i.val; omega))
theorem ld_rq_b0 (x : Vec Ideal S128 .f32) (k : Fin 32) :
    View.ld x r0_8 (ix1 k) = x (ix1 ⟨32 * 0 + k.val, by have := k.isLt; omega⟩) :=
  congrArg x (funext fun a => Fin.ext (by
    match a with
    | ⟨0, _⟩ => show 0 + 1 * k.val = 32 * 0 + k.val; omega))
theorem ld_rv_w0 (x : Vec Ideal S2048x512 .f32) (d i : Fin 512) :
    View.ld x r0_9 (ix2 d i) = x (ix2 ⟨512 * 0 + d.val, by have := d.isLt; omega⟩ i) :=
  congrArg x (funext fun a => Fin.ext (by
    match a with
    | ⟨0, _⟩ => show 0 + 1 * d.val = 512 * 0 + d.val; omega
    | ⟨1, _⟩ => show 0 + 1 * i.val = i.val; omega))
theorem ld_rv_b0 (x : Vec Ideal S2048 .f32) (d : Fin 512) :
    View.ld x r0_10 (ix1 d) = x (ix1 ⟨512 * 0 + d.val, by have := d.isLt; omega⟩) :=
  congrArg x (funext fun a => Fin.ext (by
    match a with
    | ⟨0, _⟩ => show 0 + 1 * d.val = 512 * 0 + d.val; omega))
theorem ld_ro_w0 (x : Vec Ideal S512x2048 .f32) (o d : Fin 512) :
    View.ld x r0_11 (ix2 o d) = x (ix2 o ⟨512 * 0 + d.val, by have := d.isLt; omega⟩) :=
  congrArg x (funext fun a => Fin.ext (by
    match a with
    | ⟨0, _⟩ => show 0 + 1 * o.val = o.val; omega
    | ⟨1, _⟩ => show 0 + 1 * d.val = 512 * 0 + d.val; omega))

theorem ld_rq_w1 (x : Vec Ideal S128x512 .f32) (k : Fin 32) (i : Fin 512) :
    View.ld x r0_12 (ix2 k i) = x (ix2 ⟨32 * 1 + k.val, by have := k.isLt; omega⟩ i) :=
  congrArg x (funext fun a => Fin.ext (by
    match a with
    | ⟨0, _⟩ => show 32 + 1 * k.val = 32 * 1 + k.val; omega
    | ⟨1, _⟩ => show 0 + 1 * i.val = i.val; omega))
theorem ld_rq_b1 (x : Vec Ideal S128 .f32) (k : Fin 32) :
    View.ld x r0_13 (ix1 k) = x (ix1 ⟨32 * 1 + k.val, by have := k.isLt; omega⟩) :=
  congrArg x (funext fun a => Fin.ext (by
    match a with
    | ⟨0, _⟩ => show 32 + 1 * k.val = 32 * 1 + k.val; omega))
theorem ld_rv_w1 (x : Vec Ideal S2048x512 .f32) (d i : Fin 512) :
    View.ld x r0_14 (ix2 d i) = x (ix2 ⟨512 * 1 + d.val, by have := d.isLt; omega⟩ i) :=
  congrArg x (funext fun a => Fin.ext (by
    match a with
    | ⟨0, _⟩ => show 512 + 1 * d.val = 512 * 1 + d.val; omega
    | ⟨1, _⟩ => show 0 + 1 * i.val = i.val; omega))
theorem ld_rv_b1 (x : Vec Ideal S2048 .f32) (d : Fin 512) :
    View.ld x r0_15 (ix1 d) = x (ix1 ⟨512 * 1 + d.val, by have := d.isLt; omega⟩) :=
  congrArg x (funext fun a => Fin.ext (by
    match a with
    | ⟨0, _⟩ => show 512 + 1 * d.val = 512 * 1 + d.val; omega))
theorem ld_ro_w1 (x : Vec Ideal S512x2048 .f32) (o d : Fin 512) :
    View.ld x r0_16 (ix2 o d) = x (ix2 o ⟨512 * 1 + d.val, by have := d.isLt; omega⟩) :=
  congrArg x (funext fun a => Fin.ext (by
    match a with
    | ⟨0, _⟩ => show 0 + 1 * o.val = o.val; omega
    | ⟨1, _⟩ => show 512 + 1 * d.val = 512 * 1 + d.val; omega))

theorem ld_rq_w2 (x : Vec Ideal S128x512 .f32) (k : Fin 32) (i : Fin 512) :
    View.ld x r0_17 (ix2 k i) = x (ix2 ⟨32 * 2 + k.val, by have := k.isLt; omega⟩ i) :=
  congrArg x (funext fun a => Fin.ext (by
    match a with
    | ⟨0, _⟩ => show 64 + 1 * k.val = 32 * 2 + k.val; omega
    | ⟨1, _⟩ => show 0 + 1 * i.val = i.val; omega))
theorem ld_rq_b2 (x : Vec Ideal S128 .f32) (k : Fin 32) :
    View.ld x r0_18 (ix1 k) = x (ix1 ⟨32 * 2 + k.val, by have := k.isLt; omega⟩) :=
  congrArg x (funext fun a => Fin.ext (by
    match a with
    | ⟨0, _⟩ => show 64 + 1 * k.val = 32 * 2 + k.val; omega))
theorem ld_rv_w2 (x : Vec Ideal S2048x512 .f32) (d i : Fin 512) :
    View.ld x r0_19 (ix2 d i) = x (ix2 ⟨512 * 2 + d.val, by have := d.isLt; omega⟩ i) :=
  congrArg x (funext fun a => Fin.ext (by
    match a with
    | ⟨0, _⟩ => show 1024 + 1 * d.val = 512 * 2 + d.val; omega
    | ⟨1, _⟩ => show 0 + 1 * i.val = i.val; omega))
theorem ld_rv_b2 (x : Vec Ideal S2048 .f32) (d : Fin 512) :
    View.ld x r0_20 (ix1 d) = x (ix1 ⟨512 * 2 + d.val, by have := d.isLt; omega⟩) :=
  congrArg x (funext fun a => Fin.ext (by
    match a with
    | ⟨0, _⟩ => show 1024 + 1 * d.val = 512 * 2 + d.val; omega))
theorem ld_ro_w2 (x : Vec Ideal S512x2048 .f32) (o d : Fin 512) :
    View.ld x r0_21 (ix2 o d) = x (ix2 o ⟨512 * 2 + d.val, by have := d.isLt; omega⟩) :=
  congrArg x (funext fun a => Fin.ext (by
    match a with
    | ⟨0, _⟩ => show 0 + 1 * o.val = o.val; omega
    | ⟨1, _⟩ => show 1024 + 1 * d.val = 512 * 2 + d.val; omega))

theorem ld_rq_w3 (x : Vec Ideal S128x512 .f32) (k : Fin 32) (i : Fin 512) :
    View.ld x r0_22 (ix2 k i) = x (ix2 ⟨32 * 3 + k.val, by have := k.isLt; omega⟩ i) :=
  congrArg x (funext fun a => Fin.ext (by
    match a with
    | ⟨0, _⟩ => show 96 + 1 * k.val = 32 * 3 + k.val; omega
    | ⟨1, _⟩ => show 0 + 1 * i.val = i.val; omega))
theorem ld_rq_b3 (x : Vec Ideal S128 .f32) (k : Fin 32) :
    View.ld x r0_23 (ix1 k) = x (ix1 ⟨32 * 3 + k.val, by have := k.isLt; omega⟩) :=
  congrArg x (funext fun a => Fin.ext (by
    match a with
    | ⟨0, _⟩ => show 96 + 1 * k.val = 32 * 3 + k.val; omega))
theorem ld_rv_w3 (x : Vec Ideal S2048x512 .f32) (d i : Fin 512) :
    View.ld x r0_24 (ix2 d i) = x (ix2 ⟨512 * 3 + d.val, by have := d.isLt; omega⟩ i) :=
  congrArg x (funext fun a => Fin.ext (by
    match a with
    | ⟨0, _⟩ => show 1536 + 1 * d.val = 512 * 3 + d.val; omega
    | ⟨1, _⟩ => show 0 + 1 * i.val = i.val; omega))
theorem ld_rv_b3 (x : Vec Ideal S2048 .f32) (d : Fin 512) :
    View.ld x r0_25 (ix1 d) = x (ix1 ⟨512 * 3 + d.val, by have := d.isLt; omega⟩) :=
  congrArg x (funext fun a => Fin.ext (by
    match a with
    | ⟨0, _⟩ => show 1536 + 1 * d.val = 512 * 3 + d.val; omega))
theorem ld_ro_w3 (x : Vec Ideal S512x2048 .f32) (o d : Fin 512) :
    View.ld x r0_26 (ix2 o d) = x (ix2 o ⟨512 * 3 + d.val, by have := d.isLt; omega⟩) :=
  congrArg x (funext fun a => Fin.ext (by
    match a with
    | ⟨0, _⟩ => show 0 + 1 * o.val = o.val; omega
    | ⟨1, _⟩ => show 1536 + 1 * d.val = 512 * 3 + d.val; omega))

/-! ### The stored blocks at batch element `b` -/

section
variable (P : Cert.Spec.Params) (hs mem : Fin 8 → Fin 512 → EReal) (b : Fin 128)
variable (x0 : Vec Ideal S128x8x512 .f32) (x1 : Vec Ideal S128x8x512 .f32) (x2 : Vec Ideal S32x512 .f32) (x3 : Vec Ideal S32 .f32) (x4 : Vec Ideal S32x512 .f32) (x5 : Vec Ideal S32 .f32) (x6 : Vec Ideal S512x512 .f32) (x7 : Vec Ideal S512 .f32) (x8 : Vec Ideal S512x512 .f32) (x9 : Vec Ideal S512 .f32) (x10 : Vec Ideal S512x512 .f32) (x11 : Vec Ideal S512 .f32) (x12 : Vec Ideal S1024x512 .f32) (x13 : Vec Ideal S1024 .f32) (x14 : Vec Ideal S128x512 .f32) (x15 : Vec Ideal S128 .f32) (x16 : Vec Ideal S128x512 .f32) (x17 : Vec Ideal S128 .f32) (x18 : Vec Ideal S2048x512 .f32) (x19 : Vec Ideal S2048 .f32) (x20 : Vec Ideal S512x2048 .f32) (x21 : Vec Ideal S512 .f32)

/-- The updated memory of element `b`, as the body computes it from the loaded blocks: whatever the blocks hold, if row
    `b` of the two data blocks is `hs, mem` and the weight blocks are the parameters'. -/
theorem memNew_block (h0 : ∀ (n : Fin 8) (i : Fin 512), x0 (ix3 b n i) = hs n i) (h1 : ∀ (s : Fin 8) (i : Fin 512), x1 (ix3 b s i) = mem s i)
    (h2 : ∀ (p : Fin 32) (q : Fin 512), x2 (ix2 p q) = P.wq_w (ix2 p q)) (h3 : ∀ p : Fin 32, x3 (ix1 p) = P.wq_b (ix1 p)) (h4 : ∀ (p : Fin 32) (q : Fin 512), x4 (ix2 p q) = P.wk_w (ix2 p q)) (h5 : ∀ p : Fin 32, x5 (ix1 p) = P.wk_b (ix1 p)) (h6 : ∀ (p : Fin 512) (q : Fin 512), x6 (ix2 p q) = P.wv_w (ix2 p q)) (h7 : ∀ p : Fin 512, x7 (ix1 p) = P.wv_b (ix1 p)) (h8 : ∀ (p : Fin 512) (q : Fin 512), x8 (ix2 p q) = P.wo_w (ix2 p q)) (h9 : ∀ p : Fin 512, x9 (ix1 p) = P.wo_b (ix1 p)) (h10 : ∀ (p : Fin 512) (q : Fin 512), x10 (ix2 p q) = P.ut_w (ix2 p q)) (h11 : ∀ p : Fin 512, x11 (ix1 p) = P.ut_b (ix1 p)) (h12 : ∀ (p : Fin 1024) (q : Fin 512), x12 (ix2 p q) = P.ug_w (ix2 p q)) (h13 : ∀ p : Fin 1024, x13 (ix1 p) = P.ug_b (ix1 p)) (h14 : ∀ (p : Fin 128) (q : Fin 512), x14 (ix2 p q) = P.rq_w (ix2 p q)) (h15 : ∀ p : Fin 128, x15 (ix1 p) = P.rq_b (ix1 p)) (h16 : ∀ (p : Fin 128) (q : Fin 512), x16 (ix2 p q) = P.rk_w (ix2 p q)) (h17 : ∀ p : Fin 128, x17 (ix1 p) = P.rk_b (ix1 p)) (h18 : ∀ (p : Fin 2048) (q : Fin 512), x18 (ix2 p q) = P.rv_w (ix2 p q)) (h19 : ∀ p : Fin 2048, x19 (ix1 p) = P.rv_b (ix1 p)) (h20 : ∀ (p : Fin 512) (q : Fin 2048), x20 (ix2 p q) = P.ro_w (ix2 p q)) (h21 : ∀ p : Fin 512, x21 (ix1 p) = P.ro_b (ix1 p)) (s : Fin 8) (d : Fin 512) :
    (k0_pay7 (F := Ideal) x1 (k0_pay5 (F := Ideal) (k0_pay3 x0 x1 x6 x7) (k0_pay4 x0 x1 x2 x3 x4 x5) x8 x9) (k0_pay6 (F := Ideal) x0 x1 x10 x11) x12 x13) (ix3 b s d) = Cert.Spec.memNew P hs mem s d :=
  Cert.KerWrite.pay7_spec P hs mem b x1 _ _ x12 x13 h1
    (fun s d => Cert.KerWrite.pay5_spec P hs mem b _ _ x8 x9
      (fun t d => Cert.KerWrite.pay3_spec P hs mem b x0 x1 x6 x7 h0 h1 h6 h7 t d)
      (fun s t => Cert.KerWrite.pay4_spec P hs mem b x0 x1 x2 x3 x4 x5 h0 h1 h2 h3 h4 h5 s t)
      h8 h9 s d)
    (fun s d => Cert.KerWrite.pay6_spec P hs mem b x0 x1 x10 x11 h0 h1 h10 h11 s d)
    h12 h13 s d

/-- The output rows of element `b`: the residual, the four heads' contributions added in order onto zero, the bias. -/
theorem hOut_block (h0 : ∀ (n : Fin 8) (i : Fin 512), x0 (ix3 b n i) = hs n i) (h1 : ∀ (s : Fin 8) (i : Fin 512), x1 (ix3 b s i) = mem s i)
    (h2 : ∀ (p : Fin 32) (q : Fin 512), x2 (ix2 p q) = P.wq_w (ix2 p q)) (h3 : ∀ p : Fin 32, x3 (ix1 p) = P.wq_b (ix1 p)) (h4 : ∀ (p : Fin 32) (q : Fin 512), x4 (ix2 p q) = P.wk_w (ix2 p q)) (h5 : ∀ p : Fin 32, x5 (ix1 p) = P.wk_b (ix1 p)) (h6 : ∀ (p : Fin 512) (q : Fin 512), x6 (ix2 p q) = P.wv_w (ix2 p q)) (h7 : ∀ p : Fin 512, x7 (ix1 p) = P.wv_b (ix1 p)) (h8 : ∀ (p : Fin 512) (q : Fin 512), x8 (ix2 p q) = P.wo_w (ix2 p q)) (h9 : ∀ p : Fin 512, x9 (ix1 p) = P.wo_b (ix1 p)) (h10 : ∀ (p : Fin 512) (q : Fin 512), x10 (ix2 p q) = P.ut_w (ix2 p q)) (h11 : ∀ p : Fin 512, x11 (ix1 p) = P.ut_b (ix1 p)) (h12 : ∀ (p : Fin 1024) (q : Fin 512), x12 (ix2 p q) = P.ug_w (ix2 p q)) (h13 : ∀ p : Fin 1024, x13 (ix1 p) = P.ug_b (ix1 p)) (h14 : ∀ (p : Fin 128) (q : Fin 512), x14 (ix2 p q) = P.rq_w (ix2 p q)) (h15 : ∀ p : Fin 128, x15 (ix1 p) = P.rq_b (ix1 p)) (h16 : ∀ (p : Fin 128) (q : Fin 512), x16 (ix2 p q) = P.rk_w (ix2 p q)) (h17 : ∀ p : Fin 128, x17 (ix1 p) = P.rk_b (ix1 p)) (h18 : ∀ (p : Fin 2048) (q : Fin 512), x18 (ix2 p q) = P.rv_w (ix2 p q)) (h19 : ∀ p : Fin 2048, x19 (ix1 p) = P.rv_b (ix1 p)) (h20 : ∀ (p : Fin 512) (q : Fin 2048), x20 (ix2 p q) = P.ro_w (ix2 p q)) (h21 : ∀ p : Fin 512, x21 (ix1 p) = P.ro_b (ix1 p)) (n : Fin 8) (o : Fin 512) :
    k0_pay1 (F := Ideal) x0
      (k0_pay26
        (k0_pay20 (k0_pay7 (F := Ideal) x1 (k0_pay5 (F := Ideal) (k0_pay3 x0 x1 x6 x7) (k0_pay4 x0 x1 x2 x3 x4 x5) x8 x9) (k0_pay6 (F := Ideal) x0 x1 x10 x11) x12 x13)
          (k0_pay14 (k0_pay8 (F := Ideal)) (k0_pay9 (View.ld x18 r0_9)) (View.ld x19 r0_10) (k0_pay10 (View.ld x20 r0_11)) (k0_pay11 x0 (View.ld x14 r0_7) (View.ld x15 r0_8)) (k0_pay12 x1 (k0_pay5 (F := Ideal) (k0_pay3 x0 x1 x6 x7) (k0_pay4 x0 x1 x2 x3 x4 x5) x8 x9) (k0_pay6 (F := Ideal) x0 x1 x10 x11) x12 x13 (View.ld x16 r0_7) (View.ld x17 r0_8)) (k0_pay13 x1 (k0_pay5 (F := Ideal) (k0_pay3 x0 x1 x6 x7) (k0_pay4 x0 x1 x2 x3 x4 x5) x8 x9) (k0_pay6 (F := Ideal) x0 x1 x10 x11) x12 x13))
          (k0_pay15 (View.ld x14 r0_12)) (View.ld x15 r0_13) (k0_pay16 (View.ld x16 r0_12)) (View.ld x17 r0_13) (k0_pay17 (View.ld x18 r0_14)) (View.ld x19 r0_15) (k0_pay18 (View.ld x20 r0_16)) (k0_pay19 x0))
        (k0_pay22 (View.ld x20 r0_21))
        (k0_pay23 (k0_pay7 (F := Ideal) x1 (k0_pay5 (F := Ideal) (k0_pay3 x0 x1 x6 x7) (k0_pay4 x0 x1 x2 x3 x4 x5) x8 x9) (k0_pay6 (F := Ideal) x0 x1 x10 x11) x12 x13) (View.ld x18 r0_19) (View.ld x19 r0_20))
        (k0_pay24 x0 (k0_pay7 (F := Ideal) x1 (k0_pay5 (F := Ideal) (k0_pay3 x0 x1 x6 x7) (k0_pay4 x0 x1 x2 x3 x4 x5) x8 x9) (k0_pay6 (F := Ideal) x0 x1 x10 x11) x12 x13) (k0_pay21 (View.ld x14 r0_17)) (View.ld x15 r0_18) (View.ld x16 r0_17) (View.ld x17 r0_18))
        (k0_pay25 x0 (k0_pay7 (F := Ideal) x1 (k0_pay5 (F := Ideal) (k0_pay3 x0 x1 x6 x7) (k0_pay4 x0 x1 x2 x3 x4 x5) x8 x9) (k0_pay6 (F := Ideal) x0 x1 x10 x11) x12 x13) (k0_pay21 (View.ld x14 r0_17)) (View.ld x15 r0_18) (View.ld x16 r0_17) (View.ld x17 r0_18)))
      (k0_pay27 (View.ld x20 r0_26))
      (k0_pay28 (k0_pay7 (F := Ideal) x1 (k0_pay5 (F := Ideal) (k0_pay3 x0 x1 x6 x7) (k0_pay4 x0 x1 x2 x3 x4 x5) x8 x9) (k0_pay6 (F := Ideal) x0 x1 x10 x11) x12 x13) (View.ld x18 r0_24) (View.ld x19 r0_25))
      (k0_pay29 x0 (View.ld x14 r0_22) (View.ld x15 r0_23))
      (k0_pay30 (k0_pay7 (F := Ideal) x1 (k0_pay5 (F := Ideal) (k0_pay3 x0 x1 x6 x7) (k0_pay4 x0 x1 x2 x3 x4 x5) x8 x9) (k0_pay6 (F := Ideal) x0 x1 x10 x11) x12 x13) (View.ld x16 r0_22) (View.ld x17 r0_23))
      (constant S128x8x8 .f32 0x00000000#32)
      x21 (ix3 b n o)
      = Cert.Spec.hOut P hs mem n o := by
  have hM := memNew_block P hs mem b x0 x1 x2 x3 x4 x5 x6 x7 x8 x9 x10 x11 x12 x13 x14 x15 x16 x17 x18 x19 x20 x21 h0 h1 h2 h3 h4 h5 h6 h7 h8 h9 h10 h11 h12 h13 h14 h15 h16 h17 h18 h19 h20 h21
  unfold Cert.Spec.hOut
  refine Cert.KerHeadB.pay1_spec P hs mem b 3 (by omega) x0 _ _ _ _ _ x21
    (fun n o => ((Cert.Spec.ZERO + Cert.Spec.contrib P hs mem 0 (by omega) n o) + Cert.Spec.contrib P hs mem 1 (by omega) n o) + Cert.Spec.contrib P hs mem 2 (by omega) n o)
    h0 ?h266 (fun o d => (ld_ro_w3 x20 o d).trans (h20 _ _)) ?h298 ?h299 ?h300 h21 n o
  case h298 => exact fun s d => Cert.KerHeadB.pay28_spec P hs mem b 3 (by omega) _ _ _ hM (fun d i => (ld_rv_w3 x18 d i).trans (h18 _ _)) (fun d => (ld_rv_b3 x19 d).trans (h19 _)) s d
  case h299 => exact fun n k => Cert.KerHeadB.pay29_spec P hs b 3 (by omega) x0 _ _ h0 (fun k i => (ld_rq_w3 x14 k i).trans (h14 _ _)) (fun k => (ld_rq_b3 x15 k).trans (h15 _)) n k
  case h300 => exact fun s k => Cert.KerHeadB.pay30_spec P hs mem b 3 (by omega) _ _ _ hM (fun k i => (ld_rq_w3 x16 k i).trans (h16 _ _)) (fun k => (ld_rq_b3 x17 k).trans (h17 _)) s k
  case h266 =>
    intro n o
    refine Cert.KerHeadB.pay26_spec P hs mem b 2 (by omega) _ _ _ _ _
      (fun n o => (Cert.Spec.ZERO + Cert.Spec.contrib P hs mem 0 (by omega) n o) + Cert.Spec.contrib P hs mem 1 (by omega) n o)
      ?h210 (fun o d => (ld_ro_w2 x20 o d).trans (h20 _ _)) ?h242 ?h254 ?h257 n o
    case h242 => exact fun s d => Cert.KerHeadB.pay23_spec P hs mem b 2 (by omega) _ _ _ hM (fun d i => (ld_rv_w2 x18 d i).trans (h18 _ _)) (fun d => (ld_rv_b2 x19 d).trans (h19 _)) s d
    case h254 => exact fun n s => Cert.KerHeadB.pay24_spec P hs mem b 2 (by omega) x0 _ _ _ _ _ h0 hM (fun k i => (ld_rq_w2 x14 k i).trans (h14 _ _)) (fun k => (ld_rq_b2 x15 k).trans (h15 _)) (fun k i => (ld_rq_w2 x16 k i).trans (h16 _ _)) (fun k => (ld_rq_b2 x17 k).trans (h17 _)) n s
    case h257 => exact fun n s => Cert.KerHeadB.pay25_spec P hs mem b 2 (by omega) x0 _ _ _ _ _ h0 hM (fun k i => (ld_rq_w2 x14 k i).trans (h14 _ _)) (fun k => (ld_rq_b2 x15 k).trans (h15 _)) (fun k i => (ld_rq_w2 x16 k i).trans (h16 _ _)) (fun k => (ld_rq_b2 x17 k).trans (h17 _)) n s
    case h210 =>
      intro n o
      refine Cert.KerHeadA.pay20_spec P hs mem b 1 (by omega) _ _ _ _ _ _ _ _ _ _
        (fun n o => Cert.Spec.ZERO + Cert.Spec.contrib P hs mem 0 (by omega) n o)
        hM ?h154 (fun k i => (ld_rq_w1 x14 k i).trans (h14 _ _)) (fun k => (ld_rq_b1 x15 k).trans (h15 _)) (fun k i => (ld_rq_w1 x16 k i).trans (h16 _ _)) (fun k => (ld_rq_b1 x17 k).trans (h17 _))
        (fun d i => (ld_rv_w1 x18 d i).trans (h18 _ _)) (fun d => (ld_rv_b1 x19 d).trans (h19 _)) (fun o d => (ld_ro_w1 x20 o d).trans (h20 _ _))
        (fun n i => Cert.KerHeadA.pay19_spec hs b x0 h0 n i) n o
      case h154 =>
        intro n o
        exact Cert.KerHeadA.pay14_spec P hs mem b 0 (by omega) _ _ _ _ _ _ _ (fun _ _ => Cert.Spec.ZERO)
          (fun n o => Cert.KerHeadA.pay8_spec b n o)
          (fun d i => (ld_rv_w0 x18 d i).trans (h18 _ _)) (fun d => (ld_rv_b0 x19 d).trans (h19 _)) (fun o d => (ld_ro_w0 x20 o d).trans (h20 _ _))
          (fun n k => Cert.KerHeadA.pay11_spec P hs b 0 (by omega) x0 _ _ h0 (fun k i => (ld_rq_w0 x14 k i).trans (h14 _ _)) (fun k => (ld_rq_b0 x15 k).trans (h15 _)) n k)
          (fun s k => Cert.KerHeadA.pay12_spec P hs mem b 0 (by omega) x1 _ _ x12 x13 _ _ hM (fun k i => (ld_rq_w0 x16 k i).trans (h16 _ _)) (fun k => (ld_rq_b0 x17 k).trans (h17 _)) s k)
          (fun s i => Cert.KerHeadA.pay13_spec P hs mem b x1 _ _ x12 x13 hM s i) n o

/-- Row `b` of the block the body stores through the updated-memory window. -/
theorem out23_apply (h0 : ∀ (n : Fin 8) (i : Fin 512), x0 (ix3 b n i) = hs n i) (h1 : ∀ (s : Fin 8) (i : Fin 512), x1 (ix3 b s i) = mem s i)
    (h2 : ∀ (p : Fin 32) (q : Fin 512), x2 (ix2 p q) = P.wq_w (ix2 p q)) (h3 : ∀ p : Fin 32, x3 (ix1 p) = P.wq_b (ix1 p)) (h4 : ∀ (p : Fin 32) (q : Fin 512), x4 (ix2 p q) = P.wk_w (ix2 p q)) (h5 : ∀ p : Fin 32, x5 (ix1 p) = P.wk_b (ix1 p)) (h6 : ∀ (p : Fin 512) (q : Fin 512), x6 (ix2 p q) = P.wv_w (ix2 p q)) (h7 : ∀ p : Fin 512, x7 (ix1 p) = P.wv_b (ix1 p)) (h8 : ∀ (p : Fin 512) (q : Fin 512), x8 (ix2 p q) = P.wo_w (ix2 p q)) (h9 : ∀ p : Fin 512, x9 (ix1 p) = P.wo_b (ix1 p)) (h10 : ∀ (p : Fin 512) (q : Fin 512), x10 (ix2 p q) = P.ut_w (ix2 p q)) (h11 : ∀ p : Fin 512, x11 (ix1 p) = P.ut_b (ix1 p)) (h12 : ∀ (p : Fin 1024) (q : Fin 512), x12 (ix2 p q) = P.ug_w (ix2 p q)) (h13 : ∀ p : Fin 1024, x13 (ix1 p) = P.ug_b (ix1 p)) (h14 : ∀ (p : Fin 128) (q : Fin 512), x14 (ix2 p q) = P.rq_w (ix2 p q)) (h15 : ∀ p : Fin 128, x15 (ix1 p) = P.rq_b (ix1 p)) (h16 : ∀ (p : Fin 128) (q : Fin 512), x16 (ix2 p q) = P.rk_w (ix2 p q)) (h17 : ∀ p : Fin 128, x17 (ix1 p) = P.rk_b (ix1 p)) (h18 : ∀ (p : Fin 2048) (q : Fin 512), x18 (ix2 p q) = P.rv_w (ix2 p q)) (h19 : ∀ p : Fin 2048, x19 (ix1 p) = P.rv_b (ix1 p)) (h20 : ∀ (p : Fin 512) (q : Fin 2048), x20 (ix2 p q) = P.ro_w (ix2 p q)) (h21 : ∀ p : Fin 512, x21 (ix1 p) = P.ro_b (ix1 p)) (s : Fin 8) (d : Fin 512) :
    out0_23 (F := Ideal) x0 x1 x2 x3 x4 x5 x6 x7 x8 x9 x10 x11 x12 x13 x14 x15 x16 x17 x18 x19 x20 x21 (ix3 b s d) = Cert.Spec.memNew P hs mem s d := by
  unfold out0_23
  rw [View.canon_unit_zero hz3]
  simp only [View.ld_unit_zero (S := S128x8x512) hz3, View.ld_unit_zero (S := S32x512) hz2, View.ld_unit_zero (S := S32) hz1, View.ld_unit_zero (S := S512x512) hz2, View.ld_unit_zero (S := S512) hz1, View.ld_unit_zero (S := S1024x512) hz2, View.ld_unit_zero (S := S1024) hz1]
  exact memNew_block P hs mem b x0 x1 x2 x3 x4 x5 x6 x7 x8 x9 x10 x11 x12 x13 x14 x15 x16 x17 x18 x19 x20 x21 h0 h1 h2 h3 h4 h5 h6 h7 h8 h9 h10 h11 h12 h13 h14 h15 h16 h17 h18 h19 h20 h21 s d

/-- Row `b` of the block the body stores through the output window. -/
theorem out22_apply (h0 : ∀ (n : Fin 8) (i : Fin 512), x0 (ix3 b n i) = hs n i) (h1 : ∀ (s : Fin 8) (i : Fin 512), x1 (ix3 b s i) = mem s i)
    (h2 : ∀ (p : Fin 32) (q : Fin 512), x2 (ix2 p q) = P.wq_w (ix2 p q)) (h3 : ∀ p : Fin 32, x3 (ix1 p) = P.wq_b (ix1 p)) (h4 : ∀ (p : Fin 32) (q : Fin 512), x4 (ix2 p q) = P.wk_w (ix2 p q)) (h5 : ∀ p : Fin 32, x5 (ix1 p) = P.wk_b (ix1 p)) (h6 : ∀ (p : Fin 512) (q : Fin 512), x6 (ix2 p q) = P.wv_w (ix2 p q)) (h7 : ∀ p : Fin 512, x7 (ix1 p) = P.wv_b (ix1 p)) (h8 : ∀ (p : Fin 512) (q : Fin 512), x8 (ix2 p q) = P.wo_w (ix2 p q)) (h9 : ∀ p : Fin 512, x9 (ix1 p) = P.wo_b (ix1 p)) (h10 : ∀ (p : Fin 512) (q : Fin 512), x10 (ix2 p q) = P.ut_w (ix2 p q)) (h11 : ∀ p : Fin 512, x11 (ix1 p) = P.ut_b (ix1 p)) (h12 : ∀ (p : Fin 1024) (q : Fin 512), x12 (ix2 p q) = P.ug_w (ix2 p q)) (h13 : ∀ p : Fin 1024, x13 (ix1 p) = P.ug_b (ix1 p)) (h14 : ∀ (p : Fin 128) (q : Fin 512), x14 (ix2 p q) = P.rq_w (ix2 p q)) (h15 : ∀ p : Fin 128, x15 (ix1 p) = P.rq_b (ix1 p)) (h16 : ∀ (p : Fin 128) (q : Fin 512), x16 (ix2 p q) = P.rk_w (ix2 p q)) (h17 : ∀ p : Fin 128, x17 (ix1 p) = P.rk_b (ix1 p)) (h18 : ∀ (p : Fin 2048) (q : Fin 512), x18 (ix2 p q) = P.rv_w (ix2 p q)) (h19 : ∀ p : Fin 2048, x19 (ix1 p) = P.rv_b (ix1 p)) (h20 : ∀ (p : Fin 512) (q : Fin 2048), x20 (ix2 p q) = P.ro_w (ix2 p q)) (h21 : ∀ p : Fin 512, x21 (ix1 p) = P.ro_b (ix1 p)) (n : Fin 8) (o : Fin 512) :
    out0_22 (F := Ideal) x0 x1 x2 x3 x4 x5 x6 x7 x8 x9 x10 x11 x12 x13 x14 x15 x16 x17 x18 x19 x20 x21 (ix3 b n o) = Cert.Spec.hOut P hs mem n o := by
  unfold out0_22
  rw [View.canon_unit_zero hz3]
  simp only [View.ld_unit_zero (S := S128x8x512) hz3, View.ld_unit_zero (S := S32x512) hz2, View.ld_unit_zero (S := S32) hz1, View.ld_unit_zero (S := S512x512) hz2, View.ld_unit_zero (S := S512) hz1, View.ld_unit_zero (S := S1024x512) hz2, View.ld_unit_zero (S := S1024) hz1]
  exact hOut_block P hs mem b x0 x1 x2 x3 x4 x5 x6 x7 x8 x9 x10 x11 x12 x13 x14 x15 x16 x17 x18 x19 x20 x21 h0 h1 h2 h3 h4 h5 h6 h7 h8 h9 h10 h11 h12 h13 h14 h15 h16 h17 h18 h19 h20 h21 n o

end

end Cert.KerGlue

end
-- ==== Proof.KerArrays.lean ====
/-
  From blocks to arrays. Point `t` of the grid handles batch elements `128 t … 128 t + 127`: its blocks of the two data
  windows and of the two output windows are those rows of their arrays, and every weight window's block is its whole
  array. So what point `t` writes back is block `t` of ONE function of the argument arrays — row `B` of each output is
  the specification of row `B` of the data and the weights —, the sixteen blocks cover the arrays, and the run ends
  with both output arrays at that function.
-/
import proofs.«106064_j9835475108028_1_alg».proof.Proof.Gen.KernelIdeal.Value
import proofs.«106064_j9835475108028_1_alg».proof.Proof.KerGlue

set_option maxRecDepth 16384

noncomputable section

namespace Cert.KerArrays

open Cert.KernelIdeal Cert.KernelIdeal.Gen Cert.KernelIdeal.Value Cert.KerGlue Idealize.ShloMosaic Idealize.ShloMosaic.TcCoe Idealize.SL.Sem Idealize.ShloMosaic.ValueIdx
open Idealize.ShloMosaic.Pipeline (Dat)

/-- The weights as the specification's parameters. -/
def params (a2 : Vec Ideal S32x512 .f32) (a3 : Vec Ideal S32 .f32) (a4 : Vec Ideal S32x512 .f32) (a5 : Vec Ideal S32 .f32) (a6 : Vec Ideal S512x512 .f32) (a7 : Vec Ideal S512 .f32) (a8 : Vec Ideal S512x512 .f32) (a9 : Vec Ideal S512 .f32) (a10 : Vec Ideal S512x512 .f32) (a11 : Vec Ideal S512 .f32) (a12 : Vec Ideal S1024x512 .f32) (a13 : Vec Ideal S1024 .f32) (a14 : Vec Ideal S128x512 .f32) (a15 : Vec Ideal S128 .f32) (a16 : Vec Ideal S128x512 .f32) (a17 : Vec Ideal S128 .f32) (a18 : Vec Ideal S2048x512 .f32) (a19 : Vec Ideal S2048 .f32) (a20 : Vec Ideal S512x2048 .f32) (a21 : Vec Ideal S512 .f32) : Cert.Spec.Params :=
  ⟨a2, a3, a4, a5, a6, a7, a8, a9, a10, a11, a12, a13, a14, a15, a16, a17, a18, a19, a20, a21⟩

/-- The updated memory as one function of the argument arrays: row `B` from row `B` of the data. -/
def memNewArr (a0 a1 : Vec Ideal S2048x8x512 .f32) (P : Cert.Spec.Params) : Vec Ideal S2048x8x512 .f32 :=
  fun j => Cert.Spec.memNew P (fun n i => a0 (ix3 (j 0 : Fin 2048) n i)) (fun n i => a1 (ix3 (j 0 : Fin 2048) n i)) (j 1) (j 2)

/-- The output as one function of the argument arrays. -/
def hOutArr (a0 a1 : Vec Ideal S2048x8x512 .f32) (P : Cert.Spec.Params) : Vec Ideal S2048x8x512 .f32 :=
  fun j => Cert.Spec.hOut P (fun n i => a0 (ix3 (j 0 : Fin 2048) n i)) (fun n i => a1 (ix3 (j 0 : Fin 2048) n i)) (j 1) (j 2)

variable (m : (ℓ : Loc nD τ sig) → Buf (Elt Ideal) ℓ) (ρ : Dev nD → PrngReg)

/-! ### The arrays as the region finds them, and the windows' blocks, at their literal types -/
abbrev arr0 (c : Dev nD) : Vec Ideal S2048x8x512 .f32 := V m c main_arg0
abbrev arr1 (c : Dev nD) : Vec Ideal S2048x8x512 .f32 := V m c main_arg1
abbrev arr2 (c : Dev nD) : Vec Ideal S32x512 .f32 := V m c main_arg2
abbrev arr3 (c : Dev nD) : Vec Ideal S32 .f32 := V m c main_arg3
abbrev arr4 (c : Dev nD) : Vec Ideal S32x512 .f32 := V m c main_arg4
abbrev arr5 (c : Dev nD) : Vec Ideal S32 .f32 := V m c main_arg5
abbrev arr6 (c : Dev nD) : Vec Ideal S512x512 .f32 := V m c main_arg6
abbrev arr7 (c : Dev nD) : Vec Ideal S512 .f32 := V m c main_arg7
abbrev arr8 (c : Dev nD) : Vec Ideal S512x512 .f32 := V m c main_arg8
abbrev arr9 (c : Dev nD) : Vec Ideal S512 .f32 := V m c main_arg9
abbrev arr10 (c : Dev nD) : Vec Ideal S512x512 .f32 := V m c main_arg10
abbrev arr11 (c : Dev nD) : Vec Ideal S512 .f32 := V m c main_arg11
abbrev arr12 (c : Dev nD) : Vec Ideal S1024x512 .f32 := V m c main_arg12
abbrev arr13 (c : Dev nD) : Vec Ideal S1024 .f32 := V m c main_arg13
abbrev arr14 (c : Dev nD) : Vec Ideal S128x512 .f32 := V m c main_arg14
abbrev arr15 (c : Dev nD) : Vec Ideal S128 .f32 := V m c main_arg15
abbrev arr16 (c : Dev nD) : Vec Ideal S128x512 .f32 := V m c main_arg16
abbrev arr17 (c : Dev nD) : Vec Ideal S128 .f32 := V m c main_arg17
abbrev arr18 (c : Dev nD) : Vec Ideal S2048x512 .f32 := V m c main_arg18
abbrev arr19 (c : Dev nD) : Vec Ideal S2048 .f32 := V m c main_arg19
abbrev arr20 (c : Dev nD) : Vec Ideal S512x2048 .f32 := V m c main_arg20
abbrev arr21 (c : Dev nD) : Vec Ideal S512 .f32 := V m c main_arg21
abbrev blk0 (c : Dev nD) (t : Fin cfg0.N) : Vec Ideal S128x8x512 .f32 := iblk m c 0 t
abbrev blk1 (c : Dev nD) (t : Fin cfg0.N) : Vec Ideal S128x8x512 .f32 := iblk m c 1 t
abbrev blk2 (c : Dev nD) (t : Fin cfg0.N) : Vec Ideal S32x512 .f32 := iblk m c 2 t
abbrev blk3 (c : Dev nD) (t : Fin cfg0.N) : Vec Ideal S32 .f32 := iblk m c 3 t
abbrev blk4 (c : Dev nD) (t : Fin cfg0.N) : Vec Ideal S32x512 .f32 := iblk m c 4 t
abbrev blk5 (c : Dev nD) (t : Fin cfg0.N) : Vec Ideal S32 .f32 := iblk m c 5 t
abbrev blk6 (c : Dev nD) (t : Fin cfg0.N) : Vec Ideal S512x512 .f32 := iblk m c 6 t
abbrev blk7 (c : Dev nD) (t : Fin cfg0.N) : Vec Ideal S512 .f32 := iblk m c 7 t
abbrev blk8 (c : Dev nD) (t : Fin cfg0.N) : Vec Ideal S512x512 .f32 := iblk m c 8 t
abbrev blk9 (c : Dev nD) (t : Fin cfg0.N) : Vec Ideal S512 .f32 := iblk m c 9 t
abbrev blk10 (c : Dev nD) (t : Fin cfg0.N) : Vec Ideal S512x512 .f32 := iblk m c 10 t
abbrev blk11 (c : Dev nD) (t : Fin cfg0.N) : Vec Ideal S512 .f32 := iblk m c 11 t
abbrev blk12 (c : Dev nD) (t : Fin cfg0.N) : Vec Ideal S1024x512 .f32 := iblk m c 12 t
abbrev blk13 (c : Dev nD) (t : Fin cfg0.N) : Vec Ideal S1024 .f32 := iblk m c 13 t
abbrev blk14 (c : Dev nD) (t : Fin cfg0.N) : Vec Ideal S128x512 .f32 := iblk m c 14 t
abbrev blk15 (c : Dev nD) (t : Fin cfg0.N) : Vec Ideal S128 .f32 := iblk m c 15 t
abbrev blk16 (c : Dev nD) (t : Fin cfg0.N) : Vec Ideal S128x512 .f32 := iblk m c 16 t
abbrev blk17 (c : Dev nD) (t : Fin cfg0.N) : Vec Ideal S128 .f32 := iblk m c 17 t
abbrev blk18 (c : Dev nD) (t : Fin cfg0.N) : Vec Ideal S2048x512 .f32 := iblk m c 18 t
abbrev blk19 (c : Dev nD) (t : Fin cfg0.N) : Vec Ideal S2048 .f32 := iblk m c 19 t
abbrev blk20 (c : Dev nD) (t : Fin cfg0.N) : Vec Ideal S512x2048 .f32 := iblk m c 20 t
abbrev blk21 (c : Dev nD) (t : Fin cfg0.N) : Vec Ideal S512 .f32 := iblk m c 21 t

/-- The parameters the region finds. -/
abbrev PV (c : Dev nD) : Cert.Spec.Params := params (arr2 m c) (arr3 m c) (arr4 m c) (arr5 m c) (arr6 m c) (arr7 m c) (arr8 m c) (arr9 m c) (arr10 m c) (arr11 m c) (arr12 m c) (arr13 m c) (arr14 m c) (arr15 m c) (arr16 m c) (arr17 m c) (arr18 m c) (arr19 m c) (arr20 m c) (arr21 m c)

theorem t_lt (t : Fin cfg0.N) : t.val < 16 := lt_of_lt_of_eq t.isLt N_0

/-! ### The printed index maps, decided over the sixteen points -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx22 : ∀ t : Fin cfg0.N, win0_22.index t (0 : Fin 3) = t.val ∧ win0_22.index t (1 : Fin 3) = 0 ∧ win0_22.index t (2 : Fin 3) = 0 :=
  (by decide +kernel : ∀ t : Fin grid0.N, _)
theorem idx23 : ∀ t : Fin cfg0.N, win0_23.index t (0 : Fin 3) = t.val ∧ win0_23.index t (1 : Fin 3) = 0 ∧ win0_23.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 1) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 1) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 1) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)
theorem idx21 : ∀ t : Fin cfg0.N, win0_21.index t (0 : Fin 1) = 0 :=
  (by decide +kernel : ∀ t : Fin grid0.N, _)

/-! ### The blocks read off the arrays -/
theorem blk0_apply (c : Dev nD) (t : Fin cfg0.N) (b : Fin 128) (n : Fin 8) (i : Fin 512) :
    blk0 m c t (ix3 b n i) = arr0 m c (ix3 ⟨128 * t.val + b.val, by have := t_lt t; have := b.isLt; omega⟩ n i) := by
  show V m c main_arg0 (((cfg0.win 0).blk t).view.emb (ix3 b n i)) = V m c main_arg0 _
  refine congrArg _ (funext fun a => Fin.ext ?_)
  obtain ⟨e0, e1, e2⟩ := idx0 t
  match a with
  | ⟨0, _⟩ => show win0_0.index t (0 : Fin 3) * 128 + 1 * b.val = 128 * t.val + b.val; omega
  | ⟨1, _⟩ => show win0_0.index t (1 : Fin 3) * 8 + 1 * n.val = n.val; omega
  | ⟨2, _⟩ => show win0_0.index t (2 : Fin 3) * 512 + 1 * i.val = i.val; omega
theorem blk1_apply (c : Dev nD) (t : Fin cfg0.N) (b : Fin 128) (n : Fin 8) (i : Fin 512) :
    blk1 m c t (ix3 b n i) = arr1 m c (ix3 ⟨128 * t.val + b.val, by have := t_lt t; have := b.isLt; omega⟩ n i) := by
  show V m c main_arg1 (((cfg0.win 1).blk t).view.emb (ix3 b n i)) = V m c main_arg1 _
  refine congrArg _ (funext fun a => Fin.ext ?_)
  obtain ⟨e0, e1, e2⟩ := idx1 t
  match a with
  | ⟨0, _⟩ => show win0_1.index t (0 : Fin 3) * 128 + 1 * b.val = 128 * t.val + b.val; omega
  | ⟨1, _⟩ => show win0_1.index t (1 : Fin 3) * 8 + 1 * n.val = n.val; omega
  | ⟨2, _⟩ => show win0_1.index t (2 : Fin 3) * 512 + 1 * i.val = i.val; omega
theorem blk2_eq (c : Dev nD) (t : Fin cfg0.N) : blk2 m c t = arr2 m c := by
  funext y
  show V m c main_arg2 (((cfg0.win 2).blk t).view.emb y) = V m c main_arg2 y
  refine congrArg _ (funext fun a => Fin.ext ?_)
  obtain ⟨e0, e1⟩ := idx2 t
  match a with
  | ⟨0, _⟩ => show win0_2.index t (0 : Fin 2) * 32 + 1 * (y 0).val = (y 0).val; omega
  | ⟨1, _⟩ => show win0_2.index t (1 : Fin 2) * 512 + 1 * (y 1).val = (y 1).val; omega
theorem blk3_eq (c : Dev nD) (t : Fin cfg0.N) : blk3 m c t = arr3 m c := by
  funext y
  show V m c main_arg3 (((cfg0.win 3).blk t).view.emb y) = V m c main_arg3 y
  refine congrArg _ (funext fun a => Fin.ext ?_)
  have e0 := idx3 t
  match a with
  | ⟨0, _⟩ => show win0_3.index t (0 : Fin 1) * 32 + 1 * (y 0).val = (y 0).val; omega
theorem blk4_eq (c : Dev nD) (t : Fin cfg0.N) : blk4 m c t = arr4 m c := by
  funext y
  show V m c main_arg4 (((cfg0.win 4).blk t).view.emb y) = V m c main_arg4 y
  refine congrArg _ (funext fun a => Fin.ext ?_)
  obtain ⟨e0, e1⟩ := idx4 t
  match a with
  | ⟨0, _⟩ => show win0_4.index t (0 : Fin 2) * 32 + 1 * (y 0).val = (y 0).val; omega
  | ⟨1, _⟩ => show win0_4.index t (1 : Fin 2) * 512 + 1 * (y 1).val = (y 1).val; omega
theorem blk5_eq (c : Dev nD) (t : Fin cfg0.N) : blk5 m c t = arr5 m c := by
  funext y
  show V m c main_arg5 (((cfg0.win 5).blk t).view.emb y) = V m c main_arg5 y
  refine congrArg _ (funext fun a => Fin.ext ?_)
  have e0 := idx5 t
  match a with
  | ⟨0, _⟩ => show win0_5.index t (0 : Fin 1) * 32 + 1 * (y 0).val = (y 0).val; omega
theorem blk6_eq (c : Dev nD) (t : Fin cfg0.N) : blk6 m c t = arr6 m c := by
  funext y
  show V m c main_arg6 (((cfg0.win 6).blk t).view.emb y) = V m c main_arg6 y
  refine congrArg _ (funext fun a => Fin.ext ?_)
  obtain ⟨e0, e1⟩ := idx6 t
  match a with
  | ⟨0, _⟩ => show win0_6.index t (0 : Fin 2) * 512 + 1 * (y 0).val = (y 0).val; omega
  | ⟨1, _⟩ => show win0_6.index t (1 : Fin 2) * 512 + 1 * (y 1).val = (y 1).val; omega
theorem blk7_eq (c : Dev nD) (t : Fin cfg0.N) : blk7 m c t = arr7 m c := by
  funext y
  show V m c main_arg7 (((cfg0.win 7).blk t).view.emb y) = V m c main_arg7 y
  refine congrArg _ (funext fun a => Fin.ext ?_)
  have e0 := idx7 t
  match a with
  | ⟨0, _⟩ => show win0_7.index t (0 : Fin 1) * 512 + 1 * (y 0).val = (y 0).val; omega
theorem blk8_eq (c : Dev nD) (t : Fin cfg0.N) : blk8 m c t = arr8 m c := by
  funext y
  show V m c main_arg8 (((cfg0.win 8).blk t).view.emb y) = V m c main_arg8 y
  refine congrArg _ (funext fun a => Fin.ext ?_)
  obtain ⟨e0, e1⟩ := idx8 t
  match a with
  | ⟨0, _⟩ => show win0_8.index t (0 : Fin 2) * 512 + 1 * (y 0).val = (y 0).val; omega
  | ⟨1, _⟩ => show win0_8.index t (1 : Fin 2) * 512 + 1 * (y 1).val = (y 1).val; omega
theorem blk9_eq (c : Dev nD) (t : Fin cfg0.N) : blk9 m c t = arr9 m c := by
  funext y
  show V m c main_arg9 (((cfg0.win 9).blk t).view.emb y) = V m c main_arg9 y
  refine congrArg _ (funext fun a => Fin.ext ?_)
  have e0 := idx9 t
  match a with
  | ⟨0, _⟩ => show win0_9.index t (0 : Fin 1) * 512 + 1 * (y 0).val = (y 0).val; omega
theorem blk10_eq (c : Dev nD) (t : Fin cfg0.N) : blk10 m c t = arr10 m c := by
  funext y
  show V m c main_arg10 (((cfg0.win 10).blk t).view.emb y) = V m c main_arg10 y
  refine congrArg _ (funext fun a => Fin.ext ?_)
  obtain ⟨e0, e1⟩ := idx10 t
  match a with
  | ⟨0, _⟩ => show win0_10.index t (0 : Fin 2) * 512 + 1 * (y 0).val = (y 0).val; omega
  | ⟨1, _⟩ => show win0_10.index t (1 : Fin 2) * 512 + 1 * (y 1).val = (y 1).val; omega
theorem blk11_eq (c : Dev nD) (t : Fin cfg0.N) : blk11 m c t = arr11 m c := by
  funext y
  show V m c main_arg11 (((cfg0.win 11).blk t).view.emb y) = V m c main_arg11 y
  refine congrArg _ (funext fun a => Fin.ext ?_)
  have e0 := idx11 t
  match a with
  | ⟨0, _⟩ => show win0_11.index t (0 : Fin 1) * 512 + 1 * (y 0).val = (y 0).val; omega
theorem blk12_eq (c : Dev nD) (t : Fin cfg0.N) : blk12 m c t = arr12 m c := by
  funext y
  show V m c main_arg12 (((cfg0.win 12).blk t).view.emb y) = V m c main_arg12 y
  refine congrArg _ (funext fun a => Fin.ext ?_)
  obtain ⟨e0, e1⟩ := idx12 t
  match a with
  | ⟨0, _⟩ => show win0_12.index t (0 : Fin 2) * 1024 + 1 * (y 0).val = (y 0).val; omega
  | ⟨1, _⟩ => show win0_12.index t (1 : Fin 2) * 512 + 1 * (y 1).val = (y 1).val; omega
theorem blk13_eq (c : Dev nD) (t : Fin cfg0.N) : blk13 m c t = arr13 m c := by
  funext y
  show V m c main_arg13 (((cfg0.win 13).blk t).view.emb y) = V m c main_arg13 y
  refine congrArg _ (funext fun a => Fin.ext ?_)
  have e0 := idx13 t
  match a with
  | ⟨0, _⟩ => show win0_13.index t (0 : Fin 1) * 1024 + 1 * (y 0).val = (y 0).val; omega
theorem blk14_eq (c : Dev nD) (t : Fin cfg0.N) : blk14 m c t = arr14 m c := by
  funext y
  show V m c main_arg14 (((cfg0.win 14).blk t).view.emb y) = V m c main_arg14 y
  refine congrArg _ (funext fun a => Fin.ext ?_)
  obtain ⟨e0, e1⟩ := idx14 t
  match a with
  | ⟨0, _⟩ => show win0_14.index t (0 : Fin 2) * 128 + 1 * (y 0).val = (y 0).val; omega
  | ⟨1, _⟩ => show win0_14.index t (1 : Fin 2) * 512 + 1 * (y 1).val = (y 1).val; omega
theorem blk15_eq (c : Dev nD) (t : Fin cfg0.N) : blk15 m c t = arr15 m c := by
  funext y
  show V m c main_arg15 (((cfg0.win 15).blk t).view.emb y) = V m c main_arg15 y
  refine congrArg _ (funext fun a => Fin.ext ?_)
  have e0 := idx15 t
  match a with
  | ⟨0, _⟩ => show win0_15.index t (0 : Fin 1) * 128 + 1 * (y 0).val = (y 0).val; omega
theorem blk16_eq (c : Dev nD) (t : Fin cfg0.N) : blk16 m c t = arr16 m c := by
  funext y
  show V m c main_arg16 (((cfg0.win 16).blk t).view.emb y) = V m c main_arg16 y
  refine congrArg _ (funext fun a => Fin.ext ?_)
  obtain ⟨e0, e1⟩ := idx16 t
  match a with
  | ⟨0, _⟩ => show win0_16.index t (0 : Fin 2) * 128 + 1 * (y 0).val = (y 0).val; omega
  | ⟨1, _⟩ => show win0_16.index t (1 : Fin 2) * 512 + 1 * (y 1).val = (y 1).val; omega
theorem blk17_eq (c : Dev nD) (t : Fin cfg0.N) : blk17 m c t = arr17 m c := by
  funext y
  show V m c main_arg17 (((cfg0.win 17).blk t).view.emb y) = V m c main_arg17 y
  refine congrArg _ (funext fun a => Fin.ext ?_)
  have e0 := idx17 t
  match a with
  | ⟨0, _⟩ => show win0_17.index t (0 : Fin 1) * 128 + 1 * (y 0).val = (y 0).val; omega
theorem blk18_eq (c : Dev nD) (t : Fin cfg0.N) : blk18 m c t = arr18 m c := by
  funext y
  show V m c main_arg18 (((cfg0.win 18).blk t).view.emb y) = V m c main_arg18 y
  refine congrArg _ (funext fun a => Fin.ext ?_)
  obtain ⟨e0, e1⟩ := idx18 t
  match a with
  | ⟨0, _⟩ => show win0_18.index t (0 : Fin 2) * 2048 + 1 * (y 0).val = (y 0).val; omega
  | ⟨1, _⟩ => show win0_18.index t (1 : Fin 2) * 512 + 1 * (y 1).val = (y 1).val; omega
theorem blk19_eq (c : Dev nD) (t : Fin cfg0.N) : blk19 m c t = arr19 m c := by
  funext y
  show V m c main_arg19 (((cfg0.win 19).blk t).view.emb y) = V m c main_arg19 y
  refine congrArg _ (funext fun a => Fin.ext ?_)
  have e0 := idx19 t
  match a with
  | ⟨0, _⟩ => show win0_19.index t (0 : Fin 1) * 2048 + 1 * (y 0).val = (y 0).val; omega
theorem blk20_eq (c : Dev nD) (t : Fin cfg0.N) : blk20 m c t = arr20 m c := by
  funext y
  show V m c main_arg20 (((cfg0.win 20).blk t).view.emb y) = V m c main_arg20 y
  refine congrArg _ (funext fun a => Fin.ext ?_)
  obtain ⟨e0, e1⟩ := idx20 t
  match a with
  | ⟨0, _⟩ => show win0_20.index t (0 : Fin 2) * 512 + 1 * (y 0).val = (y 0).val; omega
  | ⟨1, _⟩ => show win0_20.index t (1 : Fin 2) * 2048 + 1 * (y 1).val = (y 1).val; omega
theorem blk21_eq (c : Dev nD) (t : Fin cfg0.N) : blk21 m c t = arr21 m c := by
  funext y
  show V m c main_arg21 (((cfg0.win 21).blk t).view.emb y) = V m c main_arg21 y
  refine congrArg _ (funext fun a => Fin.ext ?_)
  have e0 := idx21 t
  match a with
  | ⟨0, _⟩ => show win0_21.index t (0 : Fin 1) * 512 + 1 * (y 0).val = (y 0).val; omega

/-! ### What each point writes back, the cover, the arrays after the run -/

/-- What point `t` writes back through output window 23 is block `t` of `memNewArr` of the argument arrays. -/
theorem flushed23_eq (c : Dev nD) (t : Fin cfg0.N) :
    (dats m 0 c).flushed 23 t = ((cfg0.win 23).blk t).view.read (Elt Ideal) (memNewArr (arr0 m c) (arr1 m c) (PV m c)) := by
  show (cfg0.win 23).cut (grid0.coords t) ((dats m 0 c).after 23 t) = _
  rw [after0_23]
  refine funext (fun (j : S128x8x512.Idx) => ?_)
  obtain ⟨b, s, d, rfl⟩ : ∃ (b : Fin 128) (s : Fin 8) (d : Fin 512), j = ix3 b s d := ⟨j 0, j 1, j 2, eq_ix3 j⟩
  show out0_23 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (ix3 b s d)
    = memNewArr (arr0 m c) (arr1 m c) (PV m c) (((cfg0.win 23).blk t).view.emb (ix3 b s d))
  have hemb : ((cfg0.win 23).blk t).view.emb (ix3 b s d)
      = ix3 (⟨128 * t.val + b.val, by have := t_lt t; have := b.isLt; omega⟩ : Fin 2048) s d := by
    funext a; apply Fin.ext
    obtain ⟨e0, e1, e2⟩ := idx23 t
    match a with
    | ⟨0, _⟩ => show win0_23.index t (0 : Fin 3) * 128 + 1 * b.val = 128 * t.val + b.val; omega
    | ⟨1, _⟩ => show win0_23.index t (1 : Fin 3) * 8 + 1 * s.val = s.val; omega
    | ⟨2, _⟩ => show win0_23.index t (2 : Fin 3) * 512 + 1 * d.val = d.val; omega
  rw [hemb]
  exact out23_apply (PV m c)
      (fun n i => arr0 m c (ix3 (⟨128 * t.val + b.val, by have := t_lt t; have := b.isLt; omega⟩ : Fin 2048) n i))
      (fun n i => arr1 m c (ix3 (⟨128 * t.val + b.val, by have := t_lt t; have := b.isLt; omega⟩ : Fin 2048) n i)) b
      (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t)
      (fun n i => blk0_apply m c t b n i) (fun n i => blk1_apply m c t b n i)
      (fun p q => congrFun (blk2_eq m c t) (ix2 p q)) (fun p => congrFun (blk3_eq m c t) (ix1 p)) (fun p q => congrFun (blk4_eq m c t) (ix2 p q)) (fun p => congrFun (blk5_eq m c t) (ix1 p)) (fun p q => congrFun (blk6_eq m c t) (ix2 p q)) (fun p => congrFun (blk7_eq m c t) (ix1 p)) (fun p q => congrFun (blk8_eq m c t) (ix2 p q)) (fun p => congrFun (blk9_eq m c t) (ix1 p)) (fun p q => congrFun (blk10_eq m c t) (ix2 p q)) (fun p => congrFun (blk11_eq m c t) (ix1 p)) (fun p q => congrFun (blk12_eq m c t) (ix2 p q)) (fun p => congrFun (blk13_eq m c t) (ix1 p)) (fun p q => congrFun (blk14_eq m c t) (ix2 p q)) (fun p => congrFun (blk15_eq m c t) (ix1 p)) (fun p q => congrFun (blk16_eq m c t) (ix2 p q)) (fun p => congrFun (blk17_eq m c t) (ix1 p)) (fun p q => congrFun (blk18_eq m c t) (ix2 p q)) (fun p => congrFun (blk19_eq m c t) (ix1 p)) (fun p q => congrFun (blk20_eq m c t) (ix2 p q)) (fun p => congrFun (blk21_eq m c t) (ix1 p)) s d

/-- An index of the array is in point `t`'s block iff each coordinate is in the block's range on its axis. -/
theorem mem_blk23 (t : Fin cfg0.N) (i : S2048x8x512.Idx) :
    i ∈ ((cfg0.win 23).blk t).view.set ↔ ∀ a : Fin 3, win0_23.index t a * S128x8x512.size a ≤ (i a).val ∧ (i a).val < win0_23.index t a * S128x8x512.size a + S128x8x512.size a := by
  show i ∈ ((View.whole main_v0_1).slice (win0_23.rect t)).set ↔ _
  rw [View.set_slice_whole, Rect.mem_set_unit]
  exact Iff.rfl

/-- Every row of the array is in the block of the point that handles it. -/
theorem cover23 (i : S2048x8x512.Idx) : ∃ t : Fin cfg0.N, (cfg0.win 23).flush t = true ∧ i ∈ ((cfg0.win 23).blk t).view.set := by
  have hi0 : (i 0).val < 2048 := (i 0).isLt
  have hi1 : (i 1).val < 8 := (i 1).isLt
  have hi2 : (i 2).val < 512 := (i 2).isLt
  refine ⟨⟨(i 0).val / 128, by rw [show cfg0.N = 16 from N_0]; omega⟩, flush0_23 _, ?_⟩
  rw [mem_blk23]
  obtain ⟨e0, e1, e2⟩ := idx23 ⟨(i 0).val / 128, by rw [show cfg0.N = 16 from N_0]; omega⟩
  intro a
  match a with
  | ⟨0, _⟩ => show win0_23.index _ (0 : Fin 3) * 128 ≤ (i 0).val ∧ (i 0).val < win0_23.index _ (0 : Fin 3) * 128 + 128; rw [e0]; show (i 0).val / 128 * 128 ≤ (i 0).val ∧ (i 0).val < (i 0).val / 128 * 128 + 128; omega
  | ⟨1, _⟩ => show win0_23.index _ (1 : Fin 3) * 8 ≤ (i 1).val ∧ (i 1).val < win0_23.index _ (1 : Fin 3) * 8 + 8; rw [e1]; omega
  | ⟨2, _⟩ => show win0_23.index _ (2 : Fin 3) * 512 ≤ (i 2).val ∧ (i 2).val < win0_23.index _ (2 : Fin 3) * 512 + 512; rw [e2]; omega

/-- The array after the run. -/
theorem final23 (c : Dev nD) : (dats m 0 c).arrAt 23 cfg0.N = memNewArr (arr0 m c) (arr1 m c) (PV m c) :=
  (dats m 0 c).arrAt_eq_of_cover 23 (memNewArr (arr0 m c) (arr1 m c) (PV m c)) (fun t _ => flushed23_eq m c t) cover23

/-- What point `t` writes back through output window 22 is block `t` of `hOutArr` of the argument arrays. -/
theorem flushed22_eq (c : Dev nD) (t : Fin cfg0.N) :
    (dats m 0 c).flushed 22 t = ((cfg0.win 22).blk t).view.read (Elt Ideal) (hOutArr (arr0 m c) (arr1 m c) (PV m c)) := by
  show (cfg0.win 22).cut (grid0.coords t) ((dats m 0 c).after 22 t) = _
  rw [after0_22]
  refine funext (fun (j : S128x8x512.Idx) => ?_)
  obtain ⟨b, s, d, rfl⟩ : ∃ (b : Fin 128) (s : Fin 8) (d : Fin 512), j = ix3 b s d := ⟨j 0, j 1, j 2, eq_ix3 j⟩
  show out0_22 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (ix3 b s d)
    = hOutArr (arr0 m c) (arr1 m c) (PV m c) (((cfg0.win 22).blk t).view.emb (ix3 b s d))
  have hemb : ((cfg0.win 22).blk t).view.emb (ix3 b s d)
      = ix3 (⟨128 * t.val + b.val, by have := t_lt t; have := b.isLt; omega⟩ : Fin 2048) s d := by
    funext a; apply Fin.ext
    obtain ⟨e0, e1, e2⟩ := idx22 t
    match a with
    | ⟨0, _⟩ => show win0_22.index t (0 : Fin 3) * 128 + 1 * b.val = 128 * t.val + b.val; omega
    | ⟨1, _⟩ => show win0_22.index t (1 : Fin 3) * 8 + 1 * s.val = s.val; omega
    | ⟨2, _⟩ => show win0_22.index t (2 : Fin 3) * 512 + 1 * d.val = d.val; omega
  rw [hemb]
  exact out22_apply (PV m c)
      (fun n i => arr0 m c (ix3 (⟨128 * t.val + b.val, by have := t_lt t; have := b.isLt; omega⟩ : Fin 2048) n i))
      (fun n i => arr1 m c (ix3 (⟨128 * t.val + b.val, by have := t_lt t; have := b.isLt; omega⟩ : Fin 2048) n i)) b
      (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t)
      (fun n i => blk0_apply m c t b n i) (fun n i => blk1_apply m c t b n i)
      (fun p q => congrFun (blk2_eq m c t) (ix2 p q)) (fun p => congrFun (blk3_eq m c t) (ix1 p)) (fun p q => congrFun (blk4_eq m c t) (ix2 p q)) (fun p => congrFun (blk5_eq m c t) (ix1 p)) (fun p q => congrFun (blk6_eq m c t) (ix2 p q)) (fun p => congrFun (blk7_eq m c t) (ix1 p)) (fun p q => congrFun (blk8_eq m c t) (ix2 p q)) (fun p => congrFun (blk9_eq m c t) (ix1 p)) (fun p q => congrFun (blk10_eq m c t) (ix2 p q)) (fun p => congrFun (blk11_eq m c t) (ix1 p)) (fun p q => congrFun (blk12_eq m c t) (ix2 p q)) (fun p => congrFun (blk13_eq m c t) (ix1 p)) (fun p q => congrFun (blk14_eq m c t) (ix2 p q)) (fun p => congrFun (blk15_eq m c t) (ix1 p)) (fun p q => congrFun (blk16_eq m c t) (ix2 p q)) (fun p => congrFun (blk17_eq m c t) (ix1 p)) (fun p q => congrFun (blk18_eq m c t) (ix2 p q)) (fun p => congrFun (blk19_eq m c t) (ix1 p)) (fun p q => congrFun (blk20_eq m c t) (ix2 p q)) (fun p => congrFun (blk21_eq m c t) (ix1 p)) s d

/-- An index of the array is in point `t`'s block iff each coordinate is in the block's range on its axis. -/
theorem mem_blk22 (t : Fin cfg0.N) (i : S2048x8x512.Idx) :
    i ∈ ((cfg0.win 22).blk t).view.set ↔ ∀ a : Fin 3, win0_22.index t a * S128x8x512.size a ≤ (i a).val ∧ (i a).val < win0_22.index t a * S128x8x512.size a + S128x8x512.size a := by
  show i ∈ ((View.whole main_v0_0).slice (win0_22.rect t)).set ↔ _
  rw [View.set_slice_whole, Rect.mem_set_unit]
  exact Iff.rfl

/-- Every row of the array is in the block of the point that handles it. -/
theorem cover22 (i : S2048x8x512.Idx) : ∃ t : Fin cfg0.N, (cfg0.win 22).flush t = true ∧ i ∈ ((cfg0.win 22).blk t).view.set := by
  have hi0 : (i 0).val < 2048 := (i 0).isLt
  have hi1 : (i 1).val < 8 := (i 1).isLt
  have hi2 : (i 2).val < 512 := (i 2).isLt
  refine ⟨⟨(i 0).val / 128, by rw [show cfg0.N = 16 from N_0]; omega⟩, flush0_22 _, ?_⟩
  rw [mem_blk22]
  obtain ⟨e0, e1, e2⟩ := idx22 ⟨(i 0).val / 128, by rw [show cfg0.N = 16 from N_0]; omega⟩
  intro a
  match a with
  | ⟨0, _⟩ => show win0_22.index _ (0 : Fin 3) * 128 ≤ (i 0).val ∧ (i 0).val < win0_22.index _ (0 : Fin 3) * 128 + 128; rw [e0]; show (i 0).val / 128 * 128 ≤ (i 0).val ∧ (i 0).val < (i 0).val / 128 * 128 + 128; omega
  | ⟨1, _⟩ => show win0_22.index _ (1 : Fin 3) * 8 ≤ (i 1).val ∧ (i 1).val < win0_22.index _ (1 : Fin 3) * 8 + 8; rw [e1]; omega
  | ⟨2, _⟩ => show win0_22.index _ (2 : Fin 3) * 512 ≤ (i 2).val ∧ (i 2).val < win0_22.index _ (2 : Fin 3) * 512 + 512; rw [e2]; omega

/-- The array after the run. -/
theorem final22 (c : Dev nD) : (dats m 0 c).arrAt 22 cfg0.N = hOutArr (arr0 m c) (arr1 m c) (PV m c) :=
  (dats m 0 c).arrAt_eq_of_cover 22 (hOutArr (arr0 m c) (arr1 m c) (PV m c)) (fun t _ => flushed22_eq m c t) cover22

/-! ### The run, read -/

/-- The kernel's run: both output arrays at their function of the argument arrays, the arguments unchanged. -/
theorem run : θ_run defs (onTc (τ := τ) (main (F := Ideal))) ⟨m, fun _ => 0, ρ⟩ fun r => ∀ c : Dev nD,
      r.2.mem ((c : Thread nD τ).loc main_v0_0) = hOutArr (arr0 m c) (arr1 m c) (PV m c)
      ∧ r.2.mem ((c : Thread nD τ).loc main_v0_1) = memNewArr (arr0 m c) (arr1 m c) (PV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final22 m c), (h c).2.1.trans (final23 m c), (h c).2.2⟩)
    (run_blocks m ρ)

end Cert.KerArrays

end
-- ==== Proof.RefTypes.lean ====
/- The type of an array of the reference program read at the ideal instance. -/
import proofs.«106064_j9835475108028_1_alg».proof.ReferenceIdeal
import Idealize.ShloMosaic.PureOps.Ideal

noncomputable section

namespace Cert.RefSide

open Idealize.ShloMosaic

/-- An array of the reference at the ideal instance: a function from the shape's indices to the extended reals. -/
abbrev A (s : Shape) := (⟨s, .f32⟩ : BufTy).Contents (Elt Ideal)

end Cert.RefSide

end
-- ==== Proof.RefWrite.lean ====
/-
  The reference's write attention, read one element at a time: each stage of the reference program, at the
  coordinates of one batch element, is the corresponding function of the specification.
-/
import proofs.«106064_j9835475108028_1_alg».proof.Proof.Spec
import proofs.«106064_j9835475108028_1_alg».proof.Proof.RefTypes
import proofs.«106064_j9835475108028_1_alg».proof.Proof.Gen.ReferenceIdeal.Read
import Idealize.ShloMosaic.Lib.ValueIdx
import Idealize.ShloMosaic.Lib.Pipeline.Value
import Idealize.ShloMosaic.PureOps.Reduce
import Idealize.ShloMosaic.PureOps.Ideal.Laws

noncomputable section

namespace Cert.RefSide

open Cert.ReferenceIdeal Cert.ReferenceIdeal.Read Idealize.ShloMosaic Idealize.ShloMosaic.ValueIdx

/-! ## The divisor of the scores -/

/-- The word the reference divides its scores by denotes 11863283 / 2097152 (that is 1.41421353816986083984375 · 4). -/
theorem ofBits_divisor : Ideal.ofBits .f32 0x40B504F3#32 = ((11863283 / 2097152 : ℝ) : EReal) := by
  simp [Ideal.ofBits, Ideal.ieee, -EReal.coe_mul]; norm_num

/-- Dividing by that word is multiplying by the specification's scale. -/
theorem div_divisor (x : EReal) : Ideal.div x (Ideal.ofBits .f32 0x40B504F3#32) = x * Cert.Spec.SCALE := by
  show _ = x * ((2097152 / 11863283 : ℝ) : EReal)
  rw [ofBits_divisor, Ideal.div_coe (by norm_num : (11863283 / 2097152 : ℝ) ≠ 0)]
  congr 2
  norm_num

/-! ## The sixteen rows `hs ++ mem` -/

theorem v0_at (x0 x1 : A S2048x8x512) (b : Fin 2048) (t : Fin 16) (i : Fin 512) :
    val_main_v0 (F := Ideal) x0 x1 (ix3 b t i) = Cert.Spec.xi (fun n i => x0 (ix3 b n i)) (fun n i => x1 (ix3 b n i)) t i := by
  unfold val_main_v0 Cert.Spec.xi
  by_cases h : t.val < 8
  · rw [dif_pos h]
    exact concatenate_pair_apply_left _ x0 x1 _ (ix3 b t i) rfl (ix3 b ⟨t.val, h⟩ i)
      (fun c => by match c with | ⟨0, _⟩ => rfl | ⟨1, _⟩ => rfl | ⟨2, _⟩ => rfl)
  · rw [dif_neg h]
    exact concatenate_pair_apply_right _ x0 x1 _ (ix3 b t i) rfl rfl (ix3 b ⟨t.val - 8, by have := t.isLt; omega⟩ i)
      (fun c hc => by match c with | ⟨0, _⟩ => rfl | ⟨1, _⟩ => exact absurd rfl hc | ⟨2, _⟩ => rfl)
      (by show t.val - 8 + 8 = t.val; omega)

/-! ## Queries, keys and values -/

theorem v6_at (P : Cert.Spec.Params) (x1 : A S2048x8x512) (x2 : A S32x512) (x3 : A S32) (h2 : ∀ k i, x2 (ix2 k i) = P.wq_w (ix2 k i)) (h3 : ∀ k, x3 (ix1 k) = P.wq_b (ix1 k)) (b : Fin 2048) (s : Fin 8) (k : Fin 32) :
    val_main_v6 (F := Ideal) x1 x2 x3 (ix4 b (0 : Fin 1) s k) = Cert.Spec.wq P (fun n i => x1 (ix3 b n i)) s k := by
  have e : idx_main_v5 (idx_main_v6 (ix4 b (0 : Fin 1) s k)) = ix3 b s k := funext fun a => Fin.ext (by
    have hs := s.isLt; have hk := k.isLt
    match a with
    | ⟨0, _⟩ => show (((b.val * 8 + s.val) * 1 + 0) * 32 + k.val) / 256 = b.val; omega
    | ⟨1, _⟩ => show (((b.val * 8 + s.val) * 1 + 0) * 32 + k.val) / 32 % 8 = s.val; omega
    | ⟨2, _⟩ => show (((b.val * 8 + s.val) * 1 + 0) * 32 + k.val) % 32 = k.val; omega)
  rw [val_main_v6_apply, val_main_v5_apply, e, val_main_v4_apply, Ideal.addf_def, val_main_v1_apply, val_main_v3_apply,
    val_main_v2_apply]
  unfold Cert.Spec.wq
  refine congrArg₂ (· + ·) (Finset.sum_congr rfl fun i _ => ?_) ?_
  · rw [show lidx_main_v1 (ix3 b s k) i = ix3 b s i from funext fun a => Fin.ext (by match a with | ⟨0, _⟩ => rfl | ⟨1, _⟩ => rfl | ⟨2, _⟩ => rfl),
      show ridx_main_v1 (ix3 b s k) i = ix2 k i from funext fun a => Fin.ext (by match a with | ⟨0, _⟩ => rfl | ⟨1, _⟩ => rfl), h2]
  · rw [show idx_main_v2 (idx_main_v3 (ix3 b s k)) = ix1 k from funext fun a => Fin.ext (by match a with | ⟨0, _⟩ => rfl), h3]

theorem v12_at (P : Cert.Spec.Params) (x0 x1 : A S2048x8x512) (x4 : A S32x512) (x5 : A S32) (h4 : ∀ k i, x4 (ix2 k i) = P.wk_w (ix2 k i)) (h5 : ∀ k, x5 (ix1 k) = P.wk_b (ix1 k)) (b : Fin 2048) (t : Fin 16) (k : Fin 32) :
    val_main_v12 (F := Ideal) x0 x1 x4 x5 (ix4 b (0 : Fin 1) t k) = Cert.Spec.wk P (fun n i => x0 (ix3 b n i)) (fun n i => x1 (ix3 b n i)) t k := by
  have e : idx_main_v11 (idx_main_v12 (ix4 b (0 : Fin 1) t k)) = ix3 b t k := funext fun a => Fin.ext (by
    have ht := t.isLt; have hk := k.isLt
    match a with
    | ⟨0, _⟩ => show (((b.val * 16 + t.val) * 1 + 0) * 32 + k.val) / 512 = b.val; omega
    | ⟨1, _⟩ => show (((b.val * 16 + t.val) * 1 + 0) * 32 + k.val) / 32 % 16 = t.val; omega
    | ⟨2, _⟩ => show (((b.val * 16 + t.val) * 1 + 0) * 32 + k.val) % 32 = k.val; omega)
  rw [val_main_v12_apply, val_main_v11_apply, e, val_main_v10_apply, Ideal.addf_def, val_main_v7_apply, val_main_v9_apply,
    val_main_v8_apply]
  unfold Cert.Spec.wk
  refine congrArg₂ (· + ·) (Finset.sum_congr rfl fun i _ => ?_) ?_
  · rw [show lidx_main_v7 (ix3 b t k) i = ix3 b t i from funext fun a => Fin.ext (by match a with | ⟨0, _⟩ => rfl | ⟨1, _⟩ => rfl | ⟨2, _⟩ => rfl),
      show ridx_main_v7 (ix3 b t k) i = ix2 k i from funext fun a => Fin.ext (by match a with | ⟨0, _⟩ => rfl | ⟨1, _⟩ => rfl), h4, v0_at]
  · rw [show idx_main_v8 (idx_main_v9 (ix3 b t k)) = ix1 k from funext fun a => Fin.ext (by match a with | ⟨0, _⟩ => rfl), h5]

theorem v18_at (P : Cert.Spec.Params) (x0 x1 : A S2048x8x512) (x6 : A S512x512) (x7 : A S512) (h6 : ∀ k i, x6 (ix2 k i) = P.wv_w (ix2 k i)) (h7 : ∀ k, x7 (ix1 k) = P.wv_b (ix1 k)) (b : Fin 2048) (t : Fin 16) (d : Fin 512) :
    val_main_v18 (F := Ideal) x0 x1 x6 x7 (ix4 b (0 : Fin 1) t d) = Cert.Spec.wv P (fun n i => x0 (ix3 b n i)) (fun n i => x1 (ix3 b n i)) t d := by
  have e : idx_main_v17 (idx_main_v18 (ix4 b (0 : Fin 1) t d)) = ix3 b t d := funext fun a => Fin.ext (by
    have ht := t.isLt; have hd := d.isLt
    match a with
    | ⟨0, _⟩ => show (((b.val * 16 + t.val) * 1 + 0) * 512 + d.val) / 8192 = b.val; omega
    | ⟨1, _⟩ => show (((b.val * 16 + t.val) * 1 + 0) * 512 + d.val) / 512 % 16 = t.val; omega
    | ⟨2, _⟩ => show (((b.val * 16 + t.val) * 1 + 0) * 512 + d.val) % 512 = d.val; omega)
  rw [val_main_v18_apply, val_main_v17_apply, e, val_main_v16_apply, Ideal.addf_def, val_main_v13_apply, val_main_v15_apply,
    val_main_v14_apply]
  unfold Cert.Spec.wv
  refine congrArg₂ (· + ·) (Finset.sum_congr rfl fun i _ => ?_) ?_
  · rw [show lidx_main_v13 (ix3 b t d) i = ix3 b t i from funext fun a => Fin.ext (by match a with | ⟨0, _⟩ => rfl | ⟨1, _⟩ => rfl | ⟨2, _⟩ => rfl),
      show ridx_main_v13 (ix3 b t d) i = ix2 d i from funext fun a => Fin.ext (by match a with | ⟨0, _⟩ => rfl | ⟨1, _⟩ => rfl), h6, v0_at]
  · rw [show idx_main_v14 (idx_main_v15 (ix3 b t d)) = ix1 d from funext fun a => Fin.ext (by match a with | ⟨0, _⟩ => rfl), h7]

/-! ## The scores -/

theorem v21_at (P : Cert.Spec.Params) (x0 x1 : A S2048x8x512) (x2 : A S32x512) (x3 : A S32) (x4 : A S32x512) (x5 : A S32) (h2 : ∀ k i, x2 (ix2 k i) = P.wq_w (ix2 k i)) (h3 : ∀ k, x3 (ix1 k) = P.wq_b (ix1 k)) (h4 : ∀ k i, x4 (ix2 k i) = P.wk_w (ix2 k i)) (h5 : ∀ k, x5 (ix1 k) = P.wk_b (ix1 k)) (b : Fin 2048) (s : Fin 8) (t : Fin 16) :
    val_main_v21 (F := Ideal) x0 x1 x2 x3 x4 x5 (ix4 b (0 : Fin 1) s t) = Cert.Spec.wscore P (fun n i => x0 (ix3 b n i)) (fun n i => x1 (ix3 b n i)) s t := by
  rw [val_main_v21_apply, Ideal.hostDivf_def, val_main_v20_apply, val_main_cst_apply, Ideal.ofBits_def, div_divisor,
    val_main_v19_apply]
  unfold Cert.Spec.wscore
  refine congrArg (· * Cert.Spec.SCALE) (Finset.sum_congr rfl fun k _ => ?_)
  rw [show lidx_main_v19 (ix4 b (0 : Fin 1) s t) k = ix4 b (0 : Fin 1) s k from funext fun a => Fin.ext (by match a with | ⟨0, _⟩ => rfl | ⟨1, _⟩ => rfl | ⟨2, _⟩ => rfl | ⟨3, _⟩ => rfl),
    show ridx_main_v19 (ix4 b (0 : Fin 1) s t) k = ix4 b (0 : Fin 1) t k from funext fun a => Fin.ext (by match a with | ⟨0, _⟩ => rfl | ⟨1, _⟩ => rfl | ⟨2, _⟩ => rfl | ⟨3, _⟩ => rfl),
    v6_at P x1 x2 x3 h2 h3, v12_at P x0 x1 x4 x5 h4 h5]

/-! ## The softmax over the sixteen keys -/

/-- The running maximum from −∞ over the keys, capped below by −∞ once more. -/
theorem v24_at (P : Cert.Spec.Params) (x0 x1 : A S2048x8x512) (x2 : A S32x512) (x3 : A S32) (x4 : A S32x512) (x5 : A S32) (h2 : ∀ k i, x2 (ix2 k i) = P.wq_w (ix2 k i)) (h3 : ∀ k, x3 (ix1 k) = P.wq_b (ix1 k)) (h4 : ∀ k i, x4 (ix2 k i) = P.wk_w (ix2 k i)) (h5 : ∀ k, x5 (ix1 k) = P.wk_b (ix1 k)) (b : Fin 2048) (s : Fin 8) :
    val_main_v24 (F := Ideal) x0 x1 x2 x3 x4 x5 (ix3 b (0 : Fin 1) s) = Cert.Spec.rowMax (Cert.Spec.wscore P (fun n i => x0 (ix3 b n i)) (fun n i => x1 (ix3 b n i)) s) := by
  rw [val_main_v24_apply, Ideal.maximumf_def, val_main_v23_apply, val_main_cst_1_apply, Ideal.ofBits_def]
  unfold Cert.Spec.rowMax val_main_v22
  rw [Host.reduce_eq_fold_single FloatOps.maximumf _ _ _ (by decide) _ (ix3 b (0 : Fin 1) s)]
  have hf : (val_main_v21 (F := Ideal) x0 x1 x2 x3 x4 x5 ∘ Shape.Reduces.lift (by decide : S2048x1x8x16.Reduces [3] S2048x1x8) (ix3 b (0 : Fin 1) s))
      = Cert.Spec.wscore P (fun n i => x0 (ix3 b n i)) (fun n i => x1 (ix3 b n i)) s := funext fun t => by
    show val_main_v21 (F := Ideal) x0 x1 x2 x3 x4 x5 _ = _
    rw [← v21_at P x0 x1 x2 x3 x4 x5 h2 h3 h4 h5 b s t]
    exact congrArg _ (funext fun a => Fin.ext (by match a with | ⟨0, _⟩ => rfl | ⟨1, _⟩ => rfl | ⟨2, _⟩ => rfl | ⟨3, _⟩ => rfl))
  exact congrArg (fun f => max Cert.Spec.NEG (Finset.fold max Cert.Spec.NEG f (Finset.univ : Finset (Fin 16)))) hf

theorem v28_at (P : Cert.Spec.Params) (x0 x1 : A S2048x8x512) (x2 : A S32x512) (x3 : A S32) (x4 : A S32x512) (x5 : A S32) (h2 : ∀ k i, x2 (ix2 k i) = P.wq_w (ix2 k i)) (h3 : ∀ k, x3 (ix1 k) = P.wq_b (ix1 k)) (h4 : ∀ k i, x4 (ix2 k i) = P.wk_w (ix2 k i)) (h5 : ∀ k, x5 (ix1 k) = P.wk_b (ix1 k)) (b : Fin 2048) (s : Fin 8) (t : Fin 16) :
    val_main_v28 (F := Ideal) x0 x1 x2 x3 x4 x5 (ix4 b (0 : Fin 1) s t)
      = Ideal.exp (Cert.Spec.wscore P (fun n i => x0 (ix3 b n i)) (fun n i => x1 (ix3 b n i)) s t - Cert.Spec.rowMax (Cert.Spec.wscore P (fun n i => x0 (ix3 b n i)) (fun n i => x1 (ix3 b n i)) s)) := by
  rw [val_main_v28_apply, Ideal.hostUnary_exp_def, val_main_v27_apply, Ideal.subf_def, val_main_v26_apply, val_main_v25_apply,
    show idx_main_v25 (idx_main_v26 (ix4 b (0 : Fin 1) s t)) = ix3 b (0 : Fin 1) s from funext fun a => Fin.ext (by match a with | ⟨0, _⟩ => rfl | ⟨1, _⟩ => rfl | ⟨2, _⟩ => rfl),
    v24_at P x0 x1 x2 x3 x4 x5 h2 h3 h4 h5, v21_at P x0 x1 x2 x3 x4 x5 h2 h3 h4 h5]

theorem v32_at (P : Cert.Spec.Params) (x0 x1 : A S2048x8x512) (x2 : A S32x512) (x3 : A S32) (x4 : A S32x512) (x5 : A S32) (h2 : ∀ k i, x2 (ix2 k i) = P.wq_w (ix2 k i)) (h3 : ∀ k, x3 (ix1 k) = P.wq_b (ix1 k)) (h4 : ∀ k i, x4 (ix2 k i) = P.wk_w (ix2 k i)) (h5 : ∀ k, x5 (ix1 k) = P.wk_b (ix1 k)) (b : Fin 2048) (s : Fin 8) (t : Fin 16) :
    val_main_v32 (F := Ideal) x0 x1 x2 x3 x4 x5 (ix4 b (0 : Fin 1) s t) = Cert.Spec.wprob P (fun n i => x0 (ix3 b n i)) (fun n i => x1 (ix3 b n i)) s t := by
  rw [val_main_v32_apply, Ideal.hostDivf_def, val_main_v31_apply, val_main_v30_apply,
    show idx_main_v30 (idx_main_v31 (ix4 b (0 : Fin 1) s t)) = ix3 b (0 : Fin 1) s from funext fun a => Fin.ext (by match a with | ⟨0, _⟩ => rfl | ⟨1, _⟩ => rfl | ⟨2, _⟩ => rfl),
    val_main_v29_apply, val_main_cst_2_apply, Ideal.ofBits_def, Ideal.ofBits_zero_f32, zero_add,
    v28_at P x0 x1 x2 x3 x4 x5 h2 h3 h4 h5]
  unfold Cert.Spec.wprob Cert.Spec.softmax
  refine congrArg (Ideal.div _) (Finset.sum_congr rfl fun t' _ => ?_)
  rw [show idx_main_v29 (ix3 b (0 : Fin 1) s) t' = ix4 b (0 : Fin 1) s t' from funext fun a => Fin.ext (by match a with | ⟨0, _⟩ => rfl | ⟨1, _⟩ => rfl | ⟨2, _⟩ => rfl | ⟨3, _⟩ => rfl),
    v28_at P x0 x1 x2 x3 x4 x5 h2 h3 h4 h5]

/-! ## The context and its projection -/

theorem v35_at (P : Cert.Spec.Params) (x0 x1 : A S2048x8x512) (x2 : A S32x512) (x3 : A S32) (x4 : A S32x512) (x5 : A S32) (x6 : A S512x512) (x7 : A S512) (h2 : ∀ k i, x2 (ix2 k i) = P.wq_w (ix2 k i)) (h3 : ∀ k, x3 (ix1 k) = P.wq_b (ix1 k)) (h4 : ∀ k i, x4 (ix2 k i) = P.wk_w (ix2 k i)) (h5 : ∀ k, x5 (ix1 k) = P.wk_b (ix1 k)) (h6 : ∀ k i, x6 (ix2 k i) = P.wv_w (ix2 k i)) (h7 : ∀ k, x7 (ix1 k) = P.wv_b (ix1 k)) (b : Fin 2048) (s : Fin 8) (d : Fin 512) :
    val_main_v35 (F := Ideal) x0 x1 x2 x3 x4 x5 x6 x7 (ix3 b s d) = Cert.Spec.wctx P (fun n i => x0 (ix3 b n i)) (fun n i => x1 (ix3 b n i)) s d := by
  have e : idx_main_v34 (idx_main_v35 (ix3 b s d)) = ix4 b (0 : Fin 1) s d := funext fun a => Fin.ext (by
    have hs := s.isLt; have hd := d.isLt
    match a with
    | ⟨0, _⟩ => show ((b.val * 8 + s.val) * 512 + d.val) / 4096 = b.val; omega
    | ⟨1, _⟩ => rfl
    | ⟨2, _⟩ => show ((b.val * 8 + s.val) * 512 + d.val) / 512 % 8 = s.val; omega
    | ⟨3, _⟩ => show ((b.val * 8 + s.val) * 512 + d.val) % 512 = d.val; omega)
  rw [val_main_v35_apply, val_main_v34_apply, e, val_main_v33_apply]
  unfold Cert.Spec.wctx
  refine Finset.sum_congr rfl fun t _ => ?_
  rw [show lidx_main_v33 (ix4 b (0 : Fin 1) s d) t = ix4 b (0 : Fin 1) s t from funext fun a => Fin.ext (by match a with | ⟨0, _⟩ => rfl | ⟨1, _⟩ => rfl | ⟨2, _⟩ => rfl | ⟨3, _⟩ => rfl),
    show ridx_main_v33 (ix4 b (0 : Fin 1) s d) t = ix4 b (0 : Fin 1) t d from funext fun a => Fin.ext (by match a with | ⟨0, _⟩ => rfl | ⟨1, _⟩ => rfl | ⟨2, _⟩ => rfl | ⟨3, _⟩ => rfl),
    v32_at P x0 x1 x2 x3 x4 x5 h2 h3 h4 h5, v18_at P x0 x1 x6 x7 h6 h7]

/-- The reference's write attention, at one element of one batch element, is the specification's `memWrite`. -/
theorem memWrite_ref (P : Cert.Spec.Params) (x0 x1 : A S2048x8x512) (x2 : A S32x512) (x3 : A S32) (x4 : A S32x512) (x5 : A S32) (x6 : A S512x512) (x7 : A S512) (x8 : A S512x512) (x9 : A S512)
    (h2 : ∀ k i, x2 (ix2 k i) = P.wq_w (ix2 k i)) (h3 : ∀ k, x3 (ix1 k) = P.wq_b (ix1 k))
    (h4 : ∀ k i, x4 (ix2 k i) = P.wk_w (ix2 k i)) (h5 : ∀ k, x5 (ix1 k) = P.wk_b (ix1 k))
    (h6 : ∀ k i, x6 (ix2 k i) = P.wv_w (ix2 k i)) (h7 : ∀ k, x7 (ix1 k) = P.wv_b (ix1 k))
    (h8 : ∀ k i, x8 (ix2 k i) = P.wo_w (ix2 k i)) (h9 : ∀ k, x9 (ix1 k) = P.wo_b (ix1 k))
    (b : Fin 2048) (s : Fin 8) (d : Fin 512) :
    val_main_v39 (F := Ideal) x0 x1 x2 x3 x4 x5 x6 x7 x8 x9 (ix3 b s d)
      = Cert.Spec.memWrite P (fun n i => x0 (ix3 b n i)) (fun n i => x1 (ix3 b n i)) s d := by
  rw [val_main_v39_apply, Ideal.addf_def, val_main_v36_apply, val_main_v38_apply, val_main_v37_apply]
  unfold Cert.Spec.memWrite
  refine congrArg₂ (· + ·) (Finset.sum_congr rfl fun j _ => ?_) ?_
  · rw [show lidx_main_v36 (ix3 b s d) j = ix3 b s j from funext fun a => Fin.ext (by match a with | ⟨0, _⟩ => rfl | ⟨1, _⟩ => rfl | ⟨2, _⟩ => rfl),
      show ridx_main_v36 (ix3 b s d) j = ix2 d j from funext fun a => Fin.ext (by match a with | ⟨0, _⟩ => rfl | ⟨1, _⟩ => rfl), h8,
      v35_at P x0 x1 x2 x3 x4 x5 x6 x7 h2 h3 h4 h5 h6 h7]
  · rw [show idx_main_v37 (idx_main_v38 (ix3 b s d)) = ix1 d from funext fun a => Fin.ext (by match a with | ⟨0, _⟩ => rfl), h9]

end Cert.RefSide

end
-- ==== Proof.RefUpdate.lean ====
import proofs.«106064_j9835475108028_1_alg».proof.Proof.Spec
import proofs.«106064_j9835475108028_1_alg».proof.Proof.Gen.ReferenceIdeal.Read
import proofs.«106064_j9835475108028_1_alg».proof.Proof.RefTypes
import Idealize.ShloMosaic.Lib.ValueIdx
import Idealize.ShloMosaic.Lib.Pipeline.Value
import Idealize.ShloMosaic.PureOps.Ideal.Laws

/-!
  The reference's gated update, read at one batch element.

  From the write attention's result the reference computes, per batch element with `hs, mem : 8 × 512`:
  the projection `relu (lin ut hs)`, its mean over the 8 units, the gate input `mean + tanh mem`, the
  1024 gate pre-activations `lin ug gateIn` pushed through the logistic function written out as
  `1 / (1 + exp (−x))`, and finally `memNew = inputGate · tanh memWrite + forgetGate · mem`, the input gate
  being columns `0 … 511` and the forget gate columns `512 … 1023`.

  Each stage below reads one of these values at explicit coordinates `(b, s, d)` and identifies it with the
  corresponding function of `Cert.Spec`; the last theorem composes them.
-/

noncomputable section
namespace Cert.RefSide
open Cert.ReferenceIdeal Cert.ReferenceIdeal.Read Idealize.ShloMosaic Idealize.ShloMosaic.ValueIdx

/-- The word `0x3F800000` is the number one. -/
theorem one_word : Ideal.ofBits .f32 0x3F800000#32 = 1 := by
  simp [Ideal.ofBits, Ideal.ieee, -EReal.coe_mul]; norm_num

/-! ### The unit projection `lin ut hs` and its relu -/

/-- The linear map `ut` applied to row `n` of `hs`, at column `d`: a sum over the 512 inputs plus the bias. -/
theorem v43_at (x0 : A S2048x8x512) (x10 : A S512x512) (x11 : A S512) (b : Fin 2048) (n : Fin 8) (d : Fin 512) :
    val_main_v43 (F := Ideal) x0 x10 x11 (ix3 b n d)
      = (∑ i : Fin 512, x0 (ix3 b n i) * x10 (ix2 d i)) + x11 (ix1 d) := by
  rw [val_main_v43_apply, val_main_v40_apply, val_main_v42_apply, val_main_v41_apply, Ideal.addf_def]
  have e1 : ∀ k : Fin 512, lidx_main_v40 (ix3 b n d) k = ix3 b n k := fun k =>
    funext fun a => by match a with | ⟨0, _⟩ => rfl | ⟨1, _⟩ => rfl | ⟨2, _⟩ => rfl
  have e2 : ∀ k : Fin 512, ridx_main_v40 (ix3 b n d) k = ix2 d k := fun k =>
    funext fun a => by match a with | ⟨0, _⟩ => rfl | ⟨1, _⟩ => rfl
  have e3 : idx_main_v41 (idx_main_v42 (ix3 b n d)) = ix1 d :=
    funext fun a => by match a with | ⟨0, _⟩ => rfl
  simp only [e1, e2, e3]

/-- The relu of the projection is the spec's `inProj`. -/
theorem inProj_ref (P : Cert.Spec.Params) (x0 : A S2048x8x512) (x10 : A S512x512) (x11 : A S512)
    (h10 : ∀ k i, x10 (ix2 k i) = P.ut_w (ix2 k i)) (h11 : ∀ k, x11 (ix1 k) = P.ut_b (ix1 k))
    (b : Fin 2048) (n : Fin 8) (d : Fin 512) :
    val_main_v44 (F := Ideal) x0 x10 x11 (ix3 b n d)
      = Cert.Spec.inProj P (fun n i => x0 (ix3 b n i)) n d := by
  rw [val_main_v44_apply, val_main_call0_v0_apply, val_main_call0_cst_apply, v43_at, Ideal.maximumf_def,
    Ideal.ofBits_def]
  unfold Cert.Spec.inProj
  simp only [h10, h11]

/-! ### The mean over the units -/

/-- The sum over the 8 units (started from the word of 0) divided by the word of 8 is the spec's `inMean`. -/
theorem inMean_ref (P : Cert.Spec.Params) (x0 : A S2048x8x512) (x10 : A S512x512) (x11 : A S512)
    (h10 : ∀ k i, x10 (ix2 k i) = P.ut_w (ix2 k i)) (h11 : ∀ k, x11 (ix1 k) = P.ut_b (ix1 k))
    (b : Fin 2048) (d : Fin 512) :
    val_main_v48 (F := Ideal) x0 x10 x11 (ix3 b (⟨0, Nat.one_pos⟩ : Fin 1) d)
      = Cert.Spec.inMean P (fun n i => x0 (ix3 b n i)) d := by
  rw [val_main_v48_apply, val_main_v46_apply, val_main_v47_apply, val_main_cst_4_apply, val_main_v45_apply,
    val_main_cst_3_apply, Ideal.hostDivf_def]
  simp only [Ideal.ofBits_def]
  rw [Ideal.ofBits_zero_f32, zero_add]
  have e : ∀ k : Fin 8, idx_main_v45 (idx_main_v46 (ix3 b (⟨0, Nat.one_pos⟩ : Fin 1) d)) k = ix3 b k d := fun k =>
    funext fun a => by match a with | ⟨0, _⟩ => rfl | ⟨1, _⟩ => rfl | ⟨2, _⟩ => rfl
  unfold Cert.Spec.inMean
  simp only [e, inProj_ref P x0 x10 x11 h10 h11]

/-! ### The gate input `mean + tanh mem` -/

theorem gateIn_ref (P : Cert.Spec.Params) (x0 x1 : A S2048x8x512) (x10 : A S512x512) (x11 : A S512)
    (h10 : ∀ k i, x10 (ix2 k i) = P.ut_w (ix2 k i)) (h11 : ∀ k, x11 (ix1 k) = P.ut_b (ix1 k))
    (b : Fin 2048) (s : Fin 8) (d : Fin 512) :
    val_main_v51 (F := Ideal) x0 x1 x10 x11 (ix3 b s d)
      = Cert.Spec.gateIn P (fun n i => x0 (ix3 b n i)) (fun n i => x1 (ix3 b n i)) s d := by
  rw [val_main_v51_apply, val_main_v50_apply, val_main_v49_apply, Ideal.addf_def, Ideal.hostUnary_tanh_def]
  have e : idx_main_v50 (ix3 b s d) = ix3 b (⟨0, Nat.one_pos⟩ : Fin 1) d :=
    funext fun a => by match a with | ⟨0, _⟩ => rfl | ⟨1, _⟩ => rfl | ⟨2, _⟩ => rfl
  rw [e, inMean_ref P x0 x10 x11 h10 h11]
  rfl

/-! ### The gates: `lin ug` through the logistic function -/

/-- The linear map `ug` applied to row `s` of the gate input, at gate column `j`. -/
theorem v55_at (x0 x1 : A S2048x8x512) (x10 : A S512x512) (x11 : A S512) (x12 : A S1024x512) (x13 : A S1024)
    (b : Fin 2048) (s : Fin 8) (j : Fin 1024) :
    val_main_v55 (F := Ideal) x0 x1 x10 x11 x12 x13 (ix3 b s j)
      = (∑ i : Fin 512, val_main_v51 (F := Ideal) x0 x1 x10 x11 (ix3 b s i) * x12 (ix2 j i)) + x13 (ix1 j) := by
  rw [val_main_v55_apply, val_main_v52_apply, val_main_v54_apply, val_main_v53_apply, Ideal.addf_def]
  have e1 : ∀ k : Fin 512, lidx_main_v52 (ix3 b s j) k = ix3 b s k := fun k =>
    funext fun a => by match a with | ⟨0, _⟩ => rfl | ⟨1, _⟩ => rfl | ⟨2, _⟩ => rfl
  have e2 : ∀ k : Fin 512, ridx_main_v52 (ix3 b s j) k = ix2 j k := fun k =>
    funext fun a => by match a with | ⟨0, _⟩ => rfl | ⟨1, _⟩ => rfl
  have e3 : idx_main_v53 (idx_main_v54 (ix3 b s j)) = ix1 j :=
    funext fun a => by match a with | ⟨0, _⟩ => rfl
  simp only [e1, e2, e3]

/-- `1 / (1 + exp (−x))`, with both ones the word `0x3F800000`, is the logistic function of the pre-activation:
    the spec's `gate`. -/
theorem gate_ref (P : Cert.Spec.Params) (x0 x1 : A S2048x8x512) (x10 : A S512x512) (x11 : A S512)
    (x12 : A S1024x512) (x13 : A S1024)
    (h10 : ∀ k i, x10 (ix2 k i) = P.ut_w (ix2 k i)) (h11 : ∀ k, x11 (ix1 k) = P.ut_b (ix1 k))
    (h12 : ∀ k i, x12 (ix2 k i) = P.ug_w (ix2 k i)) (h13 : ∀ k, x13 (ix1 k) = P.ug_b (ix1 k))
    (b : Fin 2048) (s : Fin 8) (j : Fin 1024) :
    val_main_v61 (F := Ideal) x0 x1 x10 x11 x12 x13 (ix3 b s j)
      = Cert.Spec.gate P (fun n i => x0 (ix3 b n i)) (fun n i => x1 (ix3 b n i)) s j := by
  rw [val_main_v61_apply, val_main_v60_apply, val_main_cst_6_apply, val_main_v59_apply, val_main_v58_apply,
    val_main_cst_5_apply, val_main_v57_apply, val_main_v56_apply, v55_at]
  simp only [Ideal.hostDivf_def, Ideal.ofBits_def, Ideal.addf_def, Ideal.hostUnary_exp_def, Ideal.hostNegf_def,
    Ideal.negf_def, one_word]
  unfold Cert.Spec.gate Ideal.logistic
  simp only [gateIn_ref P x0 x1 x10 x11 h10 h11, h12, h13]

/-! ### The new memory -/

/-- The reference's gated update at batch element `b` is the spec's `memNew`, given that the write attention's
    result there is the spec's `memWrite`. -/
theorem memNew_ref_of (P : Cert.Spec.Params) (x0 x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024)
    (h10 : ∀ k i, x10 (ix2 k i) = P.ut_w (ix2 k i)) (h11 : ∀ k, x11 (ix1 k) = P.ut_b (ix1 k))
    (h12 : ∀ k i, x12 (ix2 k i) = P.ug_w (ix2 k i)) (h13 : ∀ k, x13 (ix1 k) = P.ug_b (ix1 k))
    (b : Fin 2048)
    (hw : ∀ (s : Fin 8) (d : Fin 512), val_main_v39 (F := Ideal) x0 x1 x2 x3 x4 x5 x6 x7 x8 x9 (ix3 b s d)
        = Cert.Spec.memWrite P (fun n i => x0 (ix3 b n i)) (fun n i => x1 (ix3 b n i)) s d)
    (s : Fin 8) (d : Fin 512) :
    val_main_v67 (F := Ideal) x0 x1 x2 x3 x4 x5 x6 x7 x8 x9 x10 x11 x12 x13 (ix3 b s d)
      = Cert.Spec.memNew P (fun n i => x0 (ix3 b n i)) (fun n i => x1 (ix3 b n i)) s d := by
  rw [val_main_v67_apply, val_main_v65_apply, val_main_v66_apply, val_main_v62_apply, val_main_v63_apply,
    val_main_v64_apply, hw]
  simp only [Ideal.addf_def, Ideal.mulf_def, Ideal.hostUnary_tanh_def]
  have e62 : idx_main_v62 (ix3 b s d)
      = ix3 b s (⟨d.val, by have := d.isLt; omega⟩ : Fin 1024) :=
    funext fun a => by match a with | ⟨0, _⟩ => rfl | ⟨1, _⟩ => rfl | ⟨2, _⟩ => rfl
  have e63 : idx_main_v63 (ix3 b s d)
      = ix3 b s (⟨512 + d.val, by have := d.isLt; omega⟩ : Fin 1024) :=
    funext fun a => by match a with | ⟨0, _⟩ => rfl | ⟨1, _⟩ => rfl | ⟨2, _⟩ => rfl
  rw [e62, e63, gate_ref P x0 x1 x10 x11 x12 x13 h10 h11 h12 h13, gate_ref P x0 x1 x10 x11 x12 x13 h10 h11 h12 h13]
  rfl

end Cert.RefSide

end
-- ==== Proof.RefRead.lean ====
/-
  The reference's read attention, read at an index of one batch element `b`.

  The reference projects `hs` through `rq` and the new memory through `rk`, `rv` as three matrices of 128, 128 and 2048
  columns, reshapes the columns into (head, key) — column `32 h + k` is head `h`'s key `k`, column `512 h + d` its value
  `d` — and transposes the head axis in front of the row axis. Per head the scores are `⟨q, k⟩` divided by the word of
  `11863283 / 2097152`, which is the product with the reciprocal `SCALE`; a softmax over the 8 slots and the product with
  the values give the head's context; the four contexts are laid side by side again (column `512 h + d`) and projected
  through `ro` in one product over all 2048 columns. Each stage below is the reference's term read at explicit
  coordinates and identified with the specification's function of the same name.
-/
import proofs.«106064_j9835475108028_1_alg».proof.Proof.Spec
import proofs.«106064_j9835475108028_1_alg».proof.Proof.RefTypes
import proofs.«106064_j9835475108028_1_alg».proof.Proof.Gen.ReferenceIdeal.Read
import Idealize.ShloMosaic.Lib.ValueIdx
import Idealize.ShloMosaic.Lib.Pipeline.Value
import Idealize.ShloMosaic.PureOps.Reduce
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-! ### Two indices with the same coordinates are equal -/

theorem idx1_ext {n0 : Nat} (i j : (⟨1, ![n0]⟩ : Shape).Idx) (h0 : (i 0).val = (j 0).val) : i = j := by
  funext a; apply Fin.ext
  match a with
  | ⟨0, _⟩ => exact h0

theorem idx2_ext {n0 n1 : Nat} (i j : (⟨2, ![n0, n1]⟩ : Shape).Idx) (h0 : (i 0).val = (j 0).val) (h1 : (i 1).val = (j 1).val) :
    i = j := by
  funext a; apply Fin.ext
  match a with
  | ⟨0, _⟩ => exact h0
  | ⟨1, _⟩ => exact h1

theorem idx3_ext {n0 n1 n2 : Nat} (i j : (⟨3, ![n0, n1, n2]⟩ : Shape).Idx) (h0 : (i 0).val = (j 0).val)
    (h1 : (i 1).val = (j 1).val) (h2 : (i 2).val = (j 2).val) : i = j := by
  funext a; apply Fin.ext
  match a with
  | ⟨0, _⟩ => exact h0
  | ⟨1, _⟩ => exact h1
  | ⟨2, _⟩ => exact h2

theorem idx4_ext {n0 n1 n2 n3 : Nat} (i j : (⟨4, ![n0, n1, n2, n3]⟩ : Shape).Idx) (h0 : (i 0).val = (j 0).val)
    (h1 : (i 1).val = (j 1).val) (h2 : (i 2).val = (j 2).val) (h3 : (i 3).val = (j 3).val) : i = j := by
  funext a; apply Fin.ext
  match a with
  | ⟨0, _⟩ => exact h0
  | ⟨1, _⟩ => exact h1
  | ⟨2, _⟩ => exact h2
  | ⟨3, _⟩ => exact h3

/-! ### Columns of the three projections -/

/-- Column `32 h + k` of the query and key projections: head `h`'s key coordinate `k`. -/
abbrev col32 (hd : Fin 4) (k : Fin 32) : Fin 128 := ⟨32 * hd.val + k.val, by have := hd.isLt; have := k.isLt; omega⟩
/-- Column `512 h + d` of the value projection and of the output projection's input: head `h`'s value coordinate `d`. -/
abbrev col512 (hd : Fin 4) (d : Fin 512) : Fin 2048 := ⟨512 * hd.val + d.val, by have := hd.isLt; have := d.isLt; omega⟩

/-! ### The divisor of the scores -/

/-- The word `0x40B504F3` is `11863283 / 2097152`: significand `2^23 + 3474675`, exponent `129 - 127 - 23`. -/
theorem scale_word : Ideal.ofBits .f32 0x40B504F3#32 = ((11863283 / 2097152 : ℝ) : EReal) := by
  have h : Ideal.ofBits .f32 0x40B504F3#32
      = (((1 : ℝ) * ((2 ^ 23 + 3474675 : Nat) : ℝ) * (2 : ℝ) ^ ((129 : Int) - (2 ^ (8 - 1) - 1) - 23) : ℝ) : EReal) := by
    simp [Ideal.ofBits, Ideal.ieee]
  rw [h]
  congr 1
  norm_num

/-- Dividing by that word is multiplying by its reciprocal, the specification's `SCALE`. -/
theorem div_scale (x : EReal) : Ideal.div x (Ideal.ofBits .f32 0x40B504F3#32) = x * Cert.Spec.SCALE := by
  rw [scale_word, Ideal.div_coe (by norm_num)]
  have e : (1 / (11863283 / 2097152) : ℝ) = 2097152 / 11863283 := by norm_num
  rw [e]

/-! ### The query projection (operations 68 to 73) -/

theorem v71_at (x0 : A S2048x8x512) (x14 : A S128x512) (x15 : A S128) (b : Fin 2048) (n : Fin 8) (c : Fin 128) :
    val_main_v71 (F := Ideal) x0 x14 x15 (ix3 b n c) = (∑ i : Fin 512, x0 (ix3 b n i) * x14 (ix2 c i)) + x15 (ix1 c) := by
  rw [val_main_v71_apply, val_main_v68_apply, val_main_v70_apply, val_main_v69_apply, Ideal.addf_def]
  refine congrArg₂ (· + ·) (Finset.sum_congr rfl fun i _ => ?_) ?_
  · rw [show lidx_main_v68 (ix3 b n c) i = ix3 b n i from idx3_ext _ _ rfl rfl rfl,
      show ridx_main_v68 (ix3 b n c) i = ix2 c i from idx2_ext _ _ rfl rfl]
  · exact congrArg x15 (idx1_ext _ _ rfl)

theorem idx_72_73 (b : Fin 2048) (hd : Fin 4) (n : Fin 8) (k : Fin 32) :
    idx_main_v72 (idx_main_v73 (ix4 b hd n k)) = ix3 b n (col32 hd k) := by
  have hb := b.isLt; have hh := hd.isLt; have hn := n.isLt; have hk := k.isLt
  refine idx3_ext _ _ ?_ ?_ ?_
  · show (((b.val * 8 + n.val) * 4 + hd.val) * 32 + k.val) / 1024 = b.val; omega
  · show (((b.val * 8 + n.val) * 4 + hd.val) * 32 + k.val) / 128 % 8 = n.val; omega
  · show (((b.val * 8 + n.val) * 4 + hd.val) * 32 + k.val) % 128 = 32 * hd.val + k.val; omega

/-- Head `hd`'s queries: the reshaped and transposed projection at (b, hd, n, k) is column `32 hd + k` of row `n`. -/
theorem v73_at (P : Cert.Spec.Params) (x0 : A S2048x8x512) (x14 : A S128x512) (x15 : A S128) (h14 : ∀ k i, x14 (ix2 k i) = P.rq_w (ix2 k i)) (h15 : ∀ k, x15 (ix1 k) = P.rq_b (ix1 k)) (b : Fin 2048) (hd : Fin 4) (n : Fin 8) (k : Fin 32) :
    val_main_v73 (F := Ideal) x0 x14 x15 (ix4 b hd n k) = Cert.Spec.rq P (fun n i => x0 (ix3 b n i)) hd.val hd.isLt n k := by
  rw [val_main_v73_apply, val_main_v72_apply, idx_72_73, v71_at, h15]
  unfold Cert.Spec.rq
  refine congrArg (· + _) (Finset.sum_congr rfl fun i _ => ?_)
  rw [h14]

/-! ### The key projection of the new memory (operations 74 to 79) -/

theorem v77_at (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x16 : A S128x512) (x17 : A S128) (b : Fin 2048) (s : Fin 8) (c : Fin 128) :
    val_main_v77 (F := Ideal) x0 x1 x2 x3 x4 x5 x6 x7 x8 x9 x10 x11 x12 x13 x16 x17 (ix3 b s c)
      = (∑ i : Fin 512, val_main_v67 (F := Ideal) x0 x1 x2 x3 x4 x5 x6 x7 x8 x9 x10 x11 x12 x13 (ix3 b s i) * x16 (ix2 c i)) + x17 (ix1 c) := by
  rw [val_main_v77_apply, val_main_v74_apply, val_main_v76_apply, val_main_v75_apply, Ideal.addf_def]
  refine congrArg₂ (· + ·) (Finset.sum_congr rfl fun i _ => ?_) ?_
  · rw [show lidx_main_v74 (ix3 b s c) i = ix3 b s i from idx3_ext _ _ rfl rfl rfl,
      show ridx_main_v74 (ix3 b s c) i = ix2 c i from idx2_ext _ _ rfl rfl]
  · exact congrArg x17 (idx1_ext _ _ rfl)

theorem idx_78_79 (b : Fin 2048) (hd : Fin 4) (s : Fin 8) (k : Fin 32) :
    idx_main_v78 (idx_main_v79 (ix4 b hd s k)) = ix3 b s (col32 hd k) := by
  have hb := b.isLt; have hh := hd.isLt; have hn := s.isLt; have hk := k.isLt
  refine idx3_ext _ _ ?_ ?_ ?_
  · show (((b.val * 8 + s.val) * 4 + hd.val) * 32 + k.val) / 1024 = b.val; omega
  · show (((b.val * 8 + s.val) * 4 + hd.val) * 32 + k.val) / 128 % 8 = s.val; omega
  · show (((b.val * 8 + s.val) * 4 + hd.val) * 32 + k.val) % 128 = 32 * hd.val + k.val; omega

/-- Head `hd`'s keys. -/
theorem v79_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x16 : A S128x512) (x17 : A S128) (h16 : ∀ k i, x16 (ix2 k i) = P.rk_w (ix2 k i)) (h17 : ∀ k, x17 (ix1 k) = P.rk_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (s : Fin 8) (k : Fin 32) :
    val_main_v79 (F := Ideal) x0 x1 x2 x3 x4 x5 x6 x7 x8 x9 x10 x11 x12 x13 x16 x17 (ix4 b hd s k) = Cert.Spec.rk P (fun n i => x0 (ix3 b n i)) (fun n i => x1 (ix3 b n i)) hd.val hd.isLt s k := by
  rw [val_main_v79_apply, val_main_v78_apply, idx_78_79, v77_at, h17]
  unfold Cert.Spec.rk
  refine congrArg (· + _) (Finset.sum_congr rfl fun i _ => ?_)
  rw [h16, hm]

/-! ### The value projection of the new memory (operations 80 to 85) -/

theorem v83_at (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x18 : A S2048x512) (x19 : A S2048) (b : Fin 2048) (s : Fin 8) (c : Fin 2048) :
    val_main_v83 (F := Ideal) x0 x1 x2 x3 x4 x5 x6 x7 x8 x9 x10 x11 x12 x13 x18 x19 (ix3 b s c)
      = (∑ i : Fin 512, val_main_v67 (F := Ideal) x0 x1 x2 x3 x4 x5 x6 x7 x8 x9 x10 x11 x12 x13 (ix3 b s i) * x18 (ix2 c i)) + x19 (ix1 c) := by
  rw [val_main_v83_apply, val_main_v80_apply, val_main_v82_apply, val_main_v81_apply, Ideal.addf_def]
  refine congrArg₂ (· + ·) (Finset.sum_congr rfl fun i _ => ?_) ?_
  · rw [show lidx_main_v80 (ix3 b s c) i = ix3 b s i from idx3_ext _ _ rfl rfl rfl,
      show ridx_main_v80 (ix3 b s c) i = ix2 c i from idx2_ext _ _ rfl rfl]
  · exact congrArg x19 (idx1_ext _ _ rfl)

theorem idx_84_85 (b : Fin 2048) (hd : Fin 4) (s : Fin 8) (d : Fin 512) :
    idx_main_v84 (idx_main_v85 (ix4 b hd s d)) = ix3 b s (col512 hd d) := by
  have hb := b.isLt; have hh := hd.isLt; have hn := s.isLt; have hk := d.isLt
  refine idx3_ext _ _ ?_ ?_ ?_
  · show (((b.val * 8 + s.val) * 4 + hd.val) * 512 + d.val) / 16384 = b.val; omega
  · show (((b.val * 8 + s.val) * 4 + hd.val) * 512 + d.val) / 2048 % 8 = s.val; omega
  · show (((b.val * 8 + s.val) * 4 + hd.val) * 512 + d.val) % 2048 = 512 * hd.val + d.val; omega

/-- Head `hd`'s values. -/
theorem v85_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x18 : A S2048x512) (x19 : A S2048) (h18 : ∀ k i, x18 (ix2 k i) = P.rv_w (ix2 k i)) (h19 : ∀ k, x19 (ix1 k) = P.rv_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (s : Fin 8) (d : Fin 512) :
    val_main_v85 (F := Ideal) x0 x1 x2 x3 x4 x5 x6 x7 x8 x9 x10 x11 x12 x13 x18 x19 (ix4 b hd s d) = Cert.Spec.rv P (fun n i => x0 (ix3 b n i)) (fun n i => x1 (ix3 b n i)) hd.val hd.isLt s d := by
  rw [val_main_v85_apply, val_main_v84_apply, idx_84_85, v83_at, h19]
  unfold Cert.Spec.rv
  refine congrArg (· + _) (Finset.sum_congr rfl fun i _ => ?_)
  rw [h18, hm]

/-! ### The scores (operations 86 to 88) -/

theorem v88_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (n s : Fin 8) :
    val_main_v88 (F := Ideal) x0 x1 x2 x3 x4 x5 x6 x7 x8 x9 x10 x11 x12 x13 x14 x15 x16 x17 (ix4 b hd n s) = Cert.Spec.rscore P (fun n i => x0 (ix3 b n i)) (fun n i => x1 (ix3 b n i)) hd.val hd.isLt n s := by
  rw [val_main_v88_apply, val_main_v87_apply, val_main_cst_7_apply, Ideal.hostDivf_def, Ideal.ofBits_def, div_scale,
    val_main_v86_apply]
  unfold Cert.Spec.rscore
  refine congrArg (· * Cert.Spec.SCALE) (Finset.sum_congr rfl fun k _ => ?_)
  rw [show lidx_main_v86 (ix4 b hd n s) k = ix4 b hd n k from idx4_ext _ _ rfl rfl rfl rfl,
    show ridx_main_v86 (ix4 b hd n s) k = ix4 b hd s k from idx4_ext _ _ rfl rfl rfl rfl,
    v73_at P x0 x14 x15 h14 h15 b, v79_at P x0 x1 x2 x3 x4 x5 x6 x7 x8 x9 x10 x11 x12 x13 x16 x17 h16 h17 b hm]

/-! ### The softmax over the 8 slots (operations 89 to 99) -/

/-- A reduced index (b, hd, n) with slot `k` put back on the last axis. -/
theorem lift_ix3 (h : S2048x4x8x8.Reduces [3] S2048x4x8) (j0 : Fin 2048) (j1 : Fin 4) (j2 : Fin 8)
    (k : Fin (S2048x4x8x8.size 3)) : h.lift (ix3 j0 j1 j2) k = ix4 j0 j1 j2 (⟨k.val, k.isLt⟩ : Fin 8) := by
  funext c; apply Fin.ext
  match c with
  | ⟨0, _⟩ => rfl
  | ⟨1, _⟩ => rfl
  | ⟨2, _⟩ => rfl
  | ⟨3, _⟩ => rfl

/-- The running maximum from −∞ over the slots, capped below by −∞ once more: the specification's `rowMax` of the score row. -/
theorem v91_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (n : Fin 8) :
    val_main_v91 (F := Ideal) x0 x1 x2 x3 x4 x5 x6 x7 x8 x9 x10 x11 x12 x13 x14 x15 x16 x17 (ix3 b hd n) = Cert.Spec.rowMax (Cert.Spec.rscore P (fun n i => x0 (ix3 b n i)) (fun n i => x1 (ix3 b n i)) hd.val hd.isLt n) := by
  have hR : S2048x4x8x8.Reduces [3] S2048x4x8 := by decide
  rw [val_main_v91_apply, val_main_v90_apply, val_main_cst_9_apply, Ideal.ofBits_def, Ideal.maximumf_def]
  unfold val_main_v89
  rw [Host.reduce_eq_fold_single (FloatOps.maximumf (F := Ideal) (φ := .f32))
    (val_main_v88 (F := Ideal) x0 x1 x2 x3 x4 x5 x6 x7 x8 x9 x10 x11 x12 x13 x14 x15 x16 x17) _ reducesTo_S2048x4x8x8_S2048x4x8_d3 hR h_S_]
  have hf : (val_main_v88 (F := Ideal) x0 x1 x2 x3 x4 x5 x6 x7 x8 x9 x10 x11 x12 x13 x14 x15 x16 x17 ∘ hR.lift (ix3 b hd n))
      = fun s : Fin 8 => Cert.Spec.rscore P (fun n i => x0 (ix3 b n i)) (fun n i => x1 (ix3 b n i)) hd.val hd.isLt n s :=
    funext fun k => (congrArg (val_main_v88 (F := Ideal) x0 x1 x2 x3 x4 x5 x6 x7 x8 x9 x10 x11 x12 x13 x14 x15 x16 x17) (lift_ix3 hR b hd n k)).trans
      (v88_at P x0 x1 x2 x3 x4 x5 x6 x7 x8 x9 x10 x11 x12 x13 x14 x15 x16 x17 h14 h15 h16 h17 b hm hd n _)
  exact congrArg (fun f => max Cert.Spec.NEG (Finset.fold max Cert.Spec.NEG f (Finset.univ : Finset (Fin 8)))) hf

theorem v95_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (n s : Fin 8) :
    val_main_v95 (F := Ideal) x0 x1 x2 x3 x4 x5 x6 x7 x8 x9 x10 x11 x12 x13 x14 x15 x16 x17 (ix4 b hd n s)
      = Ideal.exp (Cert.Spec.rscore P (fun n i => x0 (ix3 b n i)) (fun n i => x1 (ix3 b n i)) hd.val hd.isLt n s - Cert.Spec.rowMax (Cert.Spec.rscore P (fun n i => x0 (ix3 b n i)) (fun n i => x1 (ix3 b n i)) hd.val hd.isLt n)) := by
  rw [val_main_v95_apply, Ideal.hostUnary_exp_def, val_main_v94_apply, Ideal.subf_def, val_main_v93_apply, val_main_v92_apply,
    show idx_main_v92 (idx_main_v93 (ix4 b hd n s)) = ix3 b hd n from idx3_ext _ _ rfl rfl rfl,
    v88_at P x0 x1 x2 x3 x4 x5 x6 x7 x8 x9 x10 x11 x12 x13 x14 x15 x16 x17 h14 h15 h16 h17 b hm, v91_at P x0 x1 x2 x3 x4 x5 x6 x7 x8 x9 x10 x11 x12 x13 x14 x15 x16 x17 h14 h15 h16 h17 b hm]

theorem v96_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (n : Fin 8) :
    val_main_v96 (F := Ideal) x0 x1 x2 x3 x4 x5 x6 x7 x8 x9 x10 x11 x12 x13 x14 x15 x16 x17 (ix3 b hd n)
      = ∑ s : Fin 8, Ideal.exp (Cert.Spec.rscore P (fun n i => x0 (ix3 b n i)) (fun n i => x1 (ix3 b n i)) hd.val hd.isLt n s - Cert.Spec.rowMax (Cert.Spec.rscore P (fun n i => x0 (ix3 b n i)) (fun n i => x1 (ix3 b n i)) hd.val hd.isLt n)) := by
  rw [val_main_v96_apply, val_main_cst_10_apply, Ideal.ofBits_def, Ideal.ofBits_zero_f32, zero_add]
  refine Finset.sum_congr rfl fun s _ => ?_
  rw [show idx_main_v96 (ix3 b hd n) s = ix4 b hd n s from idx4_ext _ _ rfl rfl rfl rfl,
    v95_at P x0 x1 x2 x3 x4 x5 x6 x7 x8 x9 x10 x11 x12 x13 x14 x15 x16 x17 h14 h15 h16 h17 b hm]

/-- The attention weights of head `hd`. -/
theorem v99_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (n s : Fin 8) :
    val_main_v99 (F := Ideal) x0 x1 x2 x3 x4 x5 x6 x7 x8 x9 x10 x11 x12 x13 x14 x15 x16 x17 (ix4 b hd n s) = Cert.Spec.rprob P (fun n i => x0 (ix3 b n i)) (fun n i => x1 (ix3 b n i)) hd.val hd.isLt n s := by
  rw [val_main_v99_apply, Ideal.hostDivf_def, val_main_v98_apply, val_main_v97_apply,
    show idx_main_v97 (idx_main_v98 (ix4 b hd n s)) = ix3 b hd n from idx3_ext _ _ rfl rfl rfl,
    v95_at P x0 x1 x2 x3 x4 x5 x6 x7 x8 x9 x10 x11 x12 x13 x14 x15 x16 x17 h14 h15 h16 h17 b hm, v96_at P x0 x1 x2 x3 x4 x5 x6 x7 x8 x9 x10 x11 x12 x13 x14 x15 x16 x17 h14 h15 h16 h17 b hm]
  rfl

/-! ### The contexts (operations 100 to 102) -/

theorem v100_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (x18 : A S2048x512) (x19 : A S2048) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (h18 : ∀ k i, x18 (ix2 k i) = P.rv_w (ix2 k i)) (h19 : ∀ k, x19 (ix1 k) = P.rv_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (hd : Fin 4) (n : Fin 8) (d : Fin 512) :
    val_main_v100 (F := Ideal) x0 x1 x2 x3 x4 x5 x6 x7 x8 x9 x10 x11 x12 x13 x14 x15 x16 x17 x18 x19 (ix4 b hd n d) = Cert.Spec.rctx P (fun n i => x0 (ix3 b n i)) (fun n i => x1 (ix3 b n i)) hd.val hd.isLt n d := by
  rw [val_main_v100_apply]
  unfold Cert.Spec.rctx
  refine Finset.sum_congr rfl fun s _ => ?_
  rw [show lidx_main_v100 (ix4 b hd n d) s = ix4 b hd n s from idx4_ext _ _ rfl rfl rfl rfl,
    show ridx_main_v100 (ix4 b hd n d) s = ix4 b hd s d from idx4_ext _ _ rfl rfl rfl rfl,
    v99_at P x0 x1 x2 x3 x4 x5 x6 x7 x8 x9 x10 x11 x12 x13 x14 x15 x16 x17 h14 h15 h16 h17 b hm, v85_at P x0 x1 x2 x3 x4 x5 x6 x7 x8 x9 x10 x11 x12 x13 x18 x19 h18 h19 b hm]

/-- Column `j` of the contexts laid side by side is head `j / 512`'s coordinate `j % 512`. -/
theorem idx_101_102 (b : Fin 2048) (n : Fin 8) (j : Fin 2048) :
    idx_main_v101 (idx_main_v102 (ix3 b n j))
      = ix4 b (⟨j.val / 512, by have := j.isLt; omega⟩ : Fin 4) n (⟨j.val % 512, Nat.mod_lt _ (by omega)⟩ : Fin 512) := by
  have hb := b.isLt; have hn := n.isLt; have hj := j.isLt
  refine idx4_ext _ _ ?_ ?_ ?_ ?_
  · show ((b.val * 8 + n.val) * 2048 + j.val) / 16384 = b.val; omega
  · show ((b.val * 8 + n.val) * 2048 + j.val) / 512 % 4 = j.val / 512; omega
  · show ((b.val * 8 + n.val) * 2048 + j.val) / 2048 % 8 = n.val; omega
  · show ((b.val * 8 + n.val) * 2048 + j.val) % 512 = j.val % 512; omega

theorem v102_at (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (x18 : A S2048x512) (x19 : A S2048) (h14 : ∀ k i, x14 (ix2 k i) = P.rq_w (ix2 k i)) (h15 : ∀ k, x15 (ix1 k) = P.rq_b (ix1 k)) (h16 : ∀ k i, x16 (ix2 k i) = P.rk_w (ix2 k i)) (h17 : ∀ k, x17 (ix1 k) = P.rk_b (ix1 k)) (h18 : ∀ k i, x18 (ix2 k i) = P.rv_w (ix2 k i)) (h19 : ∀ k, x19 (ix1 k) = P.rv_b (ix1 k)) (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (n : Fin 8) (j : Fin 2048) :
    val_main_v102 (F := Ideal) x0 x1 x2 x3 x4 x5 x6 x7 x8 x9 x10 x11 x12 x13 x14 x15 x16 x17 x18 x19 (ix3 b n j) = Cert.Spec.rctxCat P (fun n i => x0 (ix3 b n i)) (fun n i => x1 (ix3 b n i)) n j := by
  rw [val_main_v102_apply, val_main_v101_apply, idx_101_102,
    v100_at P x0 x1 x2 x3 x4 x5 x6 x7 x8 x9 x10 x11 x12 x13 x14 x15 x16 x17 x18 x19 h14 h15 h16 h17 h18 h19 b hm]
  rfl

/-! ### The output projection and the residual (operations 103 to 107) -/

theorem hOut_ref_of (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (x18 : A S2048x512) (x19 : A S2048) (x20 : A S512x2048) (x21 : A S512)
    (h14 : ∀ k i, x14 (ix2 k i) = P.rq_w (ix2 k i)) (h15 : ∀ k, x15 (ix1 k) = P.rq_b (ix1 k))
    (h16 : ∀ k i, x16 (ix2 k i) = P.rk_w (ix2 k i)) (h17 : ∀ k, x17 (ix1 k) = P.rk_b (ix1 k))
    (h18 : ∀ k i, x18 (ix2 k i) = P.rv_w (ix2 k i)) (h19 : ∀ k, x19 (ix1 k) = P.rv_b (ix1 k))
    (h20 : ∀ k i, x20 (ix2 k i) = P.ro_w (ix2 k i)) (h21 : ∀ k, x21 (ix1 k) = P.ro_b (ix1 k))
    (b : Fin 2048)
    (hm : ∀ (s : Fin 8) (d : Fin 512), val_main_v67 (F := Ideal) x0 x1 x2 x3 x4 x5 x6 x7 x8 x9 x10 x11 x12 x13 (ix3 b s d)
        = Cert.Spec.memNew P (fun n i => x0 (ix3 b n i)) (fun n i => x1 (ix3 b n i)) s d)
    (n : Fin 8) (o : Fin 512) :
    val_main_v107 (F := Ideal) x0 x1 x2 x3 x4 x5 x6 x7 x8 x9 x10 x11 x12 x13 x14 x15 x16 x17 x18 x19 x20 x21 (ix3 b n o)
      = Cert.Spec.hOutRef P (fun n i => x0 (ix3 b n i)) (fun n i => x1 (ix3 b n i)) n o := by
  rw [val_main_v107_apply, val_main_v106_apply, val_main_v103_apply, val_main_v105_apply, val_main_v104_apply,
    Ideal.addf_def, Ideal.addf_def,
    show idx_main_v104 (idx_main_v105 (ix3 b n o)) = ix1 o from idx1_ext _ _ rfl, h21]
  unfold Cert.Spec.hOutRef
  refine congrArg (fun t => x0 (ix3 b n o) + (t + P.ro_b (ix1 o))) (Finset.sum_congr rfl fun j _ => ?_)
  rw [show lidx_main_v103 (ix3 b n o) j = ix3 b n j from idx3_ext _ _ rfl rfl rfl,
    show ridx_main_v103 (ix3 b n o) j = ix2 o j from idx2_ext _ _ rfl rfl,
    v102_at P x0 x1 x2 x3 x4 x5 x6 x7 x8 x9 x10 x11 x12 x13 x14 x15 x16 x17 x18 x19 h14 h15 h16 h17 h18 h19 b hm, h20]

end Cert.RefSide

end
-- ==== Proof.SpecAlgebra.lean ====
import proofs.«106064_j9835475108028_1_alg».proof.Proof.Spec
import Idealize.ShloMosaic.PureOps.Ideal.Laws
import Mathlib.Algebra.BigOperators.Group.Finset.Defs
import Mathlib.Algebra.BigOperators.Fin
import Mathlib.Data.Fintype.BigOperators

/-!
  The reference's single product over all 2048 columns is the four heads' contributions added in order.

  A column `j < 2048` is `512 h + d` for exactly one head `h < 4` and one `d < 512`. A sum over the 2048 columns is
  therefore the sum over the heads of the sums over `d`; at column `512 h + d` the reference's side-by-side layout
  `rctxCat` holds head `h`'s context at `d`, so head `h`'s inner sum is its `contrib`. What remains is that a sum of four
  terms is the four added one after the other onto 0, and one use of associativity to move the bias outside.
-/

noncomputable section
namespace Cert.Spec
open Idealize.ShloMosaic Idealize.ShloMosaic.ValueIdx

/-- Column `512 h + d` from the head `h` and the position `d` within the head: a bijection onto the 2048 columns. -/
def splitEquiv : Fin 4 × Fin 512 ≃ Fin 2048 where
  toFun p := ⟨512 * p.1.val + p.2.val, by have := p.1.isLt; have := p.2.isLt; omega⟩
  invFun j := (⟨j.val / 512, by have := j.isLt; omega⟩, ⟨j.val % 512, Nat.mod_lt _ (by omega)⟩)
  left_inv := by
    rintro ⟨⟨h, hh⟩, ⟨d, hd⟩⟩
    refine Prod.ext (Fin.ext ?_) (Fin.ext ?_)
    · show (512 * h + d) / 512 = h
      omega
    · show (512 * h + d) % 512 = d
      omega
  right_inv := by
    rintro ⟨j, hj⟩
    refine Fin.ext ?_
    show 512 * (j / 512) + j % 512 = j
    omega

/-- A sum over the 2048 columns, head by head. -/
theorem sum_split (f : Fin 2048 → EReal) :
    ∑ j : Fin 2048, f j = ∑ h : Fin 4, ∑ d : Fin 512, f (splitEquiv (h, d)) := by
  rw [← Equiv.sum_comp splitEquiv f, Fintype.sum_prod_type]

/-- A sum over the four heads, written out in order. -/
theorem sum_fin4 (g : Fin 4 → EReal) :
    ∑ h : Fin 4, g h = g ⟨0, by omega⟩ + g ⟨1, by omega⟩ + g ⟨2, by omega⟩ + g ⟨3, by omega⟩ :=
  Fin.sum_univ_four g

variable (P : Params) (hs mem : Fin 8 → Fin 512 → EReal)

/-- A head's context depends on the head's number and the position only, not on how they are presented. -/
theorem rctx_congr (h h' : ℕ) (hh : h < 4) (hh' : h' < 4) (e : h = h') (n : Fin 8) (d d' : Fin 512) (ed : d = d') :
    rctx P hs mem h hh n d = rctx P hs mem h' hh' n d' := by
  subst e
  subst ed
  rfl

/-- The word of 0 is the number zero. -/
theorem ZERO_eq : ZERO = 0 := Ideal.ofBits_zero_f32

/-- Head `h`'s share of the product over all columns is its contribution. -/
theorem head_sum (h : ℕ) (hh : h < 4) (n : Fin 8) (o : Fin 512) :
    ∑ d : Fin 512, rctxCat P hs mem n (splitEquiv (⟨h, hh⟩, d)) * P.ro_w (ix2 o (splitEquiv (⟨h, hh⟩, d)))
      = contrib P hs mem h hh n o := by
  unfold contrib
  refine Finset.sum_congr rfl fun d _ => ?_
  have hd := d.isLt
  have e1 : (splitEquiv (⟨h, hh⟩, d)).val / 512 = h := by
    show (512 * h + d.val) / 512 = h
    omega
  have e2 : (⟨(splitEquiv (⟨h, hh⟩, d)).val % 512, Nat.mod_lt _ (by omega)⟩ : Fin 512) = d :=
    Fin.ext (by
      show (512 * h + d.val) % 512 = d.val
      omega)
  have hl : rctxCat P hs mem n (splitEquiv (⟨h, hh⟩, d)) = rctx P hs mem h hh n d :=
    rctx_congr P hs mem _ h _ hh e1 n _ d e2
  have hr : ix2 o (splitEquiv (⟨h, hh⟩, d)) = ix2 o (⟨512 * h + d.val, by omega⟩ : Fin 2048) := rfl
  rw [hl, hr]

end Cert.Spec

/-- The reference's one product over all 2048 columns is the kernel's four heads added in order. -/
theorem Cert.Spec.hOutRef_eq_hOut (P : Cert.Spec.Params) (hs mem : Fin 8 → Fin 512 → EReal) (n : Fin 8) (o : Fin 512) :
    Cert.Spec.hOutRef P hs mem n o = Cert.Spec.hOut P hs mem n o := by
  have hsum : (∑ j : Fin 2048, Cert.Spec.rctxCat P hs mem n j * P.ro_w (Idealize.ShloMosaic.ValueIdx.ix2 o j))
      = Cert.Spec.contrib P hs mem 0 (by omega) n o + Cert.Spec.contrib P hs mem 1 (by omega) n o
        + Cert.Spec.contrib P hs mem 2 (by omega) n o + Cert.Spec.contrib P hs mem 3 (by omega) n o := by
    rw [Cert.Spec.sum_split, Cert.Spec.sum_fin4, Cert.Spec.head_sum, Cert.Spec.head_sum, Cert.Spec.head_sum,
      Cert.Spec.head_sum]
  unfold Cert.Spec.hOutRef Cert.Spec.hOut
  rw [hsum, Cert.Spec.ZERO_eq, zero_add]
  exact (add_assoc _ _ _).symm

end
-- ==== Proof.RefArrays.lean ====
/-
  The reference's two results as functions of the argument arrays: row `B` of each is the specification of row `B` of
  the data and the weights — the write attention, then the gated update, then the read attention, whose one product
  over all 2048 value columns is the four heads' contributions added in order.
-/
import proofs.«106064_j9835475108028_1_alg».proof.Proof.RefWrite
import proofs.«106064_j9835475108028_1_alg».proof.Proof.RefUpdate
import proofs.«106064_j9835475108028_1_alg».proof.Proof.RefRead
import proofs.«106064_j9835475108028_1_alg».proof.Proof.SpecAlgebra

noncomputable section

namespace Cert.RefSide

open Cert.ReferenceIdeal Cert.ReferenceIdeal.Read Idealize.ShloMosaic Idealize.ShloMosaic.ValueIdx

variable (P : Cert.Spec.Params) (x0 : A S2048x8x512) (x1 : A S2048x8x512) (x2 : A S32x512) (x3 : A S32) (x4 : A S32x512) (x5 : A S32) (x6 : A S512x512) (x7 : A S512) (x8 : A S512x512) (x9 : A S512) (x10 : A S512x512) (x11 : A S512) (x12 : A S1024x512) (x13 : A S1024) (x14 : A S128x512) (x15 : A S128) (x16 : A S128x512) (x17 : A S128) (x18 : A S2048x512) (x19 : A S2048) (x20 : A S512x2048) (x21 : A S512)

/-- The updated memory the reference returns, at row `b`. -/
theorem memNew_at (h2 : ∀ (p : Fin 32) (q : Fin 512), x2 (ix2 p q) = P.wq_w (ix2 p q)) (h3 : ∀ p : Fin 32, x3 (ix1 p) = P.wq_b (ix1 p)) (h4 : ∀ (p : Fin 32) (q : Fin 512), x4 (ix2 p q) = P.wk_w (ix2 p q)) (h5 : ∀ p : Fin 32, x5 (ix1 p) = P.wk_b (ix1 p)) (h6 : ∀ (p : Fin 512) (q : Fin 512), x6 (ix2 p q) = P.wv_w (ix2 p q)) (h7 : ∀ p : Fin 512, x7 (ix1 p) = P.wv_b (ix1 p)) (h8 : ∀ (p : Fin 512) (q : Fin 512), x8 (ix2 p q) = P.wo_w (ix2 p q)) (h9 : ∀ p : Fin 512, x9 (ix1 p) = P.wo_b (ix1 p)) (h10 : ∀ (p : Fin 512) (q : Fin 512), x10 (ix2 p q) = P.ut_w (ix2 p q)) (h11 : ∀ p : Fin 512, x11 (ix1 p) = P.ut_b (ix1 p)) (h12 : ∀ (p : Fin 1024) (q : Fin 512), x12 (ix2 p q) = P.ug_w (ix2 p q)) (h13 : ∀ p : Fin 1024, x13 (ix1 p) = P.ug_b (ix1 p)) (b : Fin 2048) (s : Fin 8) (d : Fin 512) :
    val_main_v67 (F := Ideal) x0 x1 x2 x3 x4 x5 x6 x7 x8 x9 x10 x11 x12 x13 (ix3 b s d)
      = Cert.Spec.memNew P (fun n i => x0 (ix3 b n i)) (fun n i => x1 (ix3 b n i)) s d :=
  memNew_ref_of P x0 x1 x2 x3 x4 x5 x6 x7 x8 x9 x10 x11 x12 x13 h10 h11 h12 h13 b
    (fun s d => memWrite_ref P x0 x1 x2 x3 x4 x5 x6 x7 x8 x9 h2 h3 h4 h5 h6 h7 h8 h9 b s d) s d

/-- The output the reference returns, at row `b`, in the kernel's order of additions. -/
theorem hOut_at (h2 : ∀ (p : Fin 32) (q : Fin 512), x2 (ix2 p q) = P.wq_w (ix2 p q)) (h3 : ∀ p : Fin 32, x3 (ix1 p) = P.wq_b (ix1 p)) (h4 : ∀ (p : Fin 32) (q : Fin 512), x4 (ix2 p q) = P.wk_w (ix2 p q)) (h5 : ∀ p : Fin 32, x5 (ix1 p) = P.wk_b (ix1 p)) (h6 : ∀ (p : Fin 512) (q : Fin 512), x6 (ix2 p q) = P.wv_w (ix2 p q)) (h7 : ∀ p : Fin 512, x7 (ix1 p) = P.wv_b (ix1 p)) (h8 : ∀ (p : Fin 512) (q : Fin 512), x8 (ix2 p q) = P.wo_w (ix2 p q)) (h9 : ∀ p : Fin 512, x9 (ix1 p) = P.wo_b (ix1 p)) (h10 : ∀ (p : Fin 512) (q : Fin 512), x10 (ix2 p q) = P.ut_w (ix2 p q)) (h11 : ∀ p : Fin 512, x11 (ix1 p) = P.ut_b (ix1 p)) (h12 : ∀ (p : Fin 1024) (q : Fin 512), x12 (ix2 p q) = P.ug_w (ix2 p q)) (h13 : ∀ p : Fin 1024, x13 (ix1 p) = P.ug_b (ix1 p)) (h14 : ∀ (p : Fin 128) (q : Fin 512), x14 (ix2 p q) = P.rq_w (ix2 p q)) (h15 : ∀ p : Fin 128, x15 (ix1 p) = P.rq_b (ix1 p)) (h16 : ∀ (p : Fin 128) (q : Fin 512), x16 (ix2 p q) = P.rk_w (ix2 p q)) (h17 : ∀ p : Fin 128, x17 (ix1 p) = P.rk_b (ix1 p)) (h18 : ∀ (p : Fin 2048) (q : Fin 512), x18 (ix2 p q) = P.rv_w (ix2 p q)) (h19 : ∀ p : Fin 2048, x19 (ix1 p) = P.rv_b (ix1 p)) (h20 : ∀ (p : Fin 512) (q : Fin 2048), x20 (ix2 p q) = P.ro_w (ix2 p q)) (h21 : ∀ p : Fin 512, x21 (ix1 p) = P.ro_b (ix1 p)) (b : Fin 2048) (n : Fin 8) (o : Fin 512) :
    val_main_v107 (F := Ideal) x0 x1 x2 x3 x4 x5 x6 x7 x8 x9 x10 x11 x12 x13 x14 x15 x16 x17 x18 x19 x20 x21 (ix3 b n o)
      = Cert.Spec.hOut P (fun n i => x0 (ix3 b n i)) (fun n i => x1 (ix3 b n i)) n o :=
  (hOut_ref_of P x0 x1 x2 x3 x4 x5 x6 x7 x8 x9 x10 x11 x12 x13 x14 x15 x16 x17 x18 x19 x20 x21 h14 h15 h16 h17 h18 h19 h20 h21 b
    (fun s d => memNew_at P x0 x1 x2 x3 x4 x5 x6 x7 x8 x9 x10 x11 x12 x13 h2 h3 h4 h5 h6 h7 h8 h9 h10 h11 h12 h13 b s d) n o).trans
    (Cert.Spec.hOutRef_eq_hOut P _ _ n o)

end Cert.RefSide

end
-- ==== Proof.lean ====
/-
  The kernel (one fused pass over 128 batch elements per grid point: a write attention over the units and the memory
  slots, a gated update of the memory, a four-head read attention of the units over the updated memory) against its
  jnp reference over all 2048 batch elements, equal over the extended reals.

  Both programs compute, for every batch element on its own, the functions of Proof/Spec.lean. The kernel multiplies
  its attention scores by a scale constant the certificate's table names as the exact reciprocal of the word the
  reference divides by, so the two scores are one extended real (division by a nonzero real is the product with its
  reciprocal); every other difference is one of arrangement: the kernel's matrix products over rows `8 b + s` of a
  block against the reference's batched products, its per-head slices of the weights against the reference's
  reshapes and transposes, its four heads' output products added in order against the reference's one product over
  2048 columns (a finite sum split in four). No law used needs finiteness, so the precondition is never opened.

  Kernel side: Proof/LibBlock.lean reads the block operations at an index, Proof/KerWrite.lean, KerHeadA.lean and
  KerHeadB.lean read each payload of the body as the specification's value, Proof/KerGlue.lean composes them into the
  two stored blocks, Proof/KerArrays.lean goes from blocks to arrays over the generated blockwise value leg.
  Reference side: Proof/RefWrite.lean, RefUpdate.lean, RefRead.lean read the generated stages of the reference's run at
  an index, Proof/SpecAlgebra.lean splits the 2048-column sum, Proof/RefArrays.lean joins them.
-/
import proofs.«106064_j9835475108028_1_alg».proof.Defs
import proofs.«106064_j9835475108028_1_alg».proof.Proof.Gen.Kernel
import proofs.«106064_j9835475108028_1_alg».proof.Proof.Gen.Kernel.Skeleton
import proofs.«106064_j9835475108028_1_alg».proof.Proof.Gen.Kernel.Launch
import proofs.«106064_j9835475108028_1_alg».proof.Proof.Gen.Kernel.Points
import proofs.«106064_j9835475108028_1_alg».proof.Proof.Gen.Kernel.Frame
import proofs.«106064_j9835475108028_1_alg».proof.Proof.Gen.KernelIdeal
import proofs.«106064_j9835475108028_1_alg».proof.Proof.Gen.KernelIdeal.Skeleton
import proofs.«106064_j9835475108028_1_alg».proof.Proof.Gen.KernelIdeal.Launch
import proofs.«106064_j9835475108028_1_alg».proof.Proof.Gen.KernelIdeal.Points
import proofs.«106064_j9835475108028_1_alg».proof.Proof.Gen.KernelIdeal.Frame
import proofs.«106064_j9835475108028_1_alg».proof.Proof.Gen.ReferenceIdeal
import proofs.«106064_j9835475108028_1_alg».proof.Proof.Gen.Pre_finite_inputs
import proofs.«106064_j9835475108028_1_alg».proof.Proof.Imports
import proofs.«106064_j9835475108028_1_alg».proof.Proof.KerArrays
import proofs.«106064_j9835475108028_1_alg».proof.Proof.RefArrays
import Idealize.ShloMosaic.Adequacy
import Idealize.ShloMosaic.Init

noncomputable section

namespace Cert.Proof

open Idealize.ShloMosaic Idealize.ShloMosaic.TcCoe Idealize.SL.Sem Idealize.ShloMosaic.ValueIdx

section
variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ledger's five entries are one: the table gives the scale's name the reciprocal of the reference's divisor, and
    the printed constant is that value at the ideal instance. -/
theorem scale_statement : IdealRules.named_const.Statement Cert.KernelIdeal.κ "inv_sqrt_key" .f32 0x3E3504F3#32 ((2097152 / 11863283 : ℝ) : EReal) :=
  IdealRules.named_const.statement Cert.KernelIdeal.κ "inv_sqrt_key" .f32 0x3E3504F3#32 ((2097152 / 11863283 : ℝ) : EReal) rfl

theorem preserves : Cert.preserves_Kernel_KernelIdeal :=
  ⟨scale_statement, scale_statement, scale_statement, scale_statement, scale_statement⟩

/-- Both runs end with the output and the updated memory at the specification's functions of arguments that agree. -/
theorem algebraic : Cert.algebraic_KernelIdeal_ReferenceIdeal := by
  intro m ρ m' ρ' _ hagree
  refine ⟨fun c => Cert.KerArrays.hOutArr (Cert.KerArrays.arr0 m c) (Cert.KerArrays.arr1 m c) (Cert.KerArrays.PV m c),
    fun c => Cert.KerArrays.memNewArr (Cert.KerArrays.arr0 m c) (Cert.KerArrays.arr1 m c) (Cert.KerArrays.PV m c),
    Cert.KerArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨g0, g1, g2, g3, g4, g5, g6, g7, g8, g9, g10, g11, g12, g13, g14, g15, g16, g17, g18, g19, g20, g21⟩ := hagree c
    rw [Cert.ReferenceIdeal.Read.val_main_v107_eq, g0, g1, g2, g3, g4, g5, g6, g7, g8, g9, g10, g11, g12, g13, g14, g15, g16, g17, g18, g19, g20, g21]
    funext j
    obtain ⟨b, n, o, rfl⟩ : ∃ (b : Fin 2048) (n : Fin 8) (o : Fin 512), j = ix3 b n o := ⟨j 0, j 1, j 2, eq_ix3 j⟩
    exact Cert.RefSide.hOut_at (Cert.KerArrays.PV m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (fun _ _ => rfl) (fun _ => rfl) (fun _ _ => rfl) (fun _ => rfl) (fun _ _ => rfl) (fun _ => rfl) (fun _ _ => rfl) (fun _ => rfl) (fun _ _ => rfl) (fun _ => rfl) (fun _ _ => rfl) (fun _ => rfl) (fun _ _ => rfl) (fun _ => rfl) (fun _ _ => rfl) (fun _ => rfl) (fun _ _ => rfl) (fun _ => rfl) (fun _ _ => rfl) (fun _ => rfl) b n o
  · obtain ⟨g0, g1, g2, g3, g4, g5, g6, g7, g8, g9, g10, g11, g12, g13, g14, g15, g16, g17, g18, g19, g20, g21⟩ := hagree c
    rw [Cert.ReferenceIdeal.Read.val_main_v67_eq, g0, g1, g2, g3, g4, g5, g6, g7, g8, g9, g10, g11, g12, g13]
    funext j
    obtain ⟨b, s, d, rfl⟩ : ∃ (b : Fin 2048) (s : Fin 8) (d : Fin 512), j = ix3 b s d := ⟨j 0, j 1, j 2, eq_ix3 j⟩
    exact Cert.RefSide.memNew_at (Cert.KerArrays.PV m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (fun _ _ => rfl) (fun _ => rfl) (fun _ _ => rfl) (fun _ => rfl) (fun _ _ => rfl) (fun _ => rfl) (fun _ _ => rfl) (fun _ => rfl) (fun _ _ => rfl) (fun _ => rfl) (fun _ _ => rfl) (fun _ => rfl) b s d

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
